-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x5120 : Shape := ⟨2, ![20000, 5120]⟩
abbrev S5120x1680 : Shape := ⟨2, ![5120, 1680]⟩
abbrev S1680 : Shape := ⟨1, ![1680]⟩
abbrev S1680x640 : Shape := ⟨2, ![1680, 640]⟩
abbrev S640 : Shape := ⟨1, ![640]⟩
abbrev S640x320 : Shape := ⟨2, ![640, 320]⟩
abbrev S320 : Shape := ⟨1, ![320]⟩
abbrev S320x160 : Shape := ⟨2, ![320, 160]⟩
abbrev S160 : Shape := ⟨1, ![160]⟩
abbrev S160x2 : Shape := ⟨2, ![160, 2]⟩
abbrev S2 : Shape := ⟨1, ![2]⟩
abbrev S2x32000 : Shape := ⟨2, ![2, 32000]⟩
abbrev S_ : Shape := ⟨0, ![]⟩

class Facts : Prop where
  bcast_S_S20000x5120 : S_.BroadcastsInDim S20000x5120 (![] : Fin 0 → Fin S20000x5120.rank)
  reducesTo_S20000x5120_S_d0_1 : S20000x5120.ReducesTo [0, 1] S_
  h_S_ : 0 < S_.numel
  bcast_S_S5120x1680 : S_.BroadcastsInDim S5120x1680 (![] : Fin 0 → Fin S5120x1680.rank)
  reducesTo_S5120x1680_S_d0_1 : S5120x1680.ReducesTo [0, 1] S_
  bcast_S_S1680 : S_.BroadcastsInDim S1680 (![] : Fin 0 → Fin S1680.rank)
  reducesTo_S1680_S_d0 : S1680.ReducesTo [0] S_
  bcast_S_S1680x640 : S_.BroadcastsInDim S1680x640 (![] : Fin 0 → Fin S1680x640.rank)
  reducesTo_S1680x640_S_d0_1 : S1680x640.ReducesTo [0, 1] S_
  bcast_S_S640 : S_.BroadcastsInDim S640 (![] : Fin 0 → Fin S640.rank)
  reducesTo_S640_S_d0 : S640.ReducesTo [0] S_
  bcast_S_S640x320 : S_.BroadcastsInDim S640x320 (![] : Fin 0 → Fin S640x320.rank)
  reducesTo_S640x320_S_d0_1 : S640x320.ReducesTo [0, 1] S_
  bcast_S_S320 : S_.BroadcastsInDim S320 (![] : Fin 0 → Fin S320.rank)
  reducesTo_S320_S_d0 : S320.ReducesTo [0] S_
  bcast_S_S320x160 : S_.BroadcastsInDim S320x160 (![] : Fin 0 → Fin S320x160.rank)
  reducesTo_S320x160_S_d0_1 : S320x160.ReducesTo [0, 1] S_
  bcast_S_S160 : S_.BroadcastsInDim S160 (![] : Fin 0 → Fin S160.rank)
  reducesTo_S160_S_d0 : S160.ReducesTo [0] S_
  bcast_S_S160x2 : S_.BroadcastsInDim S160x2 (![] : Fin 0 → Fin S160x2.rank)
  reducesTo_S160x2_S_d0_1 : S160x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg10 : FVec F S1680 .f32) (main_v83 : IVec S_ 1) (main_v84 : FVec F S1680 .f32) : IVec S_ 1 :=
  let main_v85 : IVec S1680 1 := cmpf .oge main_arg10 main_v84
  let main_c_33 : IVec S_ 1 := constantI S_ 1 1#1
  let main_v86 : IVec S_ 1 := (fun x v => Host.reduce IntOp.andi x v reducesTo_S1680_S_d0 h_S_) main_v85 main_c_33
  let main_v87 : IVec S_ 1 := andi main_v83 main_v86
  main_v87

def fn_part4 {F : FTy → Type} [FloatOps F] (main_arg10 : FVec F S1680 .f32) (main_arg14 : FVec F S160 .f32) (main_arg15 : FVec F S160x2 .f32) (main_arg16 : FVec F S2 .f32) (main_v63 : IVec S_ 1) (main_v67 : IVec S_ 1) : IVec S_ 1 :=
  let main_v68 : IVec S_ 1 := andi main_v63 main_v67
  let main_v69 : FVec F S160 .f32 := Host.absf main_arg14
  let main_cst_26 : FVec F S_ .f32 := constant S_ .f32 0x7F800000#32
  let main_v70 : FVec F S160 .f32 := broadcastInDim S160 ![] bcast_S_S160 main_cst_26
  let main_v71 : IVec S160 1 := cmpf .olt main_v69 main_v70
  let main_c_27 : IVec S_ 1 := constantI S_ 1 1#1
  let main_v72 : IVec S_ 1 := (fun x v => Host.reduce IntOp.andi x v reducesTo_S160_S_d0 h_S_) main_v71 main_c_27
  let main_v73 : IVec S_ 1 := andi main_v68 main_v72
  let main_v74 : FVec F S160x2 .f32 := Host.absf main_arg15
  let main_cst_28 : FVec F S_ .f32 := constant S_ .f32 0x7F800000#32
  let main_v75 : FVec F S160x2 .f32 := broadcastInDim S160x2 ![] bcast_S_S160x2 main_cst_28
  let main_v76 : IVec S160x2 1 := cmpf .olt main_v74 main_v75
  let main_c_29 : IVec S_ 1 := constantI S_ 1 1#1
  let main_v77 : IVec S_ 1 := (fun x v => Host.reduce IntOp.andi x v reducesTo_S160x2_S_d0_1 h_S_) main_v76 main_c_29
  let main_v78 : IVec S_ 1 := andi main_v73 main_v77
  let main_v79 : FVec F S2 .f32 := Host.absf main_arg16
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  let main_cst_32 : FVec F S_ .f32 := constant S_ .f32 0x00000000#32
  let main_v84 : FVec F S1680 .f32 := broadcastInDim S1680 ![] bcast_S_S1680 main_cst_32
  fn_part5 (F := F) main_arg10 main_v83 main_v84

def fn_part3 {F : FTy → Type} [FloatOps F] (main_arg10 : FVec F S1680 .f32) (main_arg11 : FVec F S640x320 .f32) (main_arg12 : FVec F S320 .f32) (main_arg13 : FVec F S320x160 .f32) (main_arg14 : FVec F S160 .f32) (main_arg15 : FVec F S160x2 .f32) (main_arg16 : FVec F S2 .f32) (main_v48 : IVec S_ 1) (main_v49 : FVec F S1680 .f32) (main_v50 : FVec F S1680 .f32) : IVec S_ 1 :=
  let main_v51 : IVec S1680 1 := cmpf .olt main_v49 main_v50
  let main_c_19 : IVec S_ 1 := constantI S_ 1 1#1
  let main_v52 : IVec S_ 1 := (fun x v => Host.reduce IntOp.andi x v reducesTo_S1680_S_d0 h_S_) main_v51 main_c_19
  let main_v53 : IVec S_ 1 := andi main_v48 main_v52
  let main_v54 : FVec F S640x320 .f32 := Host.absf main_arg11
  let main_cst_20 : FVec F S_ .f32 := constant S_ .f32 0x7F800000#32
  let main_v55 : FVec F S640x320 .f32 := broadcastInDim S640x320 ![] bcast_S_S640x320 main_cst_20
  let main_v56 : IVec S640x320 1 := cmpf .olt main_v54 main_v55
  let main_c_21 : IVec S_ 1 := constantI S_ 1 1#1
  let main_v57 : IVec S_ 1 := (fun x v => Host.reduce IntOp.andi x v reducesTo_S640x320_S_d0_1 h_S_) main_v56 main_c_21
  let main_v58 : IVec S_ 1 := andi main_v53 main_v57
  let main_v59 : FVec F S320 .f32 := Host.absf main_arg12
  let main_cst_22 : FVec F S_ .f32 := constant S_ .f32 0x7F800000#32
  let main_v60 : FVec F S320 .f32 := broadcastInDim S320 ![] bcast_S_S320 main_cst_22
  let main_v61 : IVec S320 1 := cmpf .olt main_v59 main_v60
  let main_c_23 : IVec S_ 1 := constantI S_ 1 1#1
  let main_v62 : IVec S_ 1 := (fun x v => Host.reduce IntOp.andi x v reducesTo_S320_S_d0 h_S_) main_v61 main_c_23
  let main_v63 : IVec S_ 1 := andi main_v58 main_v62
  let main_v64 : FVec F S320x160 .f32 := Host.absf main_arg13
  let main_cst_24 : FVec F S_ .f32 := constant S_ .f32 0x7F800000#32
  let main_v65 : FVec F S320x160 .f32 := broadcastInDim S320x160 ![] bcast_S_S320x160 main_cst_24
  let main_v66 : IVec S320x160 1 := cmpf .olt main_v64 main_v65
  let main_c_25 : IVec S_ 1 := constantI S_ 1 1#1
  let main_v67 : IVec S_ 1 := (fun x v => Host.reduce IntOp.andi x v reducesTo_S320x160_S_d0_1 h_S_) main_v66 main_c_25
  fn_part4 (F := F) main_arg10 main_arg14 main_arg15 main_arg16 main_v63 main_v67

def fn_part2 {F : FTy → Type} [FloatOps F] (main_arg7 : FVec F S1680 .f32) (main_arg8 : FVec F S1680 .f32) (main_arg9 : FVec F S1680 .f32) (main_arg10 : FVec F S1680 .f32) (main_arg11 : FVec F S640x320 .f32) (main_arg12 : FVec F S320 .f32) (main_arg13 : FVec F S320x160 .f32) (main_arg14 : FVec F S160 .f32) (main_arg15 : FVec F S160x2 .f32) (main_arg16 : FVec F S2 .f32) (main_v33 : IVec S_ 1) : IVec S_ 1 :=
  let main_v34 : FVec F S1680 .f32 := Host.absf main_arg7
  let main_cst_12 : FVec F S_ .f32 := constant S_ .f32 0x7F800000#32
  let main_v35 : FVec F S1680 .f32 := broadcastInDim S1680 ![] bcast_S_S1680 main_cst_12
  let main_v36 : IVec S1680 1 := cmpf .olt main_v34 main_v35
  let main_c_13 : IVec S_ 1 := constantI S_ 1 1#1
  let main_v37 : IVec S_ 1 := (fun x v => Host.reduce IntOp.andi x v reducesTo_S1680_S_d0 h_S_) main_v36 main_c_13
  let main_v38 : IVec S_ 1 := andi main_v33 main_v37
  let main_v39 : FVec F S1680 .f32 := Host.absf main_arg8
  let main_cst_14 : FVec F S_ .f32 := constant S_ .f32 0x7F800000#32
  let main_v40 : FVec F S1680 .f32 := broadcastInDim S1680 ![] bcast_S_S1680 main_cst_14
  let main_v41 : IVec S1680 1 := cmpf .olt main_v39 main_v40
  let main_c_15 : IVec S_ 1 := constantI S_ 1 1#1
  let main_v42 : IVec S_ 1 := (fun x v => Host.reduce IntOp.andi x v reducesTo_S1680_S_d0 h_S_) main_v41 main_c_15
  let main_v43 : IVec S_ 1 := andi main_v38 main_v42
  let main_v44 : FVec F S1680 .f32 := Host.absf main_arg9
  let main_cst_16 : FVec F S_ .f32 := constant S_ .f32 0x7F800000#32
  let main_v45 : FVec F S1680 .f32 := broadcastInDim S1680 ![] bcast_S_S1680 main_cst_16
  let main_v46 : IVec S1680 1 := cmpf .olt main_v44 main_v45
  let main_c_17 : IVec S_ 1 := constantI S_ 1 1#1
  let main_v47 : IVec S_ 1 := (fun x v => Host.reduce IntOp.andi x v reducesTo_S1680_S_d0 h_S_) main_v46 main_c_17
  let main_v48 : IVec S_ 1 := andi main_v43 main_v47
  let main_v49 : FVec F S1680 .f32 := Host.absf main_arg10
  let main_cst_18 : FVec F S_ .f32 := constant S_ .f32 0x7F800000#32
  let main_v50 : FVec F S1680 .f32 := broadcastInDim S1680 ![] bcast_S_S1680 main_cst_18
  fn_part3 (F := F) main_arg10 main_arg11 main_arg12 main_arg13 main_arg14 main_arg15 main_arg16 main_v48 main_v49 main_v50

def fn_part1 {F : FTy → Type} [FloatOps F] (main_arg4 : FVec F S1680x640 .f32) (main_arg5 : FVec F S640 .f32) (main_arg6 : FVec F S1680x640 .f32) (main_arg7 : FVec F S1680 .f32) (main_arg8 : FVec F S1680 .f32) (main_arg9 : FVec F S1680 .f32) (main_arg10 : FVec F S1680 .f32) (main_arg11 : FVec F S640x320 .f32) (main_arg12 : FVec F S320 .f32) (main_arg13 : FVec F S320x160 .f32) (main_arg14 : FVec F S160 .f32) (main_arg15 : FVec F S160x2 .f32) (main_arg16 : FVec F S2 .f32) (main_v13 : IVec S_ 1) (main_v16 : IVec S5120x1680 1) : IVec S_ 1 :=
  let main_c_5 : IVec S_ 1 := constantI S_ 1 1#1
  let main_v17 : IVec S_ 1 := (fun x v => Host.reduce IntOp.andi x v reducesTo_S5120x1680_S_d0_1 h_S_) main_v16 main_c_5
  let main_v18 : IVec S_ 1 := andi main_v13 main_v17
  let main_v19 : FVec F S1680x640 .f32 := Host.absf main_arg4
  let main_cst_6 : FVec F S_ .f32 := constant S_ .f32 0x7F800000#32
  let main_v20 : FVec F S1680x640 .f32 := broadcastInDim S1680x640 ![] bcast_S_S1680x640 main_cst_6
  let main_v21 : IVec S1680x640 1 := cmpf .olt main_v19 main_v20
  let main_c_7 : IVec S_ 1 := constantI S_ 1 1#1
  let main_v22 : IVec S_ 1 := (fun x v => Host.reduce IntOp.andi x v reducesTo_S1680x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S1680x640 .f32 := Host.absf main_arg6
  let main_cst_10 : FVec F S_ .f32 := constant S_ .f32 0x7F800000#32
  let main_v30 : FVec F S1680x640 .f32 := broadcastInDim S1680x640 ![] bcast_S_S1680x640 main_cst_10
  let main_v31 : IVec S1680x640 1 := cmpf .olt main_v29 main_v30
  let main_c_11 : IVec S_ 1 := constantI S_ 1 1#1
  let main_v32 : IVec S_ 1 := (fun x v => Host.reduce IntOp.andi x v reducesTo_S1680x640_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S20000x5120 .f32) (main_arg1 : FVec F S5120x1680 .f32) (main_arg2 : FVec F S1680 .f32) (main_arg3 : FVec F S5120x1680 .f32) (main_arg4 : FVec F S1680x640 .f32) (main_arg5 : FVec F S640 .f32) (main_arg6 : FVec F S1680x640 .f32) (main_arg7 : FVec F S1680 .f32) (main_arg8 : FVec F S1680 .f32) (main_arg9 : FVec F S1680 .f32) (main_arg10 : FVec F S1680 .f32) (main_arg11 : FVec F S640x320 .f32) (main_arg12 : FVec F S320 .f32) (main_arg13 : FVec F S320x160 .f32) (main_arg14 : FVec F S160 .f32) (main_arg15 : FVec F S160x2 .f32) (main_arg16 : FVec F S2 .f32) (main_arg17 : IVec S2x32000 32) : IVec S_ 1 :=
  let main_v0 : FVec F S20000x5120 .f32 := Host.absf main_arg0
  let main_cst : FVec F S_ .f32 := constant S_ .f32 0x7F800000#32
  let main_v1 : FVec F S20000x5120 .f32 := broadcastInDim S20000x5120 ![] bcast_S_S20000x5120 main_cst
  let main_v2 : IVec S20000x5120 1 := cmpf .olt main_v0 main_v1
  let main_c : IVec S_ 1 := constantI S_ 1 1#1
  let main_v3 : IVec S_ 1 := (fun x v => Host.reduce IntOp.andi x v reducesTo_S20000x5120_S_d0_1 h_S_) main_v2 main_c
  let main_v4 : FVec F S5120x1680 .f32 := Host.absf main_arg1
  let main_cst_0 : FVec F S_ .f32 := constant S_ .f32 0x7F800000#32
  let main_v5 : FVec F S5120x1680 .f32 := broadcastInDim S5120x1680 ![] bcast_S_S5120x1680 main_cst_0
  let main_v6 : IVec S5120x1680 1 := cmpf .olt main_v4 main_v5
  let main_c_1 : IVec S_ 1 := constantI S_ 1 1#1
  let main_v7 : IVec S_ 1 := (fun x v => Host.reduce IntOp.andi x v reducesTo_S5120x1680_S_d0_1 h_S_) main_v6 main_c_1
  let main_v8 : IVec S_ 1 := andi main_v3 main_v7
  let main_v9 : FVec F S1680 .f32 := Host.absf main_arg2
  let main_cst_2 : FVec F S_ .f32 := constant S_ .f32 0x7F800000#32
  let main_v10 : FVec F S1680 .f32 := broadcastInDim S1680 ![] bcast_S_S1680 main_cst_2
  let main_v11 : IVec S1680 1 := cmpf .olt main_v9 main_v10
  let main_c_3 : IVec S_ 1 := constantI S_ 1 1#1
  let main_v12 : IVec S_ 1 := (fun x v => Host.reduce IntOp.andi x v reducesTo_S1680_S_d0 h_S_) main_v11 main_c_3
  let main_v13 : IVec S_ 1 := andi main_v8 main_v12
  let main_v14 : FVec F S5120x1680 .f32 := Host.absf main_arg3
  let main_cst_4 : FVec F S_ .f32 := constant S_ .f32 0x7F800000#32
  let main_v15 : FVec F S5120x1680 .f32 := broadcastInDim S5120x1680 ![] bcast_S_S5120x1680 main_cst_4
  let main_v16 : IVec S5120x1680 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S20000x5120 : Shape := ⟨2, ![20000, 5120]⟩
abbrev S5120x1680 : Shape := ⟨2, ![5120, 1680]⟩
abbrev S1680 : Shape := ⟨1, ![1680]⟩
abbrev S1680x640 : Shape := ⟨2, ![1680, 640]⟩
abbrev S640 : Shape := ⟨1, ![640]⟩
abbrev S640x320 : Shape := ⟨2, ![640, 320]⟩
abbrev S320 : Shape := ⟨1, ![320]⟩
abbrev S320x160 : Shape := ⟨2, ![320, 160]⟩
abbrev S160 : Shape := ⟨1, ![160]⟩
abbrev S160x2 : Shape := ⟨2, ![160, 2]⟩
abbrev S2 : Shape := ⟨1, ![2]⟩
abbrev S2x32000 : Shape := ⟨2, ![2, 32000]⟩
abbrev S1x32000 : Shape := ⟨2, ![1, 32000]⟩
abbrev S32000 : Shape := ⟨1, ![32000]⟩
abbrev S_ : Shape := ⟨0, ![]⟩
abbrev S20000 : Shape := ⟨1, ![20000]⟩
abbrev S32000x1 : Shape := ⟨2, ![32000, 1]⟩
abbrev S20000x1 : Shape := ⟨2, ![20000, 1]⟩
abbrev S20000x1680 : Shape := ⟨2, ![20000, 1680]⟩
abbrev S1000x512 : Shape := ⟨2, ![1000, 512]⟩
abbrev S512x1680 : Shape := ⟨2, ![512, 1680]⟩
abbrev S1000x1680 : Shape := ⟨2, ![1000, 1680]⟩
abbrev S32000x1680 : Shape := ⟨2, ![32000, 1680]⟩
abbrev S1x1680 : Shape := ⟨2, ![1, 1680]⟩
abbrev S20000x640 : Shape := ⟨2, ![20000, 640]⟩
abbrev S800x1680 : Shape := ⟨2, ![800, 1680]⟩
abbrev S800x640 : Shape := ⟨2, ![800, 640]⟩
abbrev S32000x640 : Shape := ⟨2, ![32000, 640]⟩
abbrev S1x640 : Shape := ⟨2, ![1, 640]⟩
abbrev S1x320 : Shape := ⟨2, ![1, 320]⟩
abbrev S1x160 : Shape := ⟨2, ![1, 160]⟩
abbrev S1x2 : Shape := ⟨2, ![1, 2]⟩
abbrev S20000x2 : Shape := ⟨2, ![20000, 2]⟩
abbrev S2000x640 : Shape := ⟨2, ![2000, 640]⟩
abbrev S2000x2 : Shape := ⟨2, ![2000, 2]⟩
abbrev S2000x320 : Shape := ⟨2, ![2000, 320]⟩
abbrev S2000x160 : Shape := ⟨2, ![2000, 160]⟩

abbrev nBuf : Space → Nat
  | .hbm => 86
  | .vmem => 38
  | .smem => 0
  | _ => 0

abbrev bufTy : (tb : Table) → Fin (tcTables nBuf tb) → BufTy
  | .hbm, ⟨0, _⟩ => ⟨S20000x5120, .f32⟩
  | .hbm, ⟨1, _⟩ => ⟨S5120x1680, .f32⟩
  | .hbm, ⟨2, _⟩ => ⟨S1680, .f32⟩
  | .hbm, ⟨3, _⟩ => ⟨S5120x1680, .f32⟩
  | .hbm, ⟨4, _⟩ => ⟨S1680x640, .f32⟩
  | .hbm, ⟨5, _⟩ => ⟨S640, .f32⟩
  | .hbm, ⟨6, _⟩ => ⟨S1680x640, .f32⟩
  | .hbm, ⟨7, _⟩ => ⟨S1680, .f32⟩
  | .hbm, ⟨8, _⟩ => ⟨S1680, .f32⟩
  | .hbm, ⟨9, _⟩ => ⟨S1680, .f32⟩
  | .hbm, ⟨10, _⟩ => ⟨S1680, .f32⟩
  | .hbm, ⟨11, _⟩ => ⟨S640x320, .f32⟩
  | .hbm, ⟨12, _⟩ => ⟨S320, .f32⟩
  | .hbm, ⟨13, _⟩ => ⟨S320x160, .f32⟩
  | .hbm, ⟨14, _⟩ => ⟨S160, .f32⟩
  | .hbm, ⟨15, _⟩ => ⟨S160x2, .f32⟩
  | .hbm, ⟨16, _⟩ => ⟨S2, .f32⟩
  | .hbm, ⟨17, _⟩ => ⟨S2x32000, .i32⟩
  | .hbm, ⟨18, _⟩ => ⟨S1x32000, .i32⟩
  | .hbm, ⟨19, _⟩ => ⟨S32000, .i32⟩
  | .hbm, ⟨20, _⟩ => ⟨S1x32000, .i32⟩
  | .hbm, ⟨21, _⟩ => ⟨S32000, .i32⟩
  | .hbm, ⟨22, _⟩ => ⟨S_, .f32⟩
  | .hbm, ⟨23, _⟩ => ⟨S32000, .f32⟩
  | .hbm, ⟨24, _⟩ => ⟨S_, .f32⟩
  | .hbm, ⟨25, _⟩ => ⟨S20000, .f32⟩
  | .hbm, ⟨26, _⟩ => ⟨S32000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S_, .f32⟩
  | .hbm, ⟨32, _⟩ => ⟨S20000, .f32⟩
  | .hbm, ⟨33, _⟩ => ⟨S20000, .f32⟩
  | .hbm, ⟨34, _⟩ => ⟨S20000x1, .f32⟩
  | .hbm, ⟨35, _⟩ => ⟨S5120x1680, .bf16⟩
  | .hbm, ⟨36, _⟩ => ⟨S5120x1680, .bf16⟩
  | .hbm, ⟨37, _⟩ => ⟨S20000x1680, .f32⟩
  | .hbm, ⟨38, _⟩ => ⟨S20000x1680, .f32⟩
  | .hbm, ⟨39, _⟩ => ⟨S_, .i32⟩
  | .hbm, ⟨40, _⟩ => ⟨S32000, .i32⟩
  | .hbm, ⟨41, _⟩ => ⟨S32000, .i1⟩
  | .hbm, ⟨42, _⟩ => ⟨S_, .i32⟩
  | .hbm, ⟨43, _⟩ => ⟨S32000, .i32⟩
  | .hbm, ⟨44, _⟩ => ⟨S32000, .i32⟩
  | .hbm, ⟨45, _⟩ => ⟨S32000, .i32⟩
  | .hbm, ⟨46, _⟩ => ⟨S32000x1, .i32⟩
  | .hbm, ⟨47, _⟩ => ⟨S32000x1680, .f32⟩
  | .hbm, ⟨48, _⟩ => ⟨S_, .f32⟩
  | .hbm, ⟨49, _⟩ => ⟨S20000x1680, .f32⟩
  | .hbm, ⟨50, _⟩ => ⟨S32000x1, .i32⟩
  | .hbm, ⟨51, _⟩ => ⟨S20000x1680, .f32⟩
  | .hbm, ⟨52, _⟩ => ⟨S20000x1680, .f32⟩
  | .hbm, ⟨53, _⟩ => ⟨S20000x1680, .f32⟩
  | .hbm, ⟨54, _⟩ => ⟨S1x1680, .f32⟩
  | .hbm, ⟨55, _⟩ => ⟨S1x1680, .f32⟩
  | .hbm, ⟨56, _⟩ => ⟨S1x1680, .f32⟩
  | .hbm, ⟨57, _⟩ => ⟨S1x1680, .f32⟩
  | .hbm, ⟨58, _⟩ => ⟨S1x1680, .f32⟩
  | .hbm, ⟨59, _⟩ => ⟨S1680x640, .bf16⟩
  | .hbm, ⟨60, _⟩ => ⟨S1680x640, .bf16⟩
  | .hbm, ⟨61, _⟩ => ⟨S20000x640, .f32⟩
  | .hbm, ⟨62, _⟩ => ⟨S20000x640, .f32⟩
  | .hbm, ⟨63, _⟩ => ⟨S_, .i32⟩
  | .hbm, ⟨64, _⟩ => ⟨S32000, .i32⟩
  | .hbm, ⟨65, _⟩ => ⟨S32000, .i1⟩
  | .hbm, ⟨66, _⟩ => ⟨S_, .i32⟩
  | .hbm, ⟨67, _⟩ => ⟨S32000, .i32⟩
  | .hbm, ⟨68, _⟩ => ⟨S32000, .i32⟩
  | .hbm, ⟨69, _⟩ => ⟨S32000, .i32⟩
  | .hbm, ⟨70, _⟩ => ⟨S32000x1, .i32⟩
  | .hbm, ⟨71, _⟩ => ⟨S32000x640, .f32⟩
  | .hbm, ⟨72, _⟩ => ⟨S_, .f32⟩
  | .hbm, ⟨73, _⟩ => ⟨S20000x640, .f32⟩
  | .hbm, ⟨74, _⟩ => ⟨S32000x1, .i32⟩
  | .hbm, ⟨75, _⟩ => ⟨S20000x640, .f32⟩
  | .hbm, ⟨76, _⟩ => ⟨S20000x640, .f32⟩
  | .hbm, ⟨77, _⟩ => ⟨S20000x640, .f32⟩
  | .hbm, ⟨78, _⟩ => ⟨S1x640, .f32⟩
  | .hbm, ⟨79, _⟩ => ⟨S640x320, .bf16⟩
  | .hbm, ⟨80, _⟩ => ⟨S320x160, .bf16⟩
  | .hbm, ⟨81, _⟩ => ⟨S160x2, .bf16⟩
  | .hbm, ⟨82, _⟩ => ⟨S1x320, .f32⟩
  | .hbm, ⟨83, _⟩ => ⟨S1x160, .f32⟩
  | .hbm, ⟨84, _⟩ => ⟨S1x2, .f32⟩
  | .hbm, ⟨85, _⟩ => ⟨S20000x2, .f32⟩
  | .local _ .vmem, ⟨0, _⟩ => ⟨S1000x512, .f32⟩
  | .local _ .vmem, ⟨1, _⟩ => ⟨S1000x512, .f32⟩
  | .local _ .vmem, ⟨2, _⟩ => ⟨S512x1680, .bf16⟩
  | .local _ .vmem, ⟨3, _⟩ => ⟨S512x1680, .bf16⟩
  | .local _ .vmem, ⟨4, _⟩ => ⟨S512x1680, .bf16⟩
  | .local _ .vmem, ⟨5, _⟩ => ⟨S512x1680, .bf16⟩
  | .local _ .vmem, ⟨6, _⟩ => ⟨S1000x1680, .f32⟩
  | .local _ .vmem, ⟨7, _⟩ => ⟨S1000x1680, .f32⟩
  | .local _ .vmem, ⟨8, _⟩ => ⟨S1000x1680, .f32⟩
  | .local _ .vmem, ⟨9, _⟩ => ⟨S1000x1680, .f32⟩
  | .local _ .vmem, ⟨10, _⟩ => ⟨S800x1680, .f32⟩
  | .local _ .vmem, ⟨11, _⟩ => ⟨S800x1680, .f32⟩
  | .local _ .vmem, ⟨12, _⟩ => ⟨S800x1680, .f32⟩
  | .local _ .vmem, ⟨13, _⟩ => ⟨S800x1680, .f32⟩
  | .local _ .vmem, ⟨14, _⟩ => ⟨S1x1680, .f32⟩
  | .local _ .vmem, ⟨15, _⟩ => ⟨S1x1680, .f32⟩
  | .local _ .vmem, ⟨16, _⟩ => ⟨S1x1680, .f32⟩
  | .local _ .vmem, ⟨17, _⟩ => ⟨S1x1680, .f32⟩
  | .local _ .vmem, ⟨18, _⟩ => ⟨S1x1680, .f32⟩
  | .local _ .vmem, ⟨19, _⟩ => ⟨S1680x640, .bf16⟩
  | .local _ .vmem, ⟨20, _⟩ => ⟨S1680x640, .bf16⟩
  | .local _ .vmem, ⟨21, _⟩ => ⟨S800x640, .f32⟩
  | .local _ .vmem, ⟨22, _⟩ => ⟨S800x640, .f32⟩
  | .local _ .vmem, ⟨23, _⟩ => ⟨S800x640, .f32⟩
  | .local _ .vmem, ⟨24, _⟩ => ⟨S800x640, .f32⟩
  | .local _ .vmem, ⟨25, _⟩ => ⟨S2000x640, .f32⟩
  | .local _ .vmem, ⟨26, _⟩ => ⟨S2000x640, .f32⟩
  | .local _ .vmem, ⟨27, _⟩ => ⟨S2000x640, .f32⟩
  | .local _ .vmem, ⟨28, _⟩ => ⟨S2000x640, .f32⟩
  | .local _ .vmem, ⟨29, _⟩ => ⟨S1x640, .f32⟩
  | .local _ .vmem, ⟨30, _⟩ => ⟨S640x320, .bf16⟩
  | .local _ .vmem, ⟨31, _⟩ => ⟨S1x320, .f32⟩
  | .local _ .vmem, ⟨32, _⟩ => ⟨S320x160, .bf16⟩
  | .local _ .vmem, ⟨33, _⟩ => ⟨S1x160, .f32⟩
  | .local _ .vmem, ⟨34, _⟩ => ⟨S160x2, .bf16⟩
  | .local _ .vmem, ⟨35, _⟩ => ⟨S1x2, .f32⟩
  | .local _ .vmem, ⟨36, _⟩ => ⟨S2000x2, .f32⟩
  | .local _ .vmem, ⟨37, _⟩ => ⟨S2000x2, .f32⟩
  | _, _ => ⟨S20000x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15_0 : Ref sig .tc := ⟨.hbm, 37, rfl⟩
abbrev main_v15_1 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35_0 : Ref sig .tc := ⟨.hbm, 61, rfl⟩
abbrev main_v35_1 : Ref sig .tc := ⟨.hbm, 62, rfl⟩
abbrev main_c_5 : Ref sig .tc := ⟨.hbm, 63, rfl⟩
abbrev main_v36 : Ref sig .tc := ⟨.hbm, 64, rfl⟩
abbrev main_v37 : Ref sig .tc := ⟨.hbm, 65, rfl⟩
abbrev main_c_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc1_sem10_0 : DmaSem sig := 23
abbrev cc1_sem10_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37

abbrev nD : Nat := 1
abbrev τ : Topo := Topo.v7x

variable {F : FTy → Type} [FloatOps F]

abbrev grid0 : Pipeline.Grid := ⟨2, ![20, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1680 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1680 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1000x1680 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1000x1680 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x1680 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S800x1680 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1680 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1680 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1680 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1680 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1680 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1680x640 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1680x640 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S800x640 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S800x640 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x640 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S640x320 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x320 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S320x160 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x160 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S160x2 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x2 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x32000_S1x32000_0_0 : S2x32000.Slices ![0, 0] S1x32000
  shapeCasts_S1x32000_S32000 : S1x32000.ShapeCasts S32000
  slices_S2x32000_S1x32000_1_0 : S2x32000.Slices ![1, 0] S1x32000
  bcast_S_S32000 : S_.BroadcastsInDim S32000 (![] : Fin 0 → Fin S32000.rank)
  bcast_S_S20000 : S_.BroadcastsInDim S20000 (![] : Fin 0 → Fin S20000.rank)
  bcast_S32000_S32000x1_0 : S32000.BroadcastsInDim S32000x1 (![0] : Fin 1 → Fin S32000x1.rank)
  bcast_S20000_S20000x1_0 : S20000.BroadcastsInDim S20000x1 (![0] : Fin 1 → Fin S20000x1.rank)
  bitsLt_bf16_f32 : FTy.bits .bf16 < FTy.bits .f32
  inb_S1000x1680_S1000x1680_0_0 : ∀ a, (![0, 0] : Fin 2 → Nat) a + S1000x1680.size a ≤ S1000x1680.size a
  h_S1000x1680 : 0 < S1000x1680.numel
  inb_S1000x512_S1000x512_0_0 : ∀ a, (![0, 0] : Fin 2 → Nat) a + S1000x512.size a ≤ S1000x512.size a
  h_S1000x512 : 0 < S1000x512.numel
  shapeCasts_S1000x1680_S1000x1680 : S1000x1680.ShapeCasts S1000x1680
  inb_S512x1680_S512x1680_0_0 : ∀ a, (![0, 0] : Fin 2 → Nat) a + S512x1680.size a ≤ S512x1680.size a
  h_S512x1680 : 0 < S512x1680.numel
  shapeCasts_S512x1680_S512x1680 : S512x1680.ShapeCasts S512x1680
  bcast_S_S20000x1680 : S_.BroadcastsInDim S20000x1680 (![] : Fin 0 → Fin S20000x1680.rank)
  bcast_S20000x1_S20000x1680_0_1 : S20000x1.BroadcastsInDim S20000x1680 (![0, 1] : Fin 2 → Fin S20000x1680.rank)
  shapeCasts_S1680_S1x1680 : S1680.ShapeCasts S1x1680
  inb_S800x1680_S800x1680_0_0 : ∀ a, (![0, 0] : Fin 2 → Nat) a + S800x1680.size a ≤ S800x1680.size a
  h_S800x1680 : 0 < S800x1680.numel
  shapeCasts_S800x1680_S800x1680 : S800x1680.ShapeCasts S800x1680
  inb_S1x1680_S1x1680_0_0 : ∀ a, (![0, 0] : Fin 2 → Nat) a + S1x1680.size a ≤ S1x1680.size a
  h_S1x1680 : 0 < S1x1680.numel
  shapeCasts_S1x1680_S1x1680 : S1x1680.ShapeCasts S1x1680
  broadcasts_S1x1680_S800x1680 : S1x1680.Broadcasts S800x1680
  inb_S1680x640_S1680x640_0_0 : ∀ a, (![0, 0] : Fin 2 → Nat) a + S1680x640.size a ≤ S1680x640.size a
  h_S1680x640 : 0 < S1680x640.numel
  shapeCasts_S1680x640_S1680x640 : S1680x640.ShapeCasts S1680x640
  inb_S800x640_S800x640_0_0 : ∀ a, (![0, 0] : Fin 2 → Nat) a + S800x640.size a ≤ S800x640.size a
  h_S800x640 : 0 < S800x640.numel
  bcast_S_S20000x640 : S_.BroadcastsInDim S20000x640 (![] : Fin 0 → Fin S20000x640.rank)
  bcast_S20000x1_S20000x640_0_1 : S20000x1.BroadcastsInDim S20000x640 (![0, 1] : Fin 2 → Fin S20000x640.rank)
  shapeCasts_S640_S1x640 : S640.ShapeCasts S1x640
  shapeCasts_S320_S1x320 : S320.ShapeCasts S1x320
  shapeCasts_S160_S1x160 : S160.ShapeCasts S1x160
  shapeCasts_S2_S1x2 : S2.ShapeCasts S1x2
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2000x640 : S1x640.Broadcasts S2000x640
  inb_S640x320_S640x320_0_0 : ∀ a, (![0, 0] : Fin 2 → Nat) a + S640x320.size a ≤ S640x320.size a
  h_S640x320 : 0 < S640x320.numel
  shapeCasts_S640x320_S640x320 : S640x320.ShapeCasts S640x320
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S2000x320 : S1x320.Broadcasts S2000x320
  inb_S320x160_S320x160_0_0 : ∀ a, (![0, 0] : Fin 2 → Nat) a + S320x160.size a ≤ S320x160.size a
  h_S320x160 : 0 < S320x160.numel
  shapeCasts_S320x160_S320x160 : S320x160.ShapeCasts S320x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S2000x160 : S1x160.Broadcasts S2000x160
  inb_S160x2_S160x2_0_0 : ∀ a, (![0, 0] : Fin 2 → Nat) a + S160x2.size a ≤ S160x2.size a
  h_S160x2 : 0 < S160x2.numel
  shapeCasts_S160x2_S160x2 : S160x2.ShapeCasts S160x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S20000_S32000x1_S32000_n_0_0_1_wf : ScatterDims.WF S20000 S32000x1 S32000 [] [0] [0] 1
  dot_S1000x512_S512x1680_S1000x1680_1_0_0_1_n_n_wf : DotDims.WF S1000x512 S512x1680 S1000x1680 [1] [0] [0] [1] [] []
  gather_S20000x1680_S32000x1_S32000x1680_1_0_n_n_0_1_11680_wf : GatherDims.WF S20000x1680 S32000x1 S32000x1680 [1] [0] [] [0] [] 1 ![1, 1680]
  scatter_S20000x1680_S32000x1_S32000x1680_1_0_0_1_wf : ScatterDims.WF S20000x1680 S32000x1 S32000x1680 [1] [0] [0] 1
  dot_S800x1680_S1680x640_S800x640_1_0_0_1_n_n_wf : DotDims.WF S800x1680 S1680x640 S800x640 [1] [0] [0] [1] [] []
  gather_S20000x640_S32000x1_S32000x640_1_0_n_n_0_1_1640_wf : GatherDims.WF S20000x640 S32000x1 S32000x640 [1] [0] [] [0] [] 1 ![1, 640]
  scatter_S20000x640_S32000x1_S32000x640_1_0_0_1_wf : ScatterDims.WF S20000x640 S32000x1 S32000x640 [1] [0] [0] 1
  dot_S2000x640_S640x320_S2000x320_1_0_0_1_n_n_wf : DotDims.WF S2000x640 S640x320 S2000x320 [1] [0] [0] [1] [] []
  dot_S2000x320_S320x160_S2000x160_1_0_0_1_n_n_wf : DotDims.WF S2000x320 S320x160 S2000x160 [1] [0] [0] [1] [] []
  dot_S2000x160_S160x2_S2000x2_1_0_0_1_n_n_wf : DotDims.WF S2000x160 S160x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x5120.size a
  hwx0_0 : ∀ i : grid0.Coords, EltTy.bits .f32 = 32 ∨ (Rect.block (s := S20000x5120) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1680.size a ≤ S5120x1680.size a
  hwx0_1 : ∀ i : grid0.Coords, EltTy.bits .bf16 = 32 ∨ (Rect.block (s := S5120x1680) S512x1680.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1680.size a ≤ S5120x1680.size a
  hwx0_2 : ∀ i : grid0.Coords, EltTy.bits .bf16 = 32 ∨ (Rect.block (s := S5120x1680) S512x1680.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1680.size a ≤ S20000x1680.size a
  hwx0_3 : ∀ i : grid0.Coords, EltTy.bits .f32 = 32 ∨ (Rect.block (s := S20000x1680) S1000x1680.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1680.size a ≤ S20000x1680.size a
  hwx0_4 : ∀ i : grid0.Coords, EltTy.bits .f32 = 32 ∨ (Rect.block (s := S20000x1680) S1000x1680.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x1680.size a ≤ S20000x1680.size a
  hwx1_0 : ∀ i : grid1.Coords, EltTy.bits .f32 = 32 ∨ (Rect.block (s := S20000x1680) S800x1680.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S800x1680.size a ≤ S20000x1680.size a
  hwx1_1 : ∀ i : grid1.Coords, EltTy.bits .f32 = 32 ∨ (Rect.block (s := S20000x1680) S800x1680.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1680.size a ≤ S1x1680.size a
  hwx1_2 : ∀ i : grid1.Coords, EltTy.bits .f32 = 32 ∨ (Rect.block (s := S1x1680) S1x1680.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1680.size a ≤ S1x1680.size a
  hwx1_3 : ∀ i : grid1.Coords, EltTy.bits .f32 = 32 ∨ (Rect.block (s := S1x1680) S1x1680.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1680.size a ≤ S1x1680.size a
  hwx1_4 : ∀ i : grid1.Coords, EltTy.bits .f32 = 32 ∨ (Rect.block (s := S1x1680) S1x1680.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1680.size a ≤ S1x1680.size a
  hwx1_5 : ∀ i : grid1.Coords, EltTy.bits .f32 = 32 ∨ (Rect.block (s := S1x1680) S1x1680.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1680.size a ≤ S1x1680.size a
  hwx1_6 : ∀ i : grid1.Coords, EltTy.bits .f32 = 32 ∨ (Rect.block (s := S1x1680) S1x1680.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1680x640.size a ≤ S1680x640.size a
  hwx1_7 : ∀ i : grid1.Coords, EltTy.bits .bf16 = 32 ∨ (Rect.block (s := S1680x640) S1680x640.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1680x640.size a ≤ S1680x640.size a
  hwx1_8 : ∀ i : grid1.Coords, EltTy.bits .bf16 = 32 ∨ (Rect.block (s := S1680x640) S1680x640.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S800x640.size a ≤ S20000x640.size a
  hwx1_9 : ∀ i : grid1.Coords, EltTy.bits .f32 = 32 ∨ (Rect.block (s := S20000x640) S800x640.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S800x640.size a ≤ S20000x640.size a
  hwx1_10 : ∀ i : grid1.Coords, EltTy.bits .f32 = 32 ∨ (Rect.block (s := S20000x640) S800x640.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x640.size a ≤ S20000x640.size a
  hwx2_0 : ∀ i : grid2.Coords, EltTy.bits .f32 = 32 ∨ (Rect.block (s := S20000x640) S2000x640.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x640.size a ≤ S20000x640.size a
  hwx2_1 : ∀ i : grid2.Coords, EltTy.bits .f32 = 32 ∨ (Rect.block (s := S20000x640) S2000x640.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x640.size a ≤ S1x640.size a
  hwx2_2 : ∀ i : grid2.Coords, EltTy.bits .f32 = 32 ∨ (Rect.block (s := S1x640) S1x640.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S640x320.size a ≤ S640x320.size a
  hwx2_3 : ∀ i : grid2.Coords, EltTy.bits .bf16 = 32 ∨ (Rect.block (s := S640x320) S640x320.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x320.size a ≤ S1x320.size a
  hwx2_4 : ∀ i : grid2.Coords, EltTy.bits .f32 = 32 ∨ (Rect.block (s := S1x320) S1x320.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S320x160.size a ≤ S320x160.size a
  hwx2_5 : ∀ i : grid2.Coords, EltTy.bits .bf16 = 32 ∨ (Rect.block (s := S320x160) S320x160.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x160.size a ≤ S1x160.size a
  hwx2_6 : ∀ i : grid2.Coords, EltTy.bits .f32 = 32 ∨ (Rect.block (s := S1x160) S1x160.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S160x2.size a ≤ S160x2.size a
  hwx2_7 : ∀ i : grid2.Coords, EltTy.bits .bf16 = 32 ∨ (Rect.block (s := S160x2) S160x2.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2.size a ≤ S1x2.size a
  hwx2_8 : ∀ i : grid2.Coords, EltTy.bits .f32 = 32 ∨ (Rect.block (s := S1x2) S1x2.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x2.size a ≤ S20000x2.size a
  hwx2_9 : ∀ i : grid2.Coords, EltTy.bits .f32 = 32 ∨ (Rect.block (s := S20000x2) S2000x2.size (cc2_transform_9 i) (hinb2_9 i)).WholeWords (EltTy.packing .f32)

variable [Facts₀]

def scatter_S20000_S32000x1_S32000_n_0_0_1 : ScatterDims S20000 S32000x1 S32000 where
  updateWindowDims := []
  insertedWindowDims := [0]
  scatterDimsToOperandDims := [0]
  indexVectorDim := 1
  wf := scatter_S20000_S32000x1_S32000_n_0_0_1_wf
def dot_S1000x512_S512x1680_S1000x1680_1_0_0_1_n_n : DotDims S1000x512 S512x1680 S1000x1680 where
  lhsContracting := [1]
  rhsContracting := [0]
  lhsNonContracting := [0]
  rhsNonContracting := [1]
  lhsBatch := []
  rhsBatch := []
  wf := dot_S1000x512_S512x1680_S1000x1680_1_0_0_1_n_n_wf
def gather_S20000x1680_S32000x1_S32000x1680_1_0_n_n_0_1_11680 : GatherDims S20000x1680 S32000x1 S32000x1680 where
  offsetDims := [1]
  collapsedSliceDims := [0]
  operandBatchingDims := []
  startIndicesBatchingDims := []
  startIndexMap := [0]
  indexVectorDim := 1
  sliceSizes := ![1, 1680]
  wf := gather_S20000x1680_S32000x1_S32000x1680_1_0_n_n_0_1_11680_wf
def scatter_S20000x1680_S32000x1_S32000x1680_1_0_0_1 : ScatterDims S20000x1680 S32000x1 S32000x1680 where
  updateWindowDims := [1]
  insertedWindowDims := [0]
  scatterDimsToOperandDims := [0]
  indexVectorDim := 1
  wf := scatter_S20000x1680_S32000x1_S32000x1680_1_0_0_1_wf
def dot_S800x1680_S1680x640_S800x640_1_0_0_1_n_n : DotDims S800x1680 S1680x640 S800x640 where
  lhsContracting := [1]
  rhsContracting := [0]
  lhsNonContracting := [0]
  rhsNonContracting := [1]
  lhsBatch := []
  rhsBatch := []
  wf := dot_S800x1680_S1680x640_S800x640_1_0_0_1_n_n_wf
def gather_S20000x640_S32000x1_S32000x640_1_0_n_n_0_1_1640 : GatherDims S20000x640 S32000x1 S32000x640 where
  offsetDims := [1]
  collapsedSliceDims := [0]
  operandBatchingDims := []
  startIndicesBatchingDims := []
  startIndexMap := [0]
  indexVectorDim := 1
  sliceSizes := ![1, 640]
  wf := gather_S20000x640_S32000x1_S32000x640_1_0_n_n_0_1_1640_wf
def scatter_S20000x640_S32000x1_S32000x640_1_0_0_1 : ScatterDims S20000x640 S32000x1 S32000x640 where
  updateWindowDims := [1]
  insertedWindowDims := [0]
  scatterDimsToOperandDims := [0]
  indexVectorDim := 1
  wf := scatter_S20000x640_S32000x1_S32000x640_1_0_0_1_wf
def dot_S2000x640_S640x320_S2000x320_1_0_0_1_n_n : DotDims S2000x640 S640x320 S2000x320 where
  lhsContracting := [1]
  rhsContracting := [0]
  lhsNonContracting := [0]
  rhsNonContracting := [1]
  lhsBatch := []
  rhsBatch := []
  wf := dot_S2000x640_S640x320_S2000x320_1_0_0_1_n_n_wf
def dot_S2000x320_S320x160_S2000x160_1_0_0_1_n_n : DotDims S2000x320 S320x160 S2000x160 where
  lhsContracting := [1]
  rhsContracting := [0]
  lhsNonContracting := [0]
  rhsNonContracting := [1]
  lhsBatch := []
  rhsBatch := []
  wf := dot_S2000x320_S320x160_S2000x160_1_0_0_1_n_n_wf
def dot_S2000x160_S160x2_S2000x2_1_0_0_1_n_n : DotDims S2000x160 S160x2 S2000x2 where
  lhsContracting := [1]
  rhsContracting := [0]
  lhsNonContracting := [0]
  rhsNonContracting := [1]
  lhsBatch := []
  rhsBatch := []
  wf := dot_S2000x160_S160x2_S2000x2_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x1680.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1680.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S1000x1680.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S1000x1680.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S800x1680.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_1) S800x1680.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x1680.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x1680.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x1680.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x1680.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x1680.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1680x640.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S1680x640.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35_0) S800x640.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v35_1) S800x640.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v47) S2000x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35_1) S2000x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x640.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S640x320.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x320.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S320x160.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S1x160.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v51) S160x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v54) S1x2.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v55) S2000x2.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S20000x5120 : Shape := ⟨2, ![20000, 5120]⟩
abbrev S5120x1680 : Shape := ⟨2, ![5120, 1680]⟩
abbrev S1680 : Shape := ⟨1, ![1680]⟩
abbrev S1680x640 : Shape := ⟨2, ![1680, 640]⟩
abbrev S640 : Shape := ⟨1, ![640]⟩
abbrev S640x320 : Shape := ⟨2, ![640, 320]⟩
abbrev S320 : Shape := ⟨1, ![320]⟩
abbrev S320x160 : Shape := ⟨2, ![320, 160]⟩
abbrev S160 : Shape := ⟨1, ![160]⟩
abbrev S160x2 : Shape := ⟨2, ![160, 2]⟩
abbrev S2 : Shape := ⟨1, ![2]⟩
abbrev S2x32000 : Shape := ⟨2, ![2, 32000]⟩
abbrev S1x32000 : Shape := ⟨2, ![1, 32000]⟩
abbrev S32000 : Shape := ⟨1, ![32000]⟩
abbrev S_ : Shape := ⟨0, ![]⟩
abbrev S32000x1 : Shape := ⟨2, ![32000, 1]⟩
abbrev S32000x5120 : Shape := ⟨2, ![32000, 5120]⟩
abbrev S20000 : Shape := ⟨1, ![20000]⟩
abbrev S20000x1 : Shape := ⟨2, ![20000, 1]⟩
abbrev S20000x1680 : Shape := ⟨2, ![20000, 1680]⟩
abbrev S1x1680 : Shape := ⟨2, ![1, 1680]⟩
abbrev S32000x1680 : Shape := ⟨2, ![32000, 1680]⟩
abbrev S20000x640 : Shape := ⟨2, ![20000, 640]⟩
abbrev S1x640 : Shape := ⟨2, ![1, 640]⟩
abbrev S20000x320 : Shape := ⟨2, ![20000, 320]⟩
abbrev S1x320 : Shape := ⟨2, ![1, 320]⟩
abbrev S20000x160 : Shape := ⟨2, ![20000, 160]⟩
abbrev S1x160 : Shape := ⟨2, ![1, 160]⟩
abbrev S20000x2 : Shape := ⟨2, ![20000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S20000x5120, .f32⟩
  | .hbm, ⟨1, _⟩ => ⟨S5120x1680, .f32⟩
  | .hbm, ⟨2, _⟩ => ⟨S1680, .f32⟩
  | .hbm, ⟨3, _⟩ => ⟨S5120x1680, .f32⟩
  | .hbm, ⟨4, _⟩ => ⟨S1680x640, .f32⟩
  | .hbm, ⟨5, _⟩ => ⟨S640, .f32⟩
  | .hbm, ⟨6, _⟩ => ⟨S1680x640, .f32⟩
  | .hbm, ⟨7, _⟩ => ⟨S1680, .f32⟩
  | .hbm, ⟨8, _⟩ => ⟨S1680, .f32⟩
  | .hbm, ⟨9, _⟩ => ⟨S1680, .f32⟩
  | .hbm, ⟨10, _⟩ => ⟨S1680, .f32⟩
  | .hbm, ⟨11, _⟩ => ⟨S640x320, .f32⟩
  | .hbm, ⟨12, _⟩ => ⟨S320, .f32⟩
  | .hbm, ⟨13, _⟩ => ⟨S320x160, .f32⟩
  | .hbm, ⟨14, _⟩ => ⟨S160, .f32⟩
  | .hbm, ⟨15, _⟩ => ⟨S160x2, .f32⟩
  | .hbm, ⟨16, _⟩ => ⟨S2, .f32⟩
  | .hbm, ⟨17, _⟩ => ⟨S2x32000, .i32⟩
  | .hbm, ⟨18, _⟩ => ⟨S1x32000, .i32⟩
  | .hbm, ⟨19, _⟩ => ⟨S32000, .i32⟩
  | .hbm, ⟨20, _⟩ => ⟨S1x32000, .i32⟩
  | .hbm, ⟨21, _⟩ => ⟨S32000, .i32⟩
  | .hbm, ⟨22, _⟩ => ⟨S_, .i32⟩
  | .hbm, ⟨23, _⟩ => ⟨S32000, .i32⟩
  | .hbm, ⟨24, _⟩ => ⟨S32000, .i1⟩
  | .hbm, ⟨25, _⟩ => ⟨S_, .i32⟩
  | .hbm, ⟨26, _⟩ => ⟨S32000, .i32⟩
  | .hbm, ⟨27, _⟩ => ⟨S32000, .i32⟩
  | .hbm, ⟨28, _⟩ => ⟨S32000, .i32⟩
  | .hbm, ⟨29, _⟩ => ⟨S32000x1, .i32⟩
  | .hbm, ⟨30, _⟩ => ⟨S32000x5120, .f32⟩
  | .hbm, ⟨31, _⟩ => ⟨S_, .f32⟩
  | .hbm, ⟨32, _⟩ => ⟨S20000x5120, .f32⟩
  | .hbm, ⟨33, _⟩ => ⟨S32000x1, .i32⟩
  | .hbm, ⟨34, _⟩ => ⟨S20000x5120, .f32⟩
  | .hbm, ⟨35, _⟩ => ⟨S_, .f32⟩
  | .hbm, ⟨36, _⟩ => ⟨S32000, .f32⟩
  | .hbm, ⟨37, _⟩ => ⟨S_, .f32⟩
  | .hbm, ⟨38, _⟩ => ⟨S20000, .f32⟩
  | .hbm, ⟨39, _⟩ => ⟨S32000x1, .i32⟩
  | .hbm, ⟨40, _⟩ => ⟨S20000, .f32⟩
  | .hbm, ⟨41, _⟩ => ⟨S_, .f32⟩
  | .hbm, ⟨42, _⟩ => ⟨S20000, .f32⟩
  | .hbm, ⟨43, _⟩ => ⟨S20000, .f32⟩
  | .hbm, ⟨44, _⟩ => ⟨S20000x1, .f32⟩
  | .hbm, ⟨45, _⟩ => ⟨S20000x5120, .f32⟩
  | .hbm, ⟨46, _⟩ => ⟨S20000x5120, .f32⟩
  | .hbm, ⟨47, _⟩ => ⟨S20000x1680, .f32⟩
  | .hbm, ⟨48, _⟩ => ⟨S1x1680, .f32⟩
  | .hbm, ⟨49, _⟩ => ⟨S20000x1680, .f32⟩
  | .hbm, ⟨50, _⟩ => ⟨S20000x1680, .f32⟩
  | .hbm, ⟨51, _⟩ => ⟨S20000x1680, .f32⟩
  | .hbm, ⟨52, _⟩ => ⟨S20000x1680, .f32⟩
  | .hbm, ⟨53, _⟩ => ⟨S_, .f32⟩
  | .hbm, ⟨54, _⟩ => ⟨S20000x1680, .f32⟩
  | .hbm, ⟨55, _⟩ => ⟨S20000x1680, .f32⟩
  | .hbm, ⟨56, _⟩ => ⟨S1x1680, .f32⟩
  | .hbm, ⟨57, _⟩ => ⟨S20000x1680, .f32⟩
  | .hbm, ⟨58, _⟩ => ⟨S20000x1680, .f32⟩
  | .hbm, ⟨59, _⟩ => ⟨S_, .f32⟩
  | .hbm, ⟨60, _⟩ => ⟨S1680, .f32⟩
  | .hbm, ⟨61, _⟩ => ⟨S1680, .f32⟩
  | .hbm, ⟨62, _⟩ => ⟨S1680, .f32⟩
  | .hbm, ⟨63, _⟩ => ⟨S1x1680, .f32⟩
  | .hbm, ⟨64, _⟩ => ⟨S20000x1680, .f32⟩
  | .hbm, ⟨65, _⟩ => ⟨S20000x1680, .f32⟩
  | .hbm, ⟨66, _⟩ => ⟨S1x1680, .f32⟩
  | .hbm, ⟨67, _⟩ => ⟨S20000x1680, .f32⟩
  | .hbm, ⟨68, _⟩ => ⟨S20000x1680, .f32⟩
  | .hbm, ⟨69, _⟩ => ⟨S1x1680, .f32⟩
  | .hbm, ⟨70, _⟩ => ⟨S20000x1680, .f32⟩
  | .hbm, ⟨71, _⟩ => ⟨S20000x1680, .f32⟩
  | .hbm, ⟨72, _⟩ => ⟨S_, .i32⟩
  | .hbm, ⟨73, _⟩ => ⟨S32000, .i32⟩
  | .hbm, ⟨74, _⟩ => ⟨S32000, .i1⟩
  | .hbm, ⟨75, _⟩ => ⟨S_, .i32⟩
  | .hbm, ⟨76, _⟩ => ⟨S32000, .i32⟩
  | .hbm, ⟨77, _⟩ => ⟨S32000, .i32⟩
  | .hbm, ⟨78, _⟩ => ⟨S32000, .i32⟩
  | .hbm, ⟨79, _⟩ => ⟨S32000x1, .i32⟩
  | .hbm, ⟨80, _⟩ => ⟨S32000x1680, .f32⟩
  | .hbm, ⟨81, _⟩ => ⟨S_, .f32⟩
  | .hbm, ⟨82, _⟩ => ⟨S20000x1680, .f32⟩
  | .hbm, ⟨83, _⟩ => ⟨S32000x1, .i32⟩
  | .hbm, ⟨84, _⟩ => ⟨S20000x1680, .f32⟩
  | .hbm, ⟨85, _⟩ => ⟨S_, .f32⟩
  | .hbm, ⟨86, _⟩ => ⟨S32000, .f32⟩
  | .hbm, ⟨87, _⟩ => ⟨S_, .f32⟩
  | .hbm, ⟨88, _⟩ => ⟨S20000, .f32⟩
  | .hbm, ⟨89, _⟩ => ⟨S32000x1, .i32⟩
  | .hbm, ⟨90, _⟩ => ⟨S20000, .f32⟩
  | .hbm, ⟨91, _⟩ => ⟨S_, .f32⟩
  | .hbm, ⟨92, _⟩ => ⟨S20000, .f32⟩
  | .hbm, ⟨93, _⟩ => ⟨S20000, .f32⟩
  | .hbm, ⟨94, _⟩ => ⟨S20000x1, .f32⟩
  | .hbm, ⟨95, _⟩ => ⟨S20000x1680, .f32⟩
  | .hbm, ⟨96, _⟩ => ⟨S20000x1680, .f32⟩
  | .hbm, ⟨97, _⟩ => ⟨S20000x640, .f32⟩
  | .hbm, ⟨98, _⟩ => ⟨S1x640, .f32⟩
  | .hbm, ⟨99, _⟩ => ⟨S20000x640, .f32⟩
  | .hbm, ⟨100, _⟩ => ⟨S20000x640, .f32⟩
  | .hbm, ⟨101, _⟩ => ⟨S20000x640, .f32⟩
  | .hbm, ⟨102, _⟩ => ⟨S20000x640, .f32⟩
  | .hbm, ⟨103, _⟩ => ⟨S_, .f32⟩
  | .hbm, ⟨104, _⟩ => ⟨S20000x640, .f32⟩
  | .hbm, ⟨105, _⟩ => ⟨S20000x640, .f32⟩
  | .hbm, ⟨106, _⟩ => ⟨S20000x320, .f32⟩
  | .hbm, ⟨107, _⟩ => ⟨S1x320, .f32⟩
  | .hbm, ⟨108, _⟩ => ⟨S20000x320, .f32⟩
  | .hbm, ⟨109, _⟩ => ⟨S20000x320, .f32⟩
  | .hbm, ⟨110, _⟩ => ⟨S_, .f32⟩
  | .hbm, ⟨111, _⟩ => ⟨S20000x320, .f32⟩
  | .hbm, ⟨112, _⟩ => ⟨S20000x320, .f32⟩
  | .hbm, ⟨113, _⟩ => ⟨S20000x160, .f32⟩
  | .hbm, ⟨114, _⟩ => ⟨S1x160, .f32⟩
  | .hbm, ⟨115, _⟩ => ⟨S20000x160, .f32⟩
  | .hbm, ⟨116, _⟩ => ⟨S20000x160, .f32⟩
  | .hbm, ⟨117, _⟩ => ⟨S_, .f32⟩
  | .hbm, ⟨118, _⟩ => ⟨S20000x160, .f32⟩
  | .hbm, ⟨119, _⟩ => ⟨S20000x160, .f32⟩
  | .hbm, ⟨120, _⟩ => ⟨S20000x2, .f32⟩
  | .hbm, ⟨121, _⟩ => ⟨S1x2, .f32⟩
  | .hbm, ⟨122, _⟩ => ⟨S20000x2, .f32⟩
  | .hbm, ⟨123, _⟩ => ⟨S20000x2, .f32⟩
  | _, _ => ⟨S20000x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_cst : Ref sig .tc := ⟨.hbm, 53, rfl⟩
abbrev main_call0_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_5 : Ref sig .tc := ⟨.hbm, 72, rfl⟩
abbrev main_v45 : Ref sig .tc := ⟨.hbm, 73, rfl⟩
abbrev main_v46 : Ref sig .tc := ⟨.hbm, 74, rfl⟩
abbrev main_c_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call1_cst : Ref sig .tc := ⟨.hbm, 103, rfl⟩
abbrev main_call1_v0 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call2_cst : Ref sig .tc := ⟨.hbm, 110, rfl⟩
abbrev main_call2_v0 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call3_cst : Ref sig .tc := ⟨.hbm, 117, rfl⟩
abbrev main_call3_v0 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩

abbrev nD : Nat := 1
abbrev τ : Topo := Topo.v7x

variable {F : FTy → Type} [FloatOps F]

class Facts₀ : Prop where
  slices_S2x32000_S1x32000_0_0 : S2x32000.Slices ![0, 0] S1x32000
  shapeCasts_S1x32000_S32000 : S1x32000.ShapeCasts S32000
  slices_S2x32000_S1x32000_1_0 : S2x32000.Slices ![1, 0] S1x32000
  bcast_S_S32000 : S_.BroadcastsInDim S32000 (![] : Fin 0 → Fin S32000.rank)
  bcast_S32000_S32000x1_0 : S32000.BroadcastsInDim S32000x1 (![0] : Fin 1 → Fin S32000x1.rank)
  bcast_S_S20000x5120 : S_.BroadcastsInDim S20000x5120 (![] : Fin 0 → Fin S20000x5120.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x5120_0_1 : S20000x1.BroadcastsInDim S20000x5120 (![0, 1] : Fin 2 → Fin S20000x5120.rank)
  bcast_S1680_S1x1680_1 : S1680.BroadcastsInDim S1x1680 (![1] : Fin 1 → Fin S1x1680.rank)
  bcast_S1x1680_S20000x1680_0_1 : S1x1680.BroadcastsInDim S20000x1680 (![0, 1] : Fin 2 → Fin S20000x1680.rank)
  bcast_S_S20000x1680 : S_.BroadcastsInDim S20000x1680 (![] : Fin 0 → Fin S20000x1680.rank)
  bcast_S_S1680 : S_.BroadcastsInDim S1680 (![] : Fin 0 → Fin S1680.rank)
  bcast_S20000x1_S20000x1680_0_1 : S20000x1.BroadcastsInDim S20000x1680 (![0, 1] : Fin 2 → Fin S20000x1680.rank)
  bcast_S640_S1x640_1 : S640.BroadcastsInDim S1x640 (![1] : Fin 1 → Fin S1x640.rank)
  bcast_S1x640_S20000x640_0_1 : S1x640.BroadcastsInDim S20000x640 (![0, 1] : Fin 2 → Fin S20000x640.rank)
  bcast_S_S20000x640 : S_.BroadcastsInDim S20000x640 (![] : Fin 0 → Fin S20000x640.rank)
  bcast_S320_S1x320_1 : S320.BroadcastsInDim S1x320 (![1] : Fin 1 → Fin S1x320.rank)
  bcast_S1x320_S20000x320_0_1 : S1x320.BroadcastsInDim S20000x320 (![0, 1] : Fin 2 → Fin S20000x320.rank)
  bcast_S_S20000x320 : S_.BroadcastsInDim S20000x320 (![] : Fin 0 → Fin S20000x320.rank)
  bcast_S160_S1x160_1 : S160.BroadcastsInDim S1x160 (![1] : Fin 1 → Fin S1x160.rank)
  bcast_S1x160_S20000x160_0_1 : S1x160.BroadcastsInDim S20000x160 (![0, 1] : Fin 2 → Fin S20000x160.rank)
  bcast_S_S20000x160 : S_.BroadcastsInDim S20000x160 (![] : Fin 0 → Fin S20000x160.rank)
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  gather_S20000x5120_S32000x1_S32000x5120_1_0_n_n_0_1_15120_wf : GatherDims.WF S20000x5120 S32000x1 S32000x5120 [1] [0] [] [0] [] 1 ![1, 5120]
  scatter_S20000x5120_S32000x1_S32000x5120_1_0_0_1_wf : ScatterDims.WF S20000x5120 S32000x1 S32000x5120 [1] [0] [0] 1
  scatter_S20000_S32000x1_S32000_n_0_0_1_wf : ScatterDims.WF S20000 S32000x1 S32000 [] [0] [0] 1
  dot_S20000x5120_S5120x1680_S20000x1680_1_0_0_1_n_n_wf : DotDims.WF S20000x5120 S5120x1680 S20000x1680 [1] [0] [0] [1] [] []
  gather_S20000x1680_S32000x1_S32000x1680_1_0_n_n_0_1_11680_wf : GatherDims.WF S20000x1680 S32000x1 S32000x1680 [1] [0] [] [0] [] 1 ![1, 1680]
  scatter_S20000x1680_S32000x1_S32000x1680_1_0_0_1_wf : ScatterDims.WF S20000x1680 S32000x1 S32000x1680 [1] [0] [0] 1
  dot_S20000x1680_S1680x640_S20000x640_1_0_0_1_n_n_wf : DotDims.WF S20000x1680 S1680x640 S20000x640 [1] [0] [0] [1] [] []
  dot_S20000x640_S640x320_S20000x320_1_0_0_1_n_n_wf : DotDims.WF S20000x640 S640x320 S20000x320 [1] [0] [0] [1] [] []
  dot_S20000x320_S320x160_S20000x160_1_0_0_1_n_n_wf : DotDims.WF S20000x320 S320x160 S20000x160 [1] [0] [0] [1] [] []
  dot_S20000x160_S160x2_S20000x2_1_0_0_1_n_n_wf : DotDims.WF S20000x160 S160x2 S20000x2 [1] [0] [0] [1] [] []

variable [Facts₀]

def gather_S20000x5120_S32000x1_S32000x5120_1_0_n_n_0_1_15120 : GatherDims S20000x5120 S32000x1 S32000x5120 where
  offsetDims := [1]
  collapsedSliceDims := [0]
  operandBatchingDims := []
  startIndicesBatchingDims := []
  startIndexMap := [0]
  indexVectorDim := 1
  sliceSizes := ![1, 5120]
  wf := gather_S20000x5120_S32000x1_S32000x5120_1_0_n_n_0_1_15120_wf
def scatter_S20000x5120_S32000x1_S32000x5120_1_0_0_1 : ScatterDims S20000x5120 S32000x1 S32000x5120 where
  updateWindowDims := [1]
  insertedWindowDims := [0]
  scatterDimsToOperandDims := [0]
  indexVectorDim := 1
  wf := scatter_S20000x5120_S32000x1_S32000x5120_1_0_0_1_wf
def scatter_S20000_S32000x1_S32000_n_0_0_1 : ScatterDims S20000 S32000x1 S32000 where
  updateWindowDims := []
  insertedWindowDims := [0]
  scatterDimsToOperandDims := [0]
  indexVectorDim := 1
  wf := scatter_S20000_S32000x1_S32000_n_0_0_1_wf
def dot_S20000x5120_S5120x1680_S20000x1680_1_0_0_1_n_n : DotDims S20000x5120 S5120x1680 S20000x1680 where
  lhsContracting := [1]
  rhsContracting := [0]
  lhsNonContracting := [0]
  rhsNonContracting := [1]
  lhsBatch := []
  rhsBatch := []
  wf := dot_S20000x5120_S5120x1680_S20000x1680_1_0_0_1_n_n_wf
def gather_S20000x1680_S32000x1_S32000x1680_1_0_n_n_0_1_11680 : GatherDims S20000x1680 S32000x1 S32000x1680 where
  offsetDims := [1]
  collapsedSliceDims := [0]
  operandBatchingDims := []
  startIndicesBatchingDims := []
  startIndexMap := [0]
  indexVectorDim := 1
  sliceSizes := ![1, 1680]
  wf := gather_S20000x1680_S32000x1_S32000x1680_1_0_n_n_0_1_11680_wf
def scatter_S20000x1680_S32000x1_S32000x1680_1_0_0_1 : ScatterDims S20000x1680 S32000x1 S32000x1680 where
  updateWindowDims := [1]
  insertedWindowDims := [0]
  scatterDimsToOperandDims := [0]
  indexVectorDim := 1
  wf := scatter_S20000x1680_S32000x1_S32000x1680_1_0_0_1_wf
def dot_S20000x1680_S1680x640_S20000x640_1_0_0_1_n_n : DotDims S20000x1680 S1680x640 S20000x640 where
  lhsContracting := [1]
  rhsContracting := [0]
  lhsNonContracting := [0]
  rhsNonContracting := [1]
  lhsBatch := []
  rhsBatch := []
  wf := dot_S20000x1680_S1680x640_S20000x640_1_0_0_1_n_n_wf
def dot_S20000x640_S640x320_S20000x320_1_0_0_1_n_n : DotDims S20000x640 S640x320 S20000x320 where
  lhsContracting := [1]
  rhsContracting := [0]
  lhsNonContracting := [0]
  rhsNonContracting := [1]
  lhsBatch := []
  rhsBatch := []
  wf := dot_S20000x640_S640x320_S20000x320_1_0_0_1_n_n_wf
def dot_S20000x320_S320x160_S20000x160_1_0_0_1_n_n : DotDims S20000x320 S320x160 S20000x160 where
  lhsContracting := [1]
  rhsContracting := [0]
  lhsNonContracting := [0]
  rhsNonContracting := [1]
  lhsBatch := []
  rhsBatch := []
  wf := dot_S20000x320_S320x160_S20000x160_1_0_0_1_n_n_wf
def dot_S20000x160_S160x2_S20000x2_1_0_0_1_n_n : DotDims S20000x160 S160x2 S20000x2 where
  lhsContracting := [1]
  rhsContracting := [0]
  lhsNonContracting := [0]
  rhsNonContracting := [1]
  lhsBatch := []
  rhsBatch := []
  wf := dot_S20000x160_S160x2_S20000x2_1_0_0_1_n_n_wf

class Facts : Prop extends Facts₀ where

variable [Facts]
-- ==== Proof.Spec.lean ====
import Idealize.ShloMosaic.PureOps.Ideal
import Mathlib.Algebra.BigOperators.Group.Finset.Basic

/-!
  The two programs as index-level functions over the extended reals.

  A graph on `N` nodes with `M` edges is given by the source row each edge reads (`src`) and, per node, the set of
  edges that land on it (`into`).  A layer takes node features `a`, aggregates them over the incoming edges, divides
  by the in-degree (at least one), and adds a second, un-aggregated projection and a bias.

  * the KERNEL projects first: it sums the rows of `a · wl` over the incoming edges and multiplies by `1 / deg`;
  * the REFERENCE aggregates first: it sums the rows of `a`, divides by `deg`, then projects by `wl`.

  Over the reals these are one function (the mean of a node's rows is linear).  Over the extended reals the law needs
  every entry of `a` and `wl` to be a real number: `x · (u + v) = x · u + x · v` fails at `u = ⊤, v = ⊥`.
-/

noncomputable section

namespace Cert.Sage

open Idealize.ShloMosaic

/-- An extended real that is a real number. -/
def IsReal (x : EReal) : Prop := ∃ r : ℝ, x = (r : EReal)

/-- Entry `(i, j)` of the matrix product. -/
def mm {A K B : ℕ} (a : Fin A → Fin K → EReal) (w : Fin K → Fin B → EReal) (i : Fin A) (j : Fin B) : EReal :=
  ∑ k : Fin K, a i k * w k j

/-- The edges of a graph on `N` nodes: the source row of each edge, and the edges landing on each node. -/
structure Graph (N M : ℕ) where
  src : Fin M → Fin N
  into : Fin N → Finset (Fin M)

variable {N M K C : ℕ}

/-- The sum over the edges into node `i` of the source rows of `f`, from zero. -/
def Graph.ssum (G : Graph N M) (f : Fin N → Fin C → EReal) (i : Fin N) (j : Fin C) : EReal :=
  0 + ∑ e ∈ G.into i, f (G.src e) j

/-- The in-degree of node `i`, at least one. -/
def Graph.deg (G : Graph N M) (i : Fin N) : EReal :=
  max (0 + ∑ _e ∈ G.into i, (1 : EReal)) 1

/-- The kernel's aggregate: project, sum over the incoming edges, times the reciprocal of the degree. -/
def aggK (G : Graph N M) (a : Fin N → Fin K → EReal) (wl : Fin K → Fin C → EReal) (i : Fin N) (j : Fin C) : EReal :=
  G.ssum (mm a wl) i j * Ideal.div 1 (G.deg i)

/-- The reference's aggregate: sum over the incoming edges, divide by the degree, project. -/
def aggR (G : Graph N M) (a : Fin N → Fin K → EReal) (wl : Fin K → Fin C → EReal) (i : Fin N) (j : Fin C) : EReal :=
  mm (fun i k => Ideal.div (G.ssum a i k) (G.deg i)) wl i j

/-- A layer as the kernel adds it up: (aggregate + self projection) + bias. -/
def layerK (G : Graph N M) (a : Fin N → Fin K → EReal) (wl wr : Fin K → Fin C → EReal) (b : Fin C → EReal)
    (i : Fin N) (j : Fin C) : EReal :=
  (aggK G a wl i j + mm a wr i j) + b j

/-- A layer as the reference adds it up: (aggregate + bias) + self projection. -/
def layerR (G : Graph N M) (a : Fin N → Fin K → EReal) (wl wr : Fin K → Fin C → EReal) (b : Fin C → EReal)
    (i : Fin N) (j : Fin C) : EReal :=
  (aggR G a wl i j + b j) + mm a wr i j

/-- `max x 0`. -/
def relu (x : EReal) : EReal := max x 0

/-- Batch normalisation with running statistics, after a relu: `((relu h − μ) · rsqrt (var + ε)) · γ + β`. -/
def bnorm (eps : EReal) (mu var gam bet : Fin C → EReal) (h : Fin N → Fin C → EReal) (i : Fin N) (j : Fin C) : EReal :=
  ((relu (h i j) - mu j) * Ideal.rsqrt (var j + eps)) * gam j + bet j

/-- A dense layer: `a · w + b`. -/
def dense {A B : ℕ} (a : Fin N → Fin A → EReal) (w : Fin A → Fin B → EReal) (b : Fin B → EReal) (i : Fin N) (j : Fin B) : EReal :=
  mm a w i j + b j

/-- The head: relu, then three dense layers with a relu between them. -/
def head {A B D O : ℕ} (h2 : Fin N → Fin A → EReal) (w1 : Fin A → Fin B → EReal) (b1 : Fin B → EReal)
    (w2 : Fin B → Fin D → EReal) (b2 : Fin D → EReal) (w3 : Fin D → Fin O → EReal) (b3 : Fin O → EReal) :
    Fin N → Fin O → EReal :=
  dense (fun i k => relu (dense (fun i k => relu (dense (fun i k => relu (h2 i k)) w1 b1 i k)) w2 b2 i k)) w3 b3

/-- Everything a net reads besides the graph. -/
structure Params (N K C D A B O : ℕ) where
  x : Fin N → Fin K → EReal
  w1l : Fin K → Fin C → EReal
  b1 : Fin C → EReal
  w1r : Fin K → Fin C → EReal
  w2l : Fin C → Fin D → EReal
  b2 : Fin D → EReal
  w2r : Fin C → Fin D → EReal
  gam : Fin C → EReal
  bet : Fin C → EReal
  mu : Fin C → EReal
  var : Fin C → EReal
  l1w : Fin D → Fin A → EReal
  l1b : Fin A → EReal
  l2w : Fin A → Fin B → EReal
  l2b : Fin B → EReal
  l3w : Fin B → Fin O → EReal
  l3b : Fin O → EReal

variable {D A B O : ℕ}

/-- The kernel's net. -/
def netK (G : Graph N M) (eps : EReal) (P : Params N K C D A B O) : Fin N → Fin O → EReal :=
  head (layerK G (bnorm eps P.mu P.var P.gam P.bet (layerK G P.x P.w1l P.w1r P.b1)) P.w2l P.w2r P.b2)
    P.l1w P.l1b P.l2w P.l2b P.l3w P.l3b

/-- The reference's net. -/
def netR (G : Graph N M) (eps : EReal) (P : Params N K C D A B O) : Fin N → Fin O → EReal :=
  head (layerR G (bnorm eps P.mu P.var P.gam P.bet (layerR G P.x P.w1l P.w1r P.b1)) P.w2l P.w2r P.b2)
    P.l1w P.l1b P.l2w P.l2b P.l3w P.l3b

/-- What the precondition gives: every parameter a real number, the variances non-negative. -/
structure Params.Real (P : Params N K C D A B O) : Prop where
  x : ∀ i k, IsReal (P.x i k)
  w1l : ∀ k j, IsReal (P.w1l k j)
  b1 : ∀ j, IsReal (P.b1 j)
  w1r : ∀ k j, IsReal (P.w1r k j)
  w2l : ∀ k j, IsReal (P.w2l k j)
  b2 : ∀ j, IsReal (P.b2 j)
  w2r : ∀ k j, IsReal (P.w2r k j)
  gam : ∀ j, IsReal (P.gam j)
  bet : ∀ j, IsReal (P.bet j)
  mu : ∀ j, IsReal (P.mu j)
  var : ∀ j, ∃ r : ℝ, 0 ≤ r ∧ P.var j = (r : EReal)

end Cert.Sage

end
-- ==== Proof.Edges.lean ====
import proofs.«403081_j87196426043909_3_alg».proof.Proof.Spec
import Idealize.ShloMosaic.PureOps
import Idealize.ShloMosaic.Lib.ValueIdx

/-!
  A host gather of rows and a host scatter-add of rows, read at an index, for any numbers of rows `N`, edges `M` and
  columns `C`.

  The gather `x[idx]` of a table `x : [N, C]` by a column of row numbers `idx : [M, 1]` reads, for edge `e`, the row
  whose number is `idx e` taken as a signed integer and clamped into `[0, N − 1]`: which row it is does not depend on
  `C`.  The scatter-add of rows `upd : [M, C]` into `x : [N, C]` by a column `idx` adds to row `i` the rows `e` whose
  number `idx e`, taken as a signed integer and NOT clamped, is `i`; a row whose number is outside `[0, N)` is dropped.
-/

noncomputable section

namespace Cert.Sage

open Idealize.ShloMosaic Idealize.ShloMosaic.ValueIdx

variable {N M C : ℕ}

/-- The row a gather reads for edge `e`: the column's entry, signed, clamped into `[0, N − 1]`. -/
def srcRow (hN : 0 < N) (idx : IVec ⟨2, ![M, 1]⟩ 32) (e : Fin M) : Fin N :=
  ⟨min (idx (ix2 e 0)).toInt.toNat (N - 1), by omega⟩

/-- The edges a scatter lands on row `i`: those whose column entry, signed, is `i`. -/
def landsOn (idx : IVec ⟨2, ![M, 1]⟩ 32) (i : Fin N) : Finset (Fin M) :=
  Finset.univ.filter fun e => (idx (ix2 e 0)).toInt = (i.val : ℤ)

/-- The graph two index columns give: sources from the first, destinations from the second. -/
def graphOf (hN : 0 < N) (sidx didx : IVec ⟨2, ![M, 1]⟩ 32) : Graph N M :=
  ⟨srcRow hN sidx, landsOn didx⟩

/-- The dimension numbers of a gather of rows: operand `[N, C]`, indices `[M, 1]`, result `[M, C]`. -/
abbrev rowGather (N M C : ℕ)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a scatter of rows: operand `[N, C]`, indices `[M, 1]`, updates `[M, C]`. -/
abbrev rowScatter (N M C : ℕ) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The dimension numbers of a scatter of scalars: operand `[N]`, indices `[M, 1]`, updates `[M]`. -/
abbrev cntScatter (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- THE GATHER READ AT `(e, j)`: the table at the source row of `e`, column `j`. -/
theorem gather_rows_apply {α : Type} (hN : 0 < N) (wf) (x : (⟨2, ![N, C]⟩ : Shape).Idx → α) (idx : IVec ⟨2, ![M, 1]⟩ 32)
    (e : Fin M) (j : Fin C) :
    Host.gather (rowGather N M C wf) x idx (ix2 e j) = x (ix2 (srcRow hN idx e) j) := by
  unfold Host.gather
  congr 1
  funext a
  refine Fin.ext ?_
  match a with
  | ⟨0, _⟩ =>
    -- the row axis is collapsed and carries the start index: no batching or offset part, and the start is the column's
    -- entry for `e`, signed, clamped to `N − 1` (the slice there has size 1)
    show (rowGather N M C wf).start (ix2 e j) idx 0 + (rowGather N M C wf).batchCoord (ix2 e j) 0
      + (rowGather N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M C wf).startIndexMap from List.mem_singleton.mpr rfl)]
    have hsi : (rowGather N M C wf).siIdx (ix2 e j) ⟨List.idxOf (0 : Fin 2) (rowGather N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis is the one offset axis and is not in the start index map: start 0, offset coordinate `j`
    show (rowGather N M C wf).start (ix2 e j) idx 1 + (rowGather N M C wf).batchCoord (ix2 e j) 1
      + (rowGather N M C wf).offCoord (ix2 e j) 1 = _
    rw [GatherDims.batchCoord_eq_zero _ _ _ List.not_mem_nil]
    unfold GatherDims.start
    rw [dif_neg (show (1 : Fin 2) ∉ (rowGather N M C wf).startIndexMap from (by decide : (1 : Fin 2) ∉ [(0 : Fin 2)]))]
    simp only [Nat.add_zero, Nat.zero_add]
    rfl

/-- A scatter's update index lands on `r` exactly when, on every operand axis, start plus window coordinate is `r`'s
    coordinate. -/
private theorem resultIdx?_eq_some_iff {s si u : Shape} (d : ScatterDims s si u) {w : ℕ} (k : u.Idx) (idx : IVec si w)
    (r : s.Idx) :
    d.resultIdx? k idx = some r ↔ ∀ a, d.start k idx a + (d.window k a : ℤ) = ((r a).val : ℤ) := by
  unfold ScatterDims.resultIdx?
  split
  · rename_i h
    rw [Option.some.injEq]
    constructor
    · intro hr a
      subst hr
      have := h a
      show _ = (((d.start k idx a + (d.window k a : ℤ)).toNat : ℕ) : ℤ)
      omega
    · intro hr
      funext a
      refine Fin.ext ?_
      have := hr a
      show (d.start k idx a + (d.window k a : ℤ)).toNat = (r a).val
      omega
  · rename_i h
    constructor
    · intro hh; cases hh
    · intro hr
      exfalso
      apply h
      intro a
      have := hr a
      have := (r a).isLt
      omega

/-- For the scatter of rows: update `(e, j')` lands on `(i, j)` exactly when the column's entry for `e`, signed, is `i`
    and the columns agree: on axis 0 the start is that entry and the window coordinate is 0, on axis 1 the start is 0 and
    the window coordinate is `j'`. -/
private theorem rowScatter_lands (wf) (idx : IVec ⟨2, ![M, 1]⟩ 32) (e : Fin M) (j' : Fin C) (i : Fin N) (j : Fin C) :
    (rowScatter N M C wf).resultIdx? (ix2 e j') idx = some (ix2 i j)
      ↔ (idx (ix2 e 0)).toInt = (i.val : ℤ) ∧ j' = j := by
  rw [resultIdx?_eq_some_iff]
  have hs0 : (rowScatter N M C wf).start (ix2 e j') idx 0 = (idx (ix2 e 0)).toInt := by
    unfold ScatterDims.start
    rw [dif_pos (show (0 : Fin 2) ∈ (rowScatter N M C wf).scatterDimsToOperandDims from List.mem_singleton.mpr rfl)]
    have hsi : (rowScatter N M C wf).siIdx (ix2 e j') ⟨List.idxOf (0 : Fin 2) (rowScatter N M C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (rowScatter N M C wf).start (ix2 e j') idx 1 = 0 := by
    unfold ScatterDims.start
    rw [dif_neg (show (1 : Fin 2) ∉ (rowScatter N M C wf).scatterDimsToOperandDims from
      (by decide : (1 : Fin 2) ∉ [(0 : Fin 2)]))]
  have hw0 : (rowScatter N M C wf).window (ix2 e j') 0 = 0 := by
    unfold ScatterDims.window
    rw [dif_neg (show (0 : Fin 2) ∉ (rowScatter N M C wf).sKept from
      (by decide : (0 : Fin 2) ∉ (List.finRange 2).filter (· ∉ [(0 : Fin 2)])))]
  have hw1 : (rowScatter N M C wf).window (ix2 e j') 1 = j'.val := by
    unfold ScatterDims.window
    rw [dif_pos (show (1 : Fin 2) ∈ (rowScatter N M C wf).sKept from
      (by decide : (1 : Fin 2) ∈ (List.finRange 2).filter (· ∉ [(0 : Fin 2)])))]
    rfl
  constructor
  · intro h
    have h0 := h 0
    have h1 := h 1
    rw [hs0, hw0] at h0
    rw [hs1, hw1] at h1
    refine ⟨?_, Fin.ext ?_⟩
    · have : (((ix2 i j : (⟨2, ![N, C]⟩ : Shape).Idx) 0).val : ℤ) = (i.val : ℤ) := rfl
      omega
    · have : (((ix2 i j : (⟨2, ![N, C]⟩ : Shape).Idx) 1).val : ℤ) = (j.val : ℤ) := rfl
      omega
  · rintro ⟨h0, rfl⟩ a
    match a with
    | ⟨0, _⟩ =>
      show (rowScatter N M C wf).start (ix2 e j') idx 0 + ((rowScatter N M C wf).window (ix2 e j') 0 : ℤ) = (i.val : ℤ)
      rw [hs0, hw0, h0]; simp
    | ⟨1, _⟩ =>
      show (rowScatter N M C wf).start (ix2 e j') idx 1 + ((rowScatter N M C wf).window (ix2 e j') 1 : ℤ) = (j'.val : ℤ)
      rw [hs1, hw1]; simp

/-- For the scatter of scalars: update `e` lands on `i` exactly when the column's entry for `e`, signed, is `i`. -/
private theorem cntScatter_lands (wf) (idx : IVec ⟨2, ![M, 1]⟩ 32) (e : Fin M) (i : Fin N) :
    (cntScatter N M wf).resultIdx? (ix1 e) idx = some (ix1 i) ↔ (idx (ix2 e 0)).toInt = (i.val : ℤ) := by
  rw [resultIdx?_eq_some_iff]
  have hs0 : (cntScatter N M wf).start (ix1 e) idx 0 = (idx (ix2 e 0)).toInt := by
    unfold ScatterDims.start
    rw [dif_pos (show (0 : Fin 1) ∈ (cntScatter N M wf).scatterDimsToOperandDims from List.mem_singleton.mpr rfl)]
    have hsi : (cntScatter N M wf).siIdx (ix1 e) ⟨List.idxOf (0 : Fin 1) (cntScatter N M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (cntScatter N M wf).window (ix1 e) 0 = 0 := by
    unfold ScatterDims.window
    rw [dif_neg (show (0 : Fin 1) ∉ (cntScatter N M wf).sKept from
      (by decide : (0 : Fin 1) ∉ (List.finRange 1).filter (· ∉ [(0 : Fin 1)])))]
  constructor
  · intro h
    have h0 := h 0
    rw [hs0, hw0] at h0
    have : (((ix1 i : (⟨1, ![N]⟩ : Shape).Idx) 0).val : ℤ) = (i.val : ℤ) := rfl
    omega
  · intro h0 a
    obtain rfl : a = 0 := Subsingleton.elim _ _
    show (cntScatter N M wf).start (ix1 e) idx 0 + ((cntScatter N M wf).window (ix1 e) 0 : ℤ) = (i.val : ℤ)
    rw [hs0, hw0, h0]; simp

/-- THE SCATTER-ADD OF ROWS READ AT `(i, j)`: the operand's entry plus the sum over the edges landing on `i`. -/
theorem scatterAdd_rows_apply (wf) (x : (⟨2, ![N, C]⟩ : Shape).Idx → EReal) (idx : IVec ⟨2, ![M, 1]⟩ 32)
    (upd : (⟨2, ![M, C]⟩ : Shape).Idx → EReal) (i : Fin N) (j : Fin C) :
    Ideal.hostScatterAdd (rowScatter N M C wf) x idx upd (ix2 i j)
      = x (ix2 i j) + ∑ e ∈ landsOn idx i, upd (ix2 e j) := by
  unfold Ideal.hostScatterAdd
  congr 1
  -- the updates landing on `(i, j)` are exactly the `(e, j)` with `e` landing on `i`: re-index the sum by `e`
  refine Finset.sum_nbij' (fun u => (u 0 : Fin M)) (fun e => ix2 e j) ?_ ?_ ?_ ?_ ?_
  · intro u hu
    obtain ⟨e, j', rfl⟩ : ∃ (e : Fin M) (j' : Fin C), u = ix2 e j' := ⟨u 0, u 1, eq_ix2 u⟩
    exact Finset.mem_filter.2 ⟨Finset.mem_univ _, ((rowScatter_lands wf idx e j' i j).1 (Finset.mem_filter.1 hu).2).1⟩
  · intro e he
    exact Finset.mem_filter.2 ⟨Finset.mem_univ _, (rowScatter_lands wf idx e j i j).2 ⟨(Finset.mem_filter.1 he).2, rfl⟩⟩
  · intro u hu
    obtain ⟨e, j', rfl⟩ : ∃ (e : Fin M) (j' : Fin C), u = ix2 e j' := ⟨u 0, u 1, eq_ix2 u⟩
    obtain rfl := ((rowScatter_lands wf idx e j' i j).1 (Finset.mem_filter.1 hu).2).2
    rfl
  · intro e _
    rfl
  · intro u hu
    obtain ⟨e, j', rfl⟩ : ∃ (e : Fin M) (j' : Fin C), u = ix2 e j' := ⟨u 0, u 1, eq_ix2 u⟩
    obtain rfl := ((rowScatter_lands wf idx e j' i j).1 (Finset.mem_filter.1 hu).2).2
    rfl

/-- THE SCATTER-ADD OF SCALARS READ AT `i`: the operand's entry plus the sum over the edges landing on `i`. -/
theorem scatterAdd_cnt_apply (wf) (x : (⟨1, ![N]⟩ : Shape).Idx → EReal) (idx : IVec ⟨2, ![M, 1]⟩ 32)
    (upd : (⟨1, ![M]⟩ : Shape).Idx → EReal) (i : Fin N) :
    Ideal.hostScatterAdd (cntScatter N M wf) x idx upd (ix1 i)
      = x (ix1 i) + ∑ e ∈ landsOn idx i, upd (ix1 e) := by
  unfold Ideal.hostScatterAdd
  congr 1
  -- an update index is its one coordinate `e`, and it lands on `i` exactly when `e` does
  refine Finset.sum_nbij' (fun u => (u 0 : Fin M)) (fun e => ix1 e) ?_ ?_ ?_ ?_ ?_
  · intro u hu
    obtain ⟨e, rfl⟩ : ∃ e : Fin M, u = ix1 e := ⟨u 0, eq_ix1 u⟩
    exact Finset.mem_filter.2 ⟨Finset.mem_univ _, (cntScatter_lands wf idx e i).1 (Finset.mem_filter.1 hu).2⟩
  · intro e he
    exact Finset.mem_filter.2 ⟨Finset.mem_univ _, (cntScatter_lands wf idx e i).2 (Finset.mem_filter.1 he).2⟩
  · intro u _
    exact (eq_ix1 u).symm
  · intro e _
    rfl
  · intro u _
    exact congrArg upd (eq_ix1 u)

end Cert.Sage

end
-- ==== Proof.Iface.lean ====
import proofs.«403081_j87196426043909_3_alg».proof.Proof.Edges

/-!
  The graph and the parameters of the two programs, as functions of the eighteen argument arrays.

  `edge_index : [2, 32000]` holds the source node of each edge in row 0 and the destination node in row 1.  Both programs
  wrap a negative source number once (adding the node count 20000) before they gather with it, and scatter with the
  destination number as it stands.
-/

noncomputable section

namespace Cert.Sage

open Idealize.ShloMosaic Idealize.ShloMosaic.ValueIdx

/-- The source column: row 0 of `edge_index`, a negative entry moved up by 20000. -/
def srcCol (ei : IVec ⟨2, ![2, 32000]⟩ 32) : IVec ⟨2, ![32000, 1]⟩ 32 := fun i =>
  Scalar.select (IntOp.cmpi .slt (ei (ix2 0 ⟨(i 0).val, idx2_lt0 i⟩)) 0#32)
    (IntOp.addi (ei (ix2 0 ⟨(i 0).val, idx2_lt0 i⟩)) 20000#32) (ei (ix2 0 ⟨(i 0).val, idx2_lt0 i⟩))

/-- The destination column: row 1 of `edge_index`. -/
def dstCol (ei : IVec ⟨2, ![2, 32000]⟩ 32) : IVec ⟨2, ![32000, 1]⟩ 32 := fun i =>
  ei (ix2 1 ⟨(i 0).val, idx2_lt0 i⟩)

/-- The graph of `edge_index`: 20000 nodes, 32000 edges. -/
def theGraph (ei : IVec ⟨2, ![2, 32000]⟩ 32) : Graph 20000 32000 :=
  graphOf (by decide) (srcCol ei) (dstCol ei)

/-- The epsilon under the batch normalisation's `rsqrt`: the f32 nearest `1e-5`. -/
abbrev bnEps : EReal := Ideal.ofBits .f32 0x3727C5AC#32

/-- A matrix argument as a function of row and column. -/
abbrev mat {a b : ℕ} (x : (⟨2, ![a, b]⟩ : Shape).Idx → EReal) : Fin a → Fin b → EReal := fun p q => x (ix2 p q)
/-- A vector argument as a function of its position. -/
abbrev vec {a : ℕ} (x : (⟨1, ![a]⟩ : Shape).Idx → EReal) : Fin a → EReal := fun p => x (ix1 p)

/-- The parameters, from the seventeen float arguments in the programs' order. -/
def paramsOf (x : (⟨2, ![20000, 5120]⟩ : Shape).Idx → EReal) (w1l : (⟨2, ![5120, 1680]⟩ : Shape).Idx → EReal)
    (b1 : (⟨1, ![1680]⟩ : Shape).Idx → EReal) (w1r : (⟨2, ![5120, 1680]⟩ : Shape).Idx → EReal)
    (w2l : (⟨2, ![1680, 640]⟩ : Shape).Idx → EReal) (b2 : (⟨1, ![640]⟩ : Shape).Idx → EReal)
    (w2r : (⟨2, ![1680, 640]⟩ : Shape).Idx → EReal) (gam bet mu var : (⟨1, ![1680]⟩ : Shape).Idx → EReal)
    (l1w : (⟨2, ![640, 320]⟩ : Shape).Idx → EReal) (l1b : (⟨1, ![320]⟩ : Shape).Idx → EReal)
    (l2w : (⟨2, ![320, 160]⟩ : Shape).Idx → EReal) (l2b : (⟨1, ![160]⟩ : Shape).Idx → EReal)
    (l3w : (⟨2, ![160, 2]⟩ : Shape).Idx → EReal) (l3b : (⟨1, ![2]⟩ : Shape).Idx → EReal) :
    Params 20000 5120 1680 640 320 160 2 where
  x := mat x
  w1l := mat w1l
  b1 := vec b1
  w1r := mat w1r
  w2l := mat w2l
  b2 := vec b2
  w2r := mat w2r
  gam := vec gam
  bet := vec bet
  mu := vec mu
  var := vec var
  l1w := mat l1w
  l1b := vec l1b
  l2w := mat l2w
  l2b := vec l2b
  l3w := mat l3w
  l3b := vec l3b

end Cert.Sage

end
-- ==== Proof.Consts.lean ====
import proofs.«403081_j87196426043909_3_alg».proof.Proof.Iface

/-!
  The three float words the two programs spell, as the extended reals they denote: `+0.0` is `0`, `1.0` is `1`, and the
  batch normalisation's epsilon is a positive real number.
-/

noncomputable section

namespace Cert.Sage

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- The epsilon denotes a positive real: sign bit clear, a normal exponent, so `2^e · (1 + f)` with `f ≥ 0`. -/
theorem bnEps_pos : ∃ r : ℝ, 0 < r ∧ bnEps = (r : EReal) := by
  unfold bnEps
  simp [Ideal.ofBits, Ideal.ieee, -EReal.coe_mul]

end Cert.Sage

end
-- ==== Proof.K0.lean ====
/-
  What region 0 leaves in its two output arrays.

  Region 0 runs on a 20 × 10 grid, point t = 10·i + k.  At point t it holds rows 1000·i … 1000·i + 999, columns
  512·k … 512·k + 511 of x, rows 512·k … 512·k + 511 of each of the two weight matrices, and the two output blocks of row
  block i, which stay in their buffers over the ten steps k = 0 … 9 and are written back after the tenth.  At k = 0 the
  body zeroes both output blocks; at every step it adds the product of the x block with each weight block.  So after the
  ten steps entry (r, j) of an output block is 0 plus ten sums of 512 products, which is the one sum of all 5120 products
  x[1000·i + r, κ] · w[κ, j]: a finite sum of extended reals may be regrouped freely.
-/
import proofs.«403081_j87196426043909_3_alg».proof.Proof.KernelIdealFrameP
import proofs.«403081_j87196426043909_3_alg».proof.Proof.Spec
import proofs.«403081_j87196426043909_3_alg».proof.Proof.Iface
import proofs.«403081_j87196426043909_3_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

namespace R0

/-! The block product's operand indices: at output index (r, j) and contraction position κ the left operand is read at
    (r, κ) and the right one at (κ, j). -/

theorem lhs_blk_0 (i : S1000x1680.Idx) (q : dot_S1000x512_S512x1680_S1000x1680_1_0_0_1_n_n.contr.Idx) :
    (dot_S1000x512_S512x1680_S1000x1680_1_0_0_1_n_n.lhsIdx i q 0).val = (i 0).val := by
  unfold DotDims.lhsIdx
  rw [dif_neg (show ¬(0 : Fin S1000x512.rank) ∈ dot_S1000x512_S512x1680_S1000x1680_1_0_0_1_n_n.lhsBatch by decide), dif_pos (show (0 : Fin S1000x512.rank) ∈ dot_S1000x512_S512x1680_S1000x1680_1_0_0_1_n_n.lhsNonContracting by decide)]
  rfl
theorem lhs_blk_1 (i : S1000x1680.Idx) (q : dot_S1000x512_S512x1680_S1000x1680_1_0_0_1_n_n.contr.Idx) :
    (dot_S1000x512_S512x1680_S1000x1680_1_0_0_1_n_n.lhsIdx i q 1).val = (q ⟨0, by decide⟩).val :=
  dot_S1000x512_S512x1680_S1000x1680_1_0_0_1_n_n.lhsIdx_val_of_single rfl i q
theorem rhs_blk_0 (i : S1000x1680.Idx) (q : dot_S1000x512_S512x1680_S1000x1680_1_0_0_1_n_n.contr.Idx) :
    (dot_S1000x512_S512x1680_S1000x1680_1_0_0_1_n_n.rhsIdx i q 0).val = (q ⟨0, by decide⟩).val :=
  dot_S1000x512_S512x1680_S1000x1680_1_0_0_1_n_n.rhsIdx_val_of_single rfl i q
theorem rhs_blk_1 (i : S1000x1680.Idx) (q : dot_S1000x512_S512x1680_S1000x1680_1_0_0_1_n_n.contr.Idx) :
    (dot_S1000x512_S512x1680_S1000x1680_1_0_0_1_n_n.rhsIdx i q 1).val = (i 1).val := by
  unfold DotDims.rhsIdx
  rw [dif_neg (show ¬(1 : Fin S512x1680.rank) ∈ dot_S1000x512_S512x1680_S1000x1680_1_0_0_1_n_n.rhsBatch by decide), dif_pos (show (1 : Fin S512x1680.rank) ∈ dot_S1000x512_S512x1680_S1000x1680_1_0_0_1_n_n.rhsNonContracting by decide)]
  rfl

/-- One block product into the zero accumulator, at entry (r, j): the sum over the block's 512 contraction positions. -/
theorem blkmm_apply (a : FVec Ideal S1000x512 .bf16) (b : FVec Ideal S512x1680 .bf16) (r : Fin 1000) (j : Fin 1680) :
    matmul dot_S1000x512_S512x1680_S1000x1680_1_0_0_1_n_n none a b (constant (F := Ideal) S1000x1680 .f32 0x00000000#32) (ix2 r j)
      = ∑ κ : Fin 512, a (ix2 r κ) * b (ix2 κ j) := by
  simp only [matmul]
  rw [Ideal.matmul_constant_zero_apply, ← Equiv.sum_comp (ValueIdx.contrEquiv1 dot_S1000x512_S512x1680_S1000x1680_1_0_0_1_n_n 512 rfl rfl).symm]
  refine Finset.sum_congr rfl fun k _ => ?_
  have hk := ValueIdx.contrEquiv1_symm_val dot_S1000x512_S512x1680_S1000x1680_1_0_0_1_n_n 512 rfl rfl k
  have el : dot_S1000x512_S512x1680_S1000x1680_1_0_0_1_n_n.lhsIdx (ix2 r j) ((ValueIdx.contrEquiv1 dot_S1000x512_S512x1680_S1000x1680_1_0_0_1_n_n 512 rfl rfl).symm k) = ix2 r k := funext fun a => Fin.ext (by
    match a with
    | ⟨0, _⟩ => exact lhs_blk_0 _ _
    | ⟨1, _⟩ => exact (lhs_blk_1 _ _).trans hk)
  have er : dot_S1000x512_S512x1680_S1000x1680_1_0_0_1_n_n.rhsIdx (ix2 r j) ((ValueIdx.contrEquiv1 dot_S1000x512_S512x1680_S1000x1680_1_0_0_1_n_n 512 rfl rfl).symm k) = ix2 k j := funext fun a => Fin.ext (by
    match a with
    | ⟨0, _⟩ => exact (rhs_blk_0 _ _).trans hk
    | ⟨1, _⟩ => exact rhs_blk_1 _ _)
  rw [el, er]

/-- The accumulating payload of output 3 at entry (r, j): what the buffer held plus the block product. -/
theorem pay4_apply (x0 : Vec Ideal S1000x512 .f32) (xo : Vec Ideal S1000x1680 .f32) (x1 : Vec Ideal S512x1680 .bf16)
    (r : Fin 1000) (j : Fin 1680) :
    k0_pay4 (F := Ideal) x0 xo x1 (ix2 r j) = xo (ix2 r j) + ∑ κ : Fin 512, x0 (ix2 r κ) * x1 (ix2 κ j) := by
  unfold k0_pay4 k0_pay3
  simp only [shapeCast_self]
  refine (addf_apply _ _ (ix2 r j)).trans ?_
  exact congrArg (xo (ix2 r j) + ·) (blkmm_apply _ _ r j)

theorem pay5_apply (x0 : Vec Ideal S1000x512 .f32) (xo : Vec Ideal S1000x1680 .f32) (x2 : Vec Ideal S512x1680 .bf16)
    (r : Fin 1000) (j : Fin 1680) :
    k0_pay5 (F := Ideal) x0 xo x2 (ix2 r j) = xo (ix2 r j) + ∑ κ : Fin 512, x0 (ix2 r κ) * x2 (ix2 κ j) := by
  unfold k0_pay5 k0_pay3
  simp only [shapeCast_self]
  refine (addf_apply _ _ (ix2 r j)).trans ?_
  exact congrArg (xo (ix2 r j) + ·) (blkmm_apply _ _ r j)

/-- The reset payloads are the zero block. -/
theorem pay1_apply (y : S1000x1680.Idx) : k0_pay1 (F := Ideal) y = 0 := by
  unfold k0_pay1
  exact Ideal.ofBits_zero_f32
theorem pay2_apply (y : S1000x1680.Idx) : k0_pay2 (F := Ideal) y = 0 := by
  unfold k0_pay2
  exact Ideal.ofBits_zero_f32

/-- Entry (a, b) of a matrix, named by natural numbers; zero outside the matrix. -/
def at2 {A B : ℕ} (x : (⟨2, ![A, B]⟩ : Shape).Idx → EReal) (a b : ℕ) : EReal :=
  if h : a < A ∧ b < B then x (ix2 ⟨a, h.1⟩ ⟨b, h.2⟩) else 0

theorem at2_val {A B : ℕ} (x : (⟨2, ![A, B]⟩ : Shape).Idx → EReal) (a : Fin A) (b : Fin B) :
    at2 x a.val b.val = x (ix2 a b) := by
  unfold at2
  rw [dif_pos ⟨a.isLt, b.isLt⟩]

/-- The first n terms of the product row p of x times column q of w. -/
def psum (x : (⟨2, ![20000, 5120]⟩ : Shape).Idx → EReal) (w : (⟨2, ![5120, 1680]⟩ : Shape).Idx → EReal) (p q n : ℕ) : EReal :=
  ∑ κ ∈ Finset.range n, at2 x p κ * at2 w κ q

/-- Adding the next block of 512 terms to the first 512·k gives the first 512·(k + 1). -/
theorem psum_step (x : (⟨2, ![20000, 5120]⟩ : Shape).Idx → EReal) (w : (⟨2, ![5120, 1680]⟩ : Shape).Idx → EReal) (p q k : ℕ) :
    psum x w p q (512 * k) + ∑ κ : Fin 512, at2 x p (512 * k + κ.val) * at2 w (512 * k + κ.val) q = psum x w p q (512 * (k + 1)) := by
  unfold psum
  rw [Fin.sum_univ_eq_sum_range (fun κ => at2 x p (512 * k + κ) * at2 w (512 * k + κ) q) 512, ← Finset.sum_range_add, Nat.mul_succ]

/-- All 5120 terms: the entry of the matrix product. -/
theorem psum_full (x : (⟨2, ![20000, 5120]⟩ : Shape).Idx → EReal) (w : (⟨2, ![5120, 1680]⟩ : Shape).Idx → EReal) (p : Fin 20000) (q : Fin 1680) :
    psum x w p.val q.val 5120 = ∑ k : Fin 5120, x (ix2 p k) * w (ix2 k q) := by
  unfold psum
  rw [← Fin.sum_univ_eq_sum_range (fun κ => at2 x p.val κ * at2 w κ q.val) 5120]
  exact Finset.sum_congr rfl fun k _ => by rw [at2_val, at2_val]

/-- Which block each window holds at grid point t = 10·i + k: the x block (i, k), the weight blocks (k, 0), the output
    blocks (i, 0). -/
theorem idx_facts : ∀ t : Fin cfg0.N,
    win0_0.index t (0 : Fin 2) = t.val / 10 ∧ win0_0.index t (1 : Fin 2) = t.val % 10
    ∧ win0_1.index t (0 : Fin 2) = t.val % 10 ∧ win0_1.index t (1 : Fin 2) = 0
    ∧ win0_2.index t (0 : Fin 2) = t.val % 10 ∧ win0_2.index t (1 : Fin 2) = 0
    ∧ win0_3.index t (0 : Fin 2) = t.val / 10 ∧ win0_3.index t (1 : Fin 2) = 0
    ∧ win0_4.index t (0 : Fin 2) = t.val / 10 ∧ win0_4.index t (1 : Fin 2) = 0 :=
  (by decide +kernel : ∀ t : Fin grid0.N, _)

/-- The x block at point t, at (r, κ): row 1000·(t / 10) + r, column 512·(t % 10) + κ of the array. -/
theorem blk0_read (A : S20000x5120.Idx → EReal) (t : Fin cfg0.N) (r : Fin 1000) (κ : Fin 512) :
    ((cfg0.win 0).blk t).view.read (Elt Ideal) A (ix2 r κ) = at2 A (1000 * (t.val / 10) + r.val) (512 * (t.val % 10) + κ.val) := by
  have ht : t.val < 200 := lt_of_lt_of_eq t.isLt (show cfg0.N = 200 from N_0)
  have hr := r.isLt
  have hκ := κ.isLt
  obtain ⟨e0, e1, -⟩ := idx_facts t
  rw [View.read_apply]
  unfold at2
  rw [dif_pos ⟨by omega, by omega⟩]
  show A _ = A _
  congr 1
  funext a
  apply Fin.ext
  match a with
  | ⟨0, _⟩ => show win0_0.index t (0 : Fin 2) * 1000 + 1 * r.val = 1000 * (t.val / 10) + r.val; rw [e0]; omega
  | ⟨1, _⟩ => show win0_0.index t (1 : Fin 2) * 512 + 1 * κ.val = 512 * (t.val % 10) + κ.val; rw [e1]; omega

/-- The first weight block at point t, at (κ, j): row 512·(t % 10) + κ, column j of the array. -/
theorem blk1_read (A : S5120x1680.Idx → EReal) (t : Fin cfg0.N) (κ : Fin 512) (j : Fin 1680) :
    ((cfg0.win 1).blk t).view.read (Elt Ideal) A (ix2 κ j) = at2 A (512 * (t.val % 10) + κ.val) j.val := by
  have ht : t.val < 200 := lt_of_lt_of_eq t.isLt (show cfg0.N = 200 from N_0)
  have hj := j.isLt
  have hκ := κ.isLt
  obtain ⟨-, -, e0, e1, -⟩ := idx_facts t
  rw [View.read_apply]
  unfold at2
  rw [dif_pos ⟨by omega, by omega⟩]
  show A _ = A _
  congr 1
  funext a
  apply Fin.ext
  match a with
  | ⟨0, _⟩ => show win0_1.index t (0 : Fin 2) * 512 + 1 * κ.val = 512 * (t.val % 10) + κ.val; rw [e0]; omega
  | ⟨1, _⟩ => show win0_1.index t (1 : Fin 2) * 1680 + 1 * j.val = j.val; rw [e1]; omega

/-- The second weight block likewise. -/
theorem blk2_read (A : S5120x1680.Idx → EReal) (t : Fin cfg0.N) (κ : Fin 512) (j : Fin 1680) :
    ((cfg0.win 2).blk t).view.read (Elt Ideal) A (ix2 κ j) = at2 A (512 * (t.val % 10) + κ.val) j.val := by
  have ht : t.val < 200 := lt_of_lt_of_eq t.isLt (show cfg0.N = 200 from N_0)
  have hj := j.isLt
  have hκ := κ.isLt
  obtain ⟨-, -, -, -, e0, e1, -⟩ := idx_facts t
  rw [View.read_apply]
  unfold at2
  rw [dif_pos ⟨by omega, by omega⟩]
  show A _ = A _
  congr 1
  funext a
  apply Fin.ext
  match a with
  | ⟨0, _⟩ => show win0_2.index t (0 : Fin 2) * 512 + 1 * κ.val = 512 * (t.val % 10) + κ.val; rw [e0]; omega
  | ⟨1, _⟩ => show win0_2.index t (1 : Fin 2) * 1680 + 1 * j.val = j.val; rw [e1]; omega

/-- An index of the first output array lies in point t's block iff each coordinate is in the block's range. -/
theorem mem_blk3 (t : Fin cfg0.N) (i : S20000x1680.Idx) :
    i ∈ ((cfg0.win 3).blk t).view.set ↔ ∀ a : Fin 2, win0_3.index t a * S1000x1680.size a ≤ (i a).val ∧ (i a).val < win0_3.index t a * S1000x1680.size a + S1000x1680.size a := by
  show i ∈ ((View.whole main_v15_0).slice (win0_3.rect t)).set ↔ _
  rw [View.set_slice_whole, Rect.mem_set_unit]
  exact Iff.rfl

theorem mem_blk4 (t : Fin cfg0.N) (i : S20000x1680.Idx) :
    i ∈ ((cfg0.win 4).blk t).view.set ↔ ∀ a : Fin 2, win0_4.index t a * S1000x1680.size a ≤ (i a).val ∧ (i a).val < win0_4.index t a * S1000x1680.size a + S1000x1680.size a := by
  show i ∈ ((View.whole main_v15_1).slice (win0_4.rect t)).set ↔ _
  rw [View.set_slice_whole, Rect.mem_set_unit]
  exact Iff.rfl

/-- Row p of the output lies in the block written back at point 10·(p / 1000) + 9. -/
theorem cover3 (i : S20000x1680.Idx) : ∃ t : Fin cfg0.N, (cfg0.win 3).flush t = true ∧ i ∈ ((cfg0.win 3).blk t).view.set := by
  have hN : cfg0.N = 200 := N_0
  have h0 : (i 0).val < 20000 := (i 0).isLt
  have h1 : (i 1).val < 1680 := (i 1).isLt
  obtain ⟨t, ht⟩ : ∃ t : Fin cfg0.N, t.val = 10 * ((i 0).val / 1000) + 9 := ⟨⟨10 * ((i 0).val / 1000) + 9, by rw [hN]; omega⟩, rfl⟩
  refine ⟨t, (flush0_3 t).mpr (by omega), ?_⟩
  rw [mem_blk3]
  obtain ⟨-, -, -, -, -, -, e0, e1, -⟩ := idx_facts t
  intro a
  match a with
  | ⟨0, _⟩ => show win0_3.index t (0 : Fin 2) * 1000 ≤ (i 0).val ∧ (i 0).val < win0_3.index t (0 : Fin 2) * 1000 + 1000; rw [e0]; omega
  | ⟨1, _⟩ => show win0_3.index t (1 : Fin 2) * 1680 ≤ (i 1).val ∧ (i 1).val < win0_3.index t (1 : Fin 2) * 1680 + 1680; rw [e1]; omega

theorem cover4 (i : S20000x1680.Idx) : ∃ t : Fin cfg0.N, (cfg0.win 4).flush t = true ∧ i ∈ ((cfg0.win 4).blk t).view.set := by
  have hN : cfg0.N = 200 := N_0
  have h0 : (i 0).val < 20000 := (i 0).isLt
  have h1 : (i 1).val < 1680 := (i 1).isLt
  obtain ⟨t, ht⟩ : ∃ t : Fin cfg0.N, t.val = 10 * ((i 0).val / 1000) + 9 := ⟨⟨10 * ((i 0).val / 1000) + 9, by rw [hN]; omega⟩, rfl⟩
  refine ⟨t, (flush0_4 t).mpr (by omega), ?_⟩
  rw [mem_blk4]
  obtain ⟨-, -, -, -, -, -, -, -, e0, e1⟩ := idx_facts t
  intro a
  match a with
  | ⟨0, _⟩ => show win0_4.index t (0 : Fin 2) * 1000 ≤ (i 0).val ∧ (i 0).val < win0_4.index t (0 : Fin 2) * 1000 + 1000; rw [e0]; omega
  | ⟨1, _⟩ => show win0_4.index t (1 : Fin 2) * 1680 ≤ (i 1).val ∧ (i 1).val < win0_4.index t (1 : Fin 2) * 1680 + 1680; rw [e1]; omega

/-! ## What one run of the body leaves in the two output buffers

At the first step of a row block (case A) the body stores the zero block, reads it back, and stores it plus the block
product; at every other step (case B) it stores what the buffer held plus the block product. -/

section Pieces
variable {F : FTy → Type} [FloatOps F]

theorem hz : (![0, 0] : Fin 2 → Nat) = fun _ => 0 := funext fun a => by fin_cases a <;> rfl

theorem out_B_3 (c : Dev nD) (i : grid0.Coords)
    (a2 : Memref sig .tc .vmem S1000x512 .f32) (h2 : a2.IsWhole)
    (a3 : Memref sig .tc .vmem S512x1680 .bf16) (h3 : a3.IsWhole)
    (a4 : Memref sig .tc .vmem S512x1680 .bf16) (h4 : a4.IsWhole)
    (a5 : Memref sig .tc .vmem S1000x1680 .f32) (h5 : a5.IsWhole)
    (a6 : Memref sig .tc .vmem S1000x1680 .f32) (h6 : a6.IsWhole) (hc : ¬cond0_0 i)
    (x0 : Vec F S1000x512 .f32) (x1 x2 : Vec F S512x1680 .bf16) (xo3 xo4 : Vec F S1000x1680 .f32) :
    out0_B_3 c i a2 h2 a3 h3 a4 h4 a5 h5 a6 h6 hc x0 x1 x2 xo3 xo4 = k0_pay4 x0 xo3 x1 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz]
  simp only [View.readAt_eq_ld, h2.read_unread, h3.read_unread, h4.read_unread, h5.read_unread, h6.read_unread, View.ld_unit_zero (S := S1000x512) hz, View.ld_unit_zero (S := S512x1680) hz, View.ld_unit_zero (S := S1000x1680) hz]

theorem out_B_4 (c : Dev nD) (i : grid0.Coords)
    (a2 : Memref sig .tc .vmem S1000x512 .f32) (h2 : a2.IsWhole)
    (a3 : Memref sig .tc .vmem S512x1680 .bf16) (h3 : a3.IsWhole)
    (a4 : Memref sig .tc .vmem S512x1680 .bf16) (h4 : a4.IsWhole)
    (a5 : Memref sig .tc .vmem S1000x1680 .f32) (h5 : a5.IsWhole)
    (a6 : Memref sig .tc .vmem S1000x1680 .f32) (h6 : a6.IsWhole) (hc : ¬cond0_0 i)
    (x0 : Vec F S1000x512 .f32) (x1 x2 : Vec F S512x1680 .bf16) (xo3 xo4 : Vec F S1000x1680 .f32) :
    out0_B_4 c i a2 h2 a3 h3 a4 h4 a5 h5 a6 h6 hc x0 x1 x2 xo3 xo4 = k0_pay5 x0 xo4 x2 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz]
  simp only [View.readAt_eq_ld, h2.read_unread, h3.read_unread, h4.read_unread, h5.read_unread, h6.read_unread, View.ld_unit_zero (S := S1000x512) hz, View.ld_unit_zero (S := S512x1680) hz, View.ld_unit_zero (S := S1000x1680) hz]

theorem out_A_3 (c : Dev nD) (i : grid0.Coords)
    (a2 : Memref sig .tc .vmem S1000x512 .f32) (h2 : a2.IsWhole)
    (a3 : Memref sig .tc .vmem S512x1680 .bf16) (h3 : a3.IsWhole)
    (a4 : Memref sig .tc .vmem S512x1680 .bf16) (h4 : a4.IsWhole)
    (a5 : Memref sig .tc .vmem S1000x1680 .f32) (h5 : a5.IsWhole)
    (a6 : Memref sig .tc .vmem S1000x1680 .f32) (h6 : a6.IsWhole) (hc : cond0_0 i)
    (x0 : Vec F S1000x512 .f32) (x1 x2 : Vec F S512x1680 .bf16) :
    out0_A_3 c i a2 h2 a3 h3 a4 h4 a5 h5 a6 h6 hc x0 x1 x2 = k0_pay4 x0 (k0_pay1 (F := F)) x1 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1000x1680) hz]
  simp only [View.readAt_eq_ld, h2.read_unread, h3.read_unread, h4.read_unread, View.readCov_unit_zero (S := S1000x1680) _ hz, View.ld_unit_zero (S := S1000x512) hz, View.ld_unit_zero (S := S512x1680) hz, View.ld_unit_zero (S := S1000x1680) hz]

theorem out_A_4 (c : Dev nD) (i : grid0.Coords)
    (a2 : Memref sig .tc .vmem S1000x512 .f32) (h2 : a2.IsWhole)
    (a3 : Memref sig .tc .vmem S512x1680 .bf16) (h3 : a3.IsWhole)
    (a4 : Memref sig .tc .vmem S512x1680 .bf16) (h4 : a4.IsWhole)
    (a5 : Memref sig .tc .vmem S1000x1680 .f32) (h5 : a5.IsWhole)
    (a6 : Memref sig .tc .vmem S1000x1680 .f32) (h6 : a6.IsWhole) (hc : cond0_0 i)
    (x0 : Vec F S1000x512 .f32) (x1 x2 : Vec F S512x1680 .bf16) :
    out0_A_4 c i a2 h2 a3 h3 a4 h4 a5 h5 a6 h6 hc x0 x1 x2 = k0_pay5 x0 (k0_pay2 (F := F)) x2 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1000x1680) hz]
  simp only [View.readAt_eq_ld, h2.read_unread, h3.read_unread, h4.read_unread, View.readCov_unit_zero (S := S1000x1680) _ hz, View.ld_unit_zero (S := S1000x512) hz, View.ld_unit_zero (S := S512x1680) hz, View.ld_unit_zero (S := S1000x1680) hz]

end Pieces

/-! ## The running sums

After grid point t = 10·i + k the first output buffer holds, at (r, j), the first 512·(k + 1) terms of the product of row
1000·i + r of x with column j of the first weight matrix; the second buffer the same with the second weight matrix. -/

section Acc
variable (V : (c : Dev nD) → (b : Ref sig .tc) → Buf (Elt Ideal) ((c : Thread nD τ).loc b)) (c : Dev nD)
variable (X : Vec Ideal S20000x5120 .f32) (Wl Wr : Vec Ideal S5120x1680 .bf16)

/-- The three input blocks at point t, each at its own shape. -/
abbrev xblk (t : Fin cfg0.N) : Vec Ideal S1000x512 .f32 := iblk0 V c 0 t
abbrev wlblk (t : Fin cfg0.N) : Vec Ideal S512x1680 .bf16 := iblk0 V c 1 t
abbrev wrblk (t : Fin cfg0.N) : Vec Ideal S512x1680 .bf16 := iblk0 V c 2 t

/-- The block product at point t, entry (r, j), in the arrays' own coordinates. -/
theorem blocksum3 (hX : V c (Pipeline.arrRef spec0 0) = X) (hW : V c (Pipeline.arrRef spec0 1) = Wl)
    (t : Fin cfg0.N) (r : Fin 1000) (j : Fin 1680) :
    (∑ κ : Fin 512, xblk V c t (ix2 r κ) * wlblk V c t (ix2 κ j))
      = ∑ κ : Fin 512, at2 X (1000 * (t.val / 10) + r.val) (512 * (t.val % 10) + κ.val) * at2 Wl (512 * (t.val % 10) + κ.val) j.val := by
  refine Finset.sum_congr rfl fun κ _ => ?_
  unfold xblk wlblk iblk0
  rw [hX, hW, blk0_read X t r κ, blk1_read Wl t κ j]

theorem blocksum4 (hX : V c (Pipeline.arrRef spec0 0) = X) (hW : V c (Pipeline.arrRef spec0 2) = Wr)
    (t : Fin cfg0.N) (r : Fin 1000) (j : Fin 1680) :
    (∑ κ : Fin 512, xblk V c t (ix2 r κ) * wrblk V c t (ix2 κ j))
      = ∑ κ : Fin 512, at2 X (1000 * (t.val / 10) + r.val) (512 * (t.val % 10) + κ.val) * at2 Wr (512 * (t.val % 10) + κ.val) j.val := by
  refine Finset.sum_congr rfl fun κ _ => ?_
  unfold xblk wrblk iblk0
  rw [hX, hW, blk0_read X t r κ, blk2_read Wr t κ j]

/-- At the first step of a row block: zero plus the first 512 terms. -/
theorem acc3_A (hX : V c (Pipeline.arrRef spec0 0) = X) (hW : V c (Pipeline.arrRef spec0 1) = Wl)
    (t : Fin cfg0.N) (h0 : t.val % 10 = 0) (r : Fin 1000) (j : Fin 1680) :
    (outsAt0 V c t.val t.isLt).1 (ix2 r j) = psum X Wl (1000 * (t.val / 10) + r.val) j.val (512 * (t.val % 10 + 1)) := by
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)) (ix2 r j)).trans ?_
  refine (pay4_apply (xblk V c t) (k0_pay1 (F := Ideal)) (wlblk V c t) r j).trans ?_
  rw [pay1_apply, blocksum3 V c X Wl hX hW t r j, ← psum_step X Wl _ _ (t.val % 10)]
  refine congrArg (· + _) ?_
  rw [h0]
  exact (Finset.sum_range_zero _).symm

theorem acc4_A (hX : V c (Pipeline.arrRef spec0 0) = X) (hW : V c (Pipeline.arrRef spec0 2) = Wr)
    (t : Fin cfg0.N) (h0 : t.val % 10 = 0) (r : Fin 1000) (j : Fin 1680) :
    (outsAt0 V c t.val t.isLt).2 (ix2 r j) = psum X Wr (1000 * (t.val / 10) + r.val) j.val (512 * (t.val % 10 + 1)) := by
  rw [outsAt0_A V c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)) (ix2 r j)).trans ?_
  refine (pay5_apply (xblk V c t) (k0_pay2 (F := Ideal)) (wrblk V c t) r j).trans ?_
  rw [pay2_apply, blocksum4 V c X Wr hX hW t r j, ← psum_step X Wr _ _ (t.val % 10)]
  refine congrArg (· + _) ?_
  rw [h0]
  exact (Finset.sum_range_zero _).symm

/-- At a later step: what the step before left, plus the next 512 terms. -/
theorem acc3_B (hX : V c (Pipeline.arrRef spec0 0) = X) (hW : V c (Pipeline.arrRef spec0 1) = Wl)
    (t : Fin cfg0.N) (h0 : ¬t.val % 10 = 0) (r : Fin 1000) (j : Fin 1680)
    (hprev : ∀ hlt, (outsAt0 V c (t.val - 1) hlt).1 (ix2 r j)
      = psum X Wl (1000 * ((t.val - 1) / 10) + r.val) j.val (512 * ((t.val - 1) % 10 + 1))) :
    (outsAt0 V c t.val t.isLt).1 (ix2 r j) = psum X Wl (1000 * (t.val / 10) + r.val) j.val (512 * (t.val % 10 + 1)) := by
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t)
    (outsAt0 V c (t.val - 1) (Nat.lt_of_le_of_lt (Nat.sub_le _ _) t.isLt)).1 (outsAt0 V c (t.val - 1) (Nat.lt_of_le_of_lt (Nat.sub_le _ _) t.isLt)).2) (ix2 r j)).trans ?_
  refine (pay4_apply (xblk V c t) (outsAt0 V c (t.val - 1) (Nat.lt_of_le_of_lt (Nat.sub_le _ _) t.isLt)).1 (wlblk V c t) r j).trans ?_
  rw [hprev, blocksum3 V c X Wl hX hW t r j, ← psum_step X Wl _ _ (t.val % 10)]
  have e1 : (t.val - 1) / 10 = t.val / 10 := by omega
  have e2 : (t.val - 1) % 10 + 1 = t.val % 10 := by omega
  rw [e1, e2]

theorem acc4_B (hX : V c (Pipeline.arrRef spec0 0) = X) (hW : V c (Pipeline.arrRef spec0 2) = Wr)
    (t : Fin cfg0.N) (h0 : ¬t.val % 10 = 0) (r : Fin 1000) (j : Fin 1680)
    (hprev : ∀ hlt, (outsAt0 V c (t.val - 1) hlt).2 (ix2 r j)
      = psum X Wr (1000 * ((t.val - 1) / 10) + r.val) j.val (512 * ((t.val - 1) % 10 + 1))) :
    (outsAt0 V c t.val t.isLt).2 (ix2 r j) = psum X Wr (1000 * (t.val / 10) + r.val) j.val (512 * (t.val % 10 + 1)) := by
  rw [outsAt0_B V c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t)
    (outsAt0 V c (t.val - 1) (Nat.lt_of_le_of_lt (Nat.sub_le _ _) t.isLt)).1 (outsAt0 V c (t.val - 1) (Nat.lt_of_le_of_lt (Nat.sub_le _ _) t.isLt)).2) (ix2 r j)).trans ?_
  refine (pay5_apply (xblk V c t) (outsAt0 V c (t.val - 1) (Nat.lt_of_le_of_lt (Nat.sub_le _ _) t.isLt)).2 (wrblk V c t) r j).trans ?_
  rw [hprev, blocksum4 V c X Wr hX hW t r j, ← psum_step X Wr _ _ (t.val % 10)]
  have e1 : (t.val - 1) / 10 = t.val / 10 := by omega
  have e2 : (t.val - 1) % 10 + 1 = t.val % 10 := by omega
  rw [e1, e2]

/-- The running sum after every point, by induction on the point. -/
theorem acc3 (hX : V c (Pipeline.arrRef spec0 0) = X) (hW : V c (Pipeline.arrRef spec0 1) = Wl) :
    ∀ (n : ℕ) (hn : n < cfg0.N) (r : Fin 1000) (j : Fin 1680),
      (outsAt0 V c n hn).1 (ix2 r j) = psum X Wl (1000 * (n / 10) + r.val) j.val (512 * (n % 10 + 1)) := by
  intro n
  induction n with
  | zero => intro hn r j; exact acc3_A V c X Wl hX hW ⟨0, hn⟩ rfl r j
  | succ n ih =>
    intro hn r j
    by_cases h0 : (n + 1) % 10 = 0
    · exact acc3_A V c X Wl hX hW ⟨n + 1, hn⟩ h0 r j
    · exact acc3_B V c X Wl hX hW ⟨n + 1, hn⟩ h0 r j (fun hlt => ih hlt r j)

theorem acc4 (hX : V c (Pipeline.arrRef spec0 0) = X) (hW : V c (Pipeline.arrRef spec0 2) = Wr) :
    ∀ (n : ℕ) (hn : n < cfg0.N) (r : Fin 1000) (j : Fin 1680),
      (outsAt0 V c n hn).2 (ix2 r j) = psum X Wr (1000 * (n / 10) + r.val) j.val (512 * (n % 10 + 1)) := by
  intro n
  induction n with
  | zero => intro hn r j; exact acc4_A V c X Wr hX hW ⟨0, hn⟩ rfl r j
  | succ n ih =>
    intro hn r j
    by_cases h0 : (n + 1) % 10 = 0
    · exact acc4_A V c X Wr hX hW ⟨n + 1, hn⟩ h0 r j
    · exact acc4_B V c X Wr hX hW ⟨n + 1, hn⟩ h0 r j (fun hlt => ih hlt r j)

/-! ## What is written back, and the arrays after the region -/

/-- The whole product, entry by entry: all 5120 terms. -/
def prod (x : (⟨2, ![20000, 5120]⟩ : Shape).Idx → EReal) (w : (⟨2, ![5120, 1680]⟩ : Shape).Idx → EReal) :
    (⟨2, ![20000, 1680]⟩ : Shape).Idx → EReal :=
  fun i => psum x w (i 0).val (i 1).val 5120

/-- The block written back at the tenth step of row block i is rows 1000·i … 1000·i + 999 of the product. -/
theorem flushed3 (hX : V c (Pipeline.arrRef spec0 0) = X) (hW : V c (Pipeline.arrRef spec0 1) = Wl)
    (t : Fin cfg0.N) (hf : (cfg0.win 3).flush t = true) :
    (dat0 V c).flushed 3 t = ((cfg0.win 3).blk t).view.read (Elt Ideal) (prod X Wl) := by
  have h9 : t.val % 10 = 9 := (flush0_3 t).mp hf
  have ht : t.val < 200 := lt_of_lt_of_eq t.isLt (show cfg0.N = 200 from N_0)
  obtain ⟨-, -, -, -, -, -, e0, e1, -⟩ := idx_facts t
  show (cfg0.win 3).cut (grid0.coords t) ((dat0 V c).after 3 t) = _
  rw [after0_3]
  funext y
  obtain ⟨r, j, rfl⟩ : ∃ (r : Fin 1000) (j : Fin 1680), y = ix2 r j := ⟨y 0, y 1, eq_ix2 y⟩
  have hr := r.isLt
  have hj := j.isLt
  have c0 : ((((cfg0.win 3).blk t).view.emb (ix2 r j)) 0).val = 1000 * (t.val / 10) + r.val := by
    show win0_3.index t (0 : Fin 2) * 1000 + 1 * r.val = _; rw [e0]; omega
  have c1 : ((((cfg0.win 3).blk t).view.emb (ix2 r j)) 1).val = j.val := by
    show win0_3.index t (1 : Fin 2) * 1680 + 1 * j.val = _; rw [e1]; omega
  show (outsAt0 V c t.val t.isLt).1 (ix2 r j) = psum X Wl ((((cfg0.win 3).blk t).view.emb (ix2 r j)) 0).val ((((cfg0.win 3).blk t).view.emb (ix2 r j)) 1).val 5120
  rw [acc3 V c X Wl hX hW t.val t.isLt r j, h9, c0, c1]

theorem flushed4 (hX : V c (Pipeline.arrRef spec0 0) = X) (hW : V c (Pipeline.arrRef spec0 2) = Wr)
    (t : Fin cfg0.N) (hf : (cfg0.win 4).flush t = true) :
    (dat0 V c).flushed 4 t = ((cfg0.win 4).blk t).view.read (Elt Ideal) (prod X Wr) := by
  have h9 : t.val % 10 = 9 := (flush0_4 t).mp hf
  have ht : t.val < 200 := lt_of_lt_of_eq t.isLt (show cfg0.N = 200 from N_0)
  obtain ⟨-, -, -, -, -, -, -, -, e0, e1⟩ := idx_facts t
  show (cfg0.win 4).cut (grid0.coords t) ((dat0 V c).after 4 t) = _
  rw [after0_4]
  funext y
  obtain ⟨r, j, rfl⟩ : ∃ (r : Fin 1000) (j : Fin 1680), y = ix2 r j := ⟨y 0, y 1, eq_ix2 y⟩
  have hr := r.isLt
  have hj := j.isLt
  have c0 : ((((cfg0.win 4).blk t).view.emb (ix2 r j)) 0).val = 1000 * (t.val / 10) + r.val := by
    show win0_4.index t (0 : Fin 2) * 1000 + 1 * r.val = _; rw [e0]; omega
  have c1 : ((((cfg0.win 4).blk t).view.emb (ix2 r j)) 1).val = j.val := by
    show win0_4.index t (1 : Fin 2) * 1680 + 1 * j.val = _; rw [e1]; omega
  show (outsAt0 V c t.val t.isLt).2 (ix2 r j) = psum X Wr ((((cfg0.win 4).blk t).view.emb (ix2 r j)) 0).val ((((cfg0.win 4).blk t).view.emb (ix2 r j)) 1).val 5120
  rw [acc4 V c X Wr hX hW t.val t.isLt r j, h9, c0, c1]

end Acc

end R0

open R0

variable (V : (c : Dev nD) → (b : Ref sig .tc) → Buf (Elt Ideal) ((c : Thread nD τ).loc b)) (c : Dev nD)

/-- After region 0 its first output array is the product of x with the first weight matrix: the ten partial sums of 512
    terms regrouped into the one sum of 5120 (addition of extended reals is associative and commutative, and 0 + s = s). -/
theorem region0_xl (X : Vec Ideal S20000x5120 .f32) (Wl : Vec Ideal S5120x1680 .bf16)
    (hX : V c (Pipeline.arrRef spec0 0) = X) (hW : V c (Pipeline.arrRef spec0 1) = Wl) (p : Fin 20000) (q : Fin 1680) :
    (dat0 (F := Ideal) V c).arrAt 3 cfg0.N (ValueIdx.ix2 p q) = Cert.Sage.mm (Cert.Sage.mat X) (Cert.Sage.mat Wl) p q := by
  unfold Cert.Sage.mm
  exact (congrFun ((dat0 (F := Ideal) V c).arrAt_eq_of_cover 3 (R0.prod X Wl) (fun t hf => flushed3 V c X Wl hX hW t hf) cover3) (ix2 p q)).trans
    (psum_full X Wl p q)

/-- The same for the second output array and the second weight matrix. -/
theorem region0_xr (X : Vec Ideal S20000x5120 .f32) (Wr : Vec Ideal S5120x1680 .bf16)
    (hX : V c (Pipeline.arrRef spec0 0) = X) (hW : V c (Pipeline.arrRef spec0 2) = Wr) (p : Fin 20000) (q : Fin 1680) :
    (dat0 (F := Ideal) V c).arrAt 4 cfg0.N (ValueIdx.ix2 p q) = Cert.Sage.mm (Cert.Sage.mat X) (Cert.Sage.mat Wr) p q := by
  unfold Cert.Sage.mm
  exact (congrFun ((dat0 (F := Ideal) V c).arrAt_eq_of_cover 4 (R0.prod X Wr) (fun t hf => flushed4 V c X Wr hX hW t hf) cover4) (ix2 p q)).trans
    (psum_full X Wr p q)

end Cert.KernelIdeal.Val
end
-- ==== Proof.K1.lean ====
import proofs.«403081_j87196426043909_3_alg».proof.Proof.KernelIdealFrameP
import proofs.«403081_j87196426043909_3_alg».proof.Proof.Spec
import proofs.«403081_j87196426043909_3_alg».proof.Proof.Iface
import proofs.«403081_j87196426043909_3_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  What the second kernel region leaves in its two output arrays.

  The region walks 25 row blocks of 800 rows.  At block `t` it reads rows `800 t … 800 t + 799` of the aggregate `A` and of
  the self projection `Xr`, the five `[1, 1680]` rows (bias, scale, shift, running mean, running variance) and the two
  `[1680, 640]` weights whole, forms row by row

      h (p, k) = ((max ((A (p, k) + Xr (p, k)) + b1 k) 0 − mean k) · rsqrt (var k + ε)) · gamma k + beta k

  and writes `h · Wl` and `h · Wr` to rows `800 t … 800 t + 799` of the two `[20000, 640]` outputs.  A row of the output
  depends only on the same row of `A` and `Xr`, so the blocks are restrictions of one function of the whole arrays, and since
  the 25 blocks tile the 20000 rows that function is what the arrays hold at the end.
-/

set_option maxRecDepth 16384

noncomputable section

namespace Cert.KernelIdeal.Val.R1

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an index -/

/-- One entry of the normalised activations, from the entries it reads. -/
def act (a xr b va mu g bt : EReal) : EReal :=
  ((max ((a + xr) + b) 0 - mu) * Ideal.rsqrt (va + Cert.Sage.bnEps)) * g + bt

/-- A reciprocal square root of a vector reads the entry's. -/
theorem rsqrt_at {s : Shape} {φ : FTy} (x : FVec Ideal s φ) (i : s.Idx) : rsqrt x i = Ideal.rsqrt (x i) := rfl

/-- The activations' block at row `p`, column `k`: the two row blocks at `(p, k)`, the five rows at `k`. -/
theorem pay2_at (x0 x1 : Vec Ideal S800x1680 .f32) (b va mu g bt : Vec Ideal S1x1680 .f32) (p : Fin 800) (k : Fin 1680) :
    k1_pay2 (F := Ideal) x0 x1 b va mu g bt (ix2 p k)
      = act (x0 (ix2 p k)) (x1 (ix2 p k)) (b (ix2 0 k)) (va (ix2 0 k)) (mu (ix2 0 k)) (g (ix2 0 k)) (bt (ix2 0 k)) := by
  unfold k1_pay2 act
  simp only [shapeCast_self]
  rw [truncf_apply, addf_apply, mulf_apply, mulf_apply, subf_apply, maximumf_apply, addf_apply, addf_apply, broadcast_apply]
  rw [broadcastTo_1b_ab_apply, broadcastTo_1b_ab_apply, broadcastTo_1b_ab_apply, broadcastTo_1b_ab_apply, broadcastTo_1b_ab_apply]
  rw [rsqrt_at, addf_apply, broadcast_apply]
  rw [show (Scalar.ofBits .f32 0x00000000#32 : Ideal .f32) = 0 from Cert.Sage.ofBits_zero]
  rfl

/-! ## The block product at an index -/

/-- The left operand's row is the output's row. -/
theorem dotL_row (i : S800x640.Idx) (q : dot_S800x1680_S1680x640_S800x640_1_0_0_1_n_n.contr.Idx) :
    (dot_S800x1680_S1680x640_S800x640_1_0_0_1_n_n.lhsIdx i q 0).val = (i 0).val := by
  unfold DotDims.lhsIdx
  rw [dif_neg (show ¬(0 : Fin S800x1680.rank) ∈ dot_S800x1680_S1680x640_S800x640_1_0_0_1_n_n.lhsBatch by decide), dif_pos (show (0 : Fin S800x1680.rank) ∈ dot_S800x1680_S1680x640_S800x640_1_0_0_1_n_n.lhsNonContracting by decide)]
  rfl
/-- The left operand's column is the contraction index. -/
theorem dotL_col (i : S800x640.Idx) (q : dot_S800x1680_S1680x640_S800x640_1_0_0_1_n_n.contr.Idx) :
    (dot_S800x1680_S1680x640_S800x640_1_0_0_1_n_n.lhsIdx i q 1).val = (q ⟨0, by decide⟩).val :=
  dot_S800x1680_S1680x640_S800x640_1_0_0_1_n_n.lhsIdx_val_of_single rfl i q
/-- The right operand's row is the contraction index. -/
theorem dotR_row (i : S800x640.Idx) (q : dot_S800x1680_S1680x640_S800x640_1_0_0_1_n_n.contr.Idx) :
    (dot_S800x1680_S1680x640_S800x640_1_0_0_1_n_n.rhsIdx i q 0).val = (q ⟨0, by decide⟩).val :=
  dot_S800x1680_S1680x640_S800x640_1_0_0_1_n_n.rhsIdx_val_of_single rfl i q
/-- The right operand's column is the output's column. -/
theorem dotR_col (i : S800x640.Idx) (q : dot_S800x1680_S1680x640_S800x640_1_0_0_1_n_n.contr.Idx) :
    (dot_S800x1680_S1680x640_S800x640_1_0_0_1_n_n.rhsIdx i q 1).val = (i 1).val := by
  unfold DotDims.rhsIdx
  rw [dif_neg (show ¬(1 : Fin S1680x640.rank) ∈ dot_S800x1680_S1680x640_S800x640_1_0_0_1_n_n.rhsBatch by decide), dif_pos (show (1 : Fin S1680x640.rank) ∈ dot_S800x1680_S1680x640_S800x640_1_0_0_1_n_n.rhsNonContracting by decide)]
  rfl

/-- A block product into the zero accumulator, at `(p, q)`: row `p` of the left block against column `q` of the weight. -/
theorem mm_at (y : FVec Ideal S800x1680 .bf16) (w : FVec Ideal S1680x640 .bf16) (p : Fin 800) (q : Fin 640) :
    matmul dot_S800x1680_S1680x640_S800x640_1_0_0_1_n_n none y w (constant (F := Ideal) S800x640 .f32 0x00000000#32) (ix2 p q)
      = ∑ k : Fin 1680, y (ix2 p k) * w (ix2 k q) := by
  simp only [matmul]
  rw [Ideal.matmul_constant_zero_apply, ← Equiv.sum_comp (contrEquiv1 dot_S800x1680_S1680x640_S800x640_1_0_0_1_n_n 1680 rfl rfl).symm]
  refine Finset.sum_congr rfl fun k _ => ?_
  have hk := contrEquiv1_symm_val dot_S800x1680_S1680x640_S800x640_1_0_0_1_n_n 1680 rfl rfl k
  have el : dot_S800x1680_S1680x640_S800x640_1_0_0_1_n_n.lhsIdx (ix2 p q) ((contrEquiv1 dot_S800x1680_S1680x640_S800x640_1_0_0_1_n_n 1680 rfl rfl).symm k) = ix2 p k := funext fun a => Fin.ext (by
    match a with
    | ⟨0, _⟩ => exact dotL_row _ _
    | ⟨1, _⟩ => exact (dotL_col _ _).trans hk)
  have er : dot_S800x1680_S1680x640_S800x640_1_0_0_1_n_n.rhsIdx (ix2 p q) ((contrEquiv1 dot_S800x1680_S1680x640_S800x640_1_0_0_1_n_n 1680 rfl rfl).symm k) = ix2 k q := funext fun a => Fin.ext (by
    match a with
    | ⟨0, _⟩ => exact (dotR_row _ _).trans hk
    | ⟨1, _⟩ => exact dotR_col _ _)
  rw [el, er]

/-- The first output's block at `(p, q)`: the activations' row `p` against column `q` of the weight. -/
theorem pay3_at (x0 x1 : Vec Ideal S800x1680 .f32) (b va mu g bt : Vec Ideal S1x1680 .f32) (w : Vec Ideal S1680x640 .bf16)
    (p : Fin 800) (q : Fin 640) :
    k1_pay3 (F := Ideal) x0 x1 b va mu g bt w (ix2 p q)
      = ∑ k : Fin 1680, act (x0 (ix2 p k)) (x1 (ix2 p k)) (b (ix2 0 k)) (va (ix2 0 k)) (mu (ix2 0 k)) (g (ix2 0 k)) (bt (ix2 0 k)) * w (ix2 k q) := by
  unfold k1_pay3
  simp only [shapeCast_self]
  refine (mm_at _ _ p q).trans ?_
  exact Finset.sum_congr rfl fun k _ => by rw [pay2_at]

/-- The second output's block at `(p, q)`, likewise with the other weight. -/
theorem pay1_at (x0 x1 : Vec Ideal S800x1680 .f32) (b va mu g bt : Vec Ideal S1x1680 .f32) (w : Vec Ideal S1680x640 .bf16)
    (p : Fin 800) (q : Fin 640) :
    k1_pay1 (F := Ideal) (k1_pay2 (F := Ideal) x0 x1 b va mu g bt) w (ix2 p q)
      = ∑ k : Fin 1680, act (x0 (ix2 p k)) (x1 (ix2 p k)) (b (ix2 0 k)) (va (ix2 0 k)) (mu (ix2 0 k)) (g (ix2 0 k)) (bt (ix2 0 k)) * w (ix2 k q) := by
  unfold k1_pay1
  simp only [shapeCast_self]
  refine (mm_at _ _ p q).trans ?_
  exact Finset.sum_congr rfl fun k _ => by rw [pay2_at]

end Cert.KernelIdeal.Val.R1

namespace Cert.KernelIdeal.Val.R1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-! ## The function the output arrays end holding -/

/-- Row `p` of the activations against column `q` of a weight, from the whole arrays. -/
def rowdot (A Xr : Vec Ideal S20000x1680 .f32) (B1 G Bt Mu Va : Vec Ideal S1x1680 .f32) (W : Vec Ideal S1680x640 .bf16)
    (p : Fin 20000) (q : Fin 640) : EReal :=
  ∑ k : Fin 1680, act (A (ix2 p k)) (Xr (ix2 p k)) (B1 (ix2 0 k)) (Va (ix2 0 k)) (Mu (ix2 0 k)) (G (ix2 0 k)) (Bt (ix2 0 k)) * W (ix2 k q)

/-- The same as a function of the output's index. -/
def outFn (A Xr : Vec Ideal S20000x1680 .f32) (B1 G Bt Mu Va : Vec Ideal S1x1680 .f32) (W : Vec Ideal S1680x640 .bf16) :
    Vec Ideal S20000x640 .f32 :=
  fun i => rowdot A Xr B1 G Bt Mu Va W ⟨(i 0).val, idx2_lt0 i⟩ ⟨(i 1).val, idx2_lt1 i⟩

/-- At an index whose coordinates are `p` and `q` it is the row-column sum. -/
theorem outFn_at (A Xr : Vec Ideal S20000x1680 .f32) (B1 G Bt Mu Va : Vec Ideal S1x1680 .f32) (W : Vec Ideal S1680x640 .bf16)
    (i : S20000x640.Idx) (p : Fin 20000) (q : Fin 640) (h0 : (i 0).val = p.val) (h1 : (i 1).val = q.val) :
    outFn A Xr B1 G Bt Mu Va W i = rowdot A Xr B1 G Bt Mu Va W p q := by
  unfold outFn
  congr 1 <;> exact Fin.ext ‹_›

/-- It is the specification's product of the normalised layer with the weight. -/
theorem rowdot_eq (A Xr : Vec Ideal S20000x1680 .f32) (B1 G Bt Mu Va : Vec Ideal S1x1680 .f32) (W : Vec Ideal S1680x640 .bf16)
    (p : Fin 20000) (q : Fin 640) :
    rowdot A Xr B1 G Bt Mu Va W p q
      = Cert.Sage.mm (Cert.Sage.bnorm Cert.Sage.bnEps (fun k => Mu (ix2 0 k)) (fun k => Va (ix2 0 k)) (fun k => G (ix2 0 k)) (fun k => Bt (ix2 0 k))
          (fun p k => (A (ix2 p k) + Xr (ix2 p k)) + B1 (ix2 0 k))) (Cert.Sage.mat W) p q := rfl

/-! ## The blocks the body reads, as parts of the arrays -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 points: the row-blocked windows sit at block `(t, 0)`, the others at `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

/-- Row `r` of the aggregate's block at point `t` is row `800 t + r` of the array. -/
theorem blk0_at (c : Dev nD) (t : Fin cfg1.N) (A : Vec Ideal S20000x1680 .f32) (h : V c (Pipeline.arrRef spec1 0) = A)
    (r : Fin 800) (k : Fin 1680) (p : Fin 20000) (hp : p.val = t.val * 800 + r.val) :
    (iblk1 V c 0 t : Vec Ideal S800x1680 .f32) (ix2 r k) = A (ix2 p k) := by
  unfold iblk1
  rw [View.read_apply, h]
  refine congrArg A (funext fun a => Fin.ext ?_)
  match a with
  | ⟨0, _⟩ => show win1_0.index t (0 : Fin 2) * 800 + 1 * r.val = p.val; rw [(idx_facts t).1.1, hp]; omega
  | ⟨1, _⟩ => show win1_0.index t (1 : Fin 2) * 1680 + 1 * k.val = k.val; rw [(idx_facts t).1.2]; omega

/-- The same for the self projection's block. -/
theorem blk1_at (c : Dev nD) (t : Fin cfg1.N) (Xr : Vec Ideal S20000x1680 .f32) (h : V c (Pipeline.arrRef spec1 1) = Xr)
    (r : Fin 800) (k : Fin 1680) (p : Fin 20000) (hp : p.val = t.val * 800 + r.val) :
    (iblk1 V c 1 t : Vec Ideal S800x1680 .f32) (ix2 r k) = Xr (ix2 p k) := by
  unfold iblk1
  rw [View.read_apply, h]
  refine congrArg Xr (funext fun a => Fin.ext ?_)
  match a with
  | ⟨0, _⟩ => show win1_1.index t (0 : Fin 2) * 800 + 1 * r.val = p.val; rw [(idx_facts t).2.1.1, hp]; omega
  | ⟨1, _⟩ => show win1_1.index t (1 : Fin 2) * 1680 + 1 * k.val = k.val; rw [(idx_facts t).2.1.2]; omega

/-- The bias window's block is the whole row. -/
theorem blk2_eq (c : Dev nD) (t : Fin cfg1.N) (X : Vec Ideal S1x1680 .f32) (h : V c (Pipeline.arrRef spec1 2) = X) :
    (iblk1 V c 2 t : Vec Ideal S1x1680 .f32) = X := by
  funext j
  unfold iblk1
  rw [View.read_apply, h]
  refine congrArg X (funext fun a => Fin.ext ?_)
  match a with
  | ⟨0, _⟩ => show win1_2.index t (0 : Fin 2) * 1 + 1 * (j 0).val = (j 0).val; rw [(idx_facts t).2.2.1.1]; omega
  | ⟨1, _⟩ => show win1_2.index t (1 : Fin 2) * 1680 + 1 * (j 1).val = (j 1).val; rw [(idx_facts t).2.2.1.2]; omega

/-- The scale window's block is the whole row. -/
theorem blk3_eq (c : Dev nD) (t : Fin cfg1.N) (X : Vec Ideal S1x1680 .f32) (h : V c (Pipeline.arrRef spec1 3) = X) :
    (iblk1 V c 3 t : Vec Ideal S1x1680 .f32) = X := by
  funext j
  unfold iblk1
  rw [View.read_apply, h]
  refine congrArg X (funext fun a => Fin.ext ?_)
  match a with
  | ⟨0, _⟩ => show win1_3.index t (0 : Fin 2) * 1 + 1 * (j 0).val = (j 0).val; rw [(idx_facts t).2.2.2.1.1]; omega
  | ⟨1, _⟩ => show win1_3.index t (1 : Fin 2) * 1680 + 1 * (j 1).val = (j 1).val; rw [(idx_facts t).2.2.2.1.2]; omega

/-- The shift window's block is the whole row. -/
theorem blk4_eq (c : Dev nD) (t : Fin cfg1.N) (X : Vec Ideal S1x1680 .f32) (h : V c (Pipeline.arrRef spec1 4) = X) :
    (iblk1 V c 4 t : Vec Ideal S1x1680 .f32) = X := by
  funext j
  unfold iblk1
  rw [View.read_apply, h]
  refine congrArg X (funext fun a => Fin.ext ?_)
  match a with
  | ⟨0, _⟩ => show win1_4.index t (0 : Fin 2) * 1 + 1 * (j 0).val = (j 0).val; rw [(idx_facts t).2.2.2.2.1.1]; omega
  | ⟨1, _⟩ => show win1_4.index t (1 : Fin 2) * 1680 + 1 * (j 1).val = (j 1).val; rw [(idx_facts t).2.2.2.2.1.2]; omega

/-- The running mean's block is the whole row. -/
theorem blk5_eq (c : Dev nD) (t : Fin cfg1.N) (X : Vec Ideal S1x1680 .f32) (h : V c (Pipeline.arrRef spec1 5) = X) :
    (iblk1 V c 5 t : Vec Ideal S1x1680 .f32) = X := by
  funext j
  unfold iblk1
  rw [View.read_apply, h]
  refine congrArg X (funext fun a => Fin.ext ?_)
  match a with
  | ⟨0, _⟩ => show win1_5.index t (0 : Fin 2) * 1 + 1 * (j 0).val = (j 0).val; rw [(idx_facts t).2.2.2.2.2.1.1]; omega
  | ⟨1, _⟩ => show win1_5.index t (1 : Fin 2) * 1680 + 1 * (j 1).val = (j 1).val; rw [(idx_facts t).2.2.2.2.2.1.2]; omega

/-- The running variance's block is the whole row. -/
theorem blk6_eq (c : Dev nD) (t : Fin cfg1.N) (X : Vec Ideal S1x1680 .f32) (h : V c (Pipeline.arrRef spec1 6) = X) :
    (iblk1 V c 6 t : Vec Ideal S1x1680 .f32) = X := by
  funext j
  unfold iblk1
  rw [View.read_apply, h]
  refine congrArg X (funext fun a => Fin.ext ?_)
  match a with
  | ⟨0, _⟩ => show win1_6.index t (0 : Fin 2) * 1 + 1 * (j 0).val = (j 0).val; rw [(idx_facts t).2.2.2.2.2.2.1.1]; omega
  | ⟨1, _⟩ => show win1_6.index t (1 : Fin 2) * 1680 + 1 * (j 1).val = (j 1).val; rw [(idx_facts t).2.2.2.2.2.2.1.2]; omega

/-- The first weight's block is the whole matrix. -/
theorem blk7_eq (c : Dev nD) (t : Fin cfg1.N) (X : Vec Ideal S1680x640 .bf16) (h : V c (Pipeline.arrRef spec1 7) = X) :
    (iblk1 V c 7 t : Vec Ideal S1680x640 .bf16) = X := by
  funext j
  unfold iblk1
  rw [View.read_apply, h]
  refine congrArg X (funext fun a => Fin.ext ?_)
  match a with
  | ⟨0, _⟩ => show win1_7.index t (0 : Fin 2) * 1680 + 1 * (j 0).val = (j 0).val; rw [(idx_facts t).2.2.2.2.2.2.2.1.1]; omega
  | ⟨1, _⟩ => show win1_7.index t (1 : Fin 2) * 640 + 1 * (j 1).val = (j 1).val; rw [(idx_facts t).2.2.2.2.2.2.2.1.2]; omega

/-- The second weight's block is the whole matrix. -/
theorem blk8_eq (c : Dev nD) (t : Fin cfg1.N) (X : Vec Ideal S1680x640 .bf16) (h : V c (Pipeline.arrRef spec1 8) = X) :
    (iblk1 V c 8 t : Vec Ideal S1680x640 .bf16) = X := by
  funext j
  unfold iblk1
  rw [View.read_apply, h]
  refine congrArg X (funext fun a => Fin.ext ?_)
  match a with
  | ⟨0, _⟩ => show win1_8.index t (0 : Fin 2) * 1680 + 1 * (j 0).val = (j 0).val; rw [(idx_facts t).2.2.2.2.2.2.2.2.1.1]; omega
  | ⟨1, _⟩ => show win1_8.index t (1 : Fin 2) * 640 + 1 * (j 1).val = (j 1).val; rw [(idx_facts t).2.2.2.2.2.2.2.2.1.2]; omega

/-- An index of the first output is in point `t`'s block iff each coordinate is in the block's range on its axis. -/
theorem mem_blk9 (t : Fin cfg1.N) (i : S20000x640.Idx) :
    i ∈ ((cfg1.win 9).blk t).view.set ↔ ∀ a : Fin 2, win1_9.index t a * S800x640.size a ≤ (i a).val ∧ (i a).val < win1_9.index t a * S800x640.size a + S800x640.size a := by
  show i ∈ ((View.whole main_v35_0).slice (win1_9.rect t)).set ↔ _
  rw [View.set_slice_whole, Rect.mem_set_unit]
  exact Iff.rfl

/-- Row `p` lies in the block of point `p / 800`, which is written back: the 25 blocks tile the array. -/
theorem cover9 (i : S20000x640.Idx) : ∃ t : Fin cfg1.N, (cfg1.win 9).flush t = true ∧ i ∈ ((cfg1.win 9).blk t).view.set := by
  have hi0 : (i 0).val < 20000 := idx2_lt0 i
  have hi1 : (i 1).val < 640 := idx2_lt1 i
  have hN : cfg1.N = 25 := N_1
  have hlt : (i 0).val / 800 < cfg1.N := by rw [hN]; omega
  refine ⟨⟨(i 0).val / 800, hlt⟩, flush1_9 _, ?_⟩
  rw [mem_blk9]
  intro a
  match a with
  | ⟨0, _⟩ =>
    show win1_9.index ⟨(i 0).val / 800, hlt⟩ (0 : Fin 2) * 800 ≤ (i 0).val ∧ (i 0).val < win1_9.index ⟨(i 0).val / 800, hlt⟩ (0 : Fin 2) * 800 + 800
    rw [(idx_facts ⟨(i 0).val / 800, hlt⟩).2.2.2.2.2.2.2.2.2.1.1]
    show (i 0).val / 800 * 800 ≤ (i 0).val ∧ (i 0).val < (i 0).val / 800 * 800 + 800
    omega
  | ⟨1, _⟩ =>
    show win1_9.index ⟨(i 0).val / 800, hlt⟩ (1 : Fin 2) * 640 ≤ (i 1).val ∧ (i 1).val < win1_9.index ⟨(i 0).val / 800, hlt⟩ (1 : Fin 2) * 640 + 640
    rw [(idx_facts ⟨(i 0).val / 800, hlt⟩).2.2.2.2.2.2.2.2.2.1.2]
    omega

/-- An index of the second output is in point `t`'s block iff each coordinate is in the block's range on its axis. -/
theorem mem_blk10 (t : Fin cfg1.N) (i : S20000x640.Idx) :
    i ∈ ((cfg1.win 10).blk t).view.set ↔ ∀ a : Fin 2, win1_10.index t a * S800x640.size a ≤ (i a).val ∧ (i a).val < win1_10.index t a * S800x640.size a + S800x640.size a := by
  show i ∈ ((View.whole main_v35_1).slice (win1_10.rect t)).set ↔ _
  rw [View.set_slice_whole, Rect.mem_set_unit]
  exact Iff.rfl

/-- Row `p` lies in the block of point `p / 800`, which is written back: the 25 blocks tile the array. -/
theorem cover10 (i : S20000x640.Idx) : ∃ t : Fin cfg1.N, (cfg1.win 10).flush t = true ∧ i ∈ ((cfg1.win 10).blk t).view.set := by
  have hi0 : (i 0).val < 20000 := idx2_lt0 i
  have hi1 : (i 1).val < 640 := idx2_lt1 i
  have hN : cfg1.N = 25 := N_1
  have hlt : (i 0).val / 800 < cfg1.N := by rw [hN]; omega
  refine ⟨⟨(i 0).val / 800, hlt⟩, flush1_10 _, ?_⟩
  rw [mem_blk10]
  intro a
  match a with
  | ⟨0, _⟩ =>
    show win1_10.index ⟨(i 0).val / 800, hlt⟩ (0 : Fin 2) * 800 ≤ (i 0).val ∧ (i 0).val < win1_10.index ⟨(i 0).val / 800, hlt⟩ (0 : Fin 2) * 800 + 800
    rw [(idx_facts ⟨(i 0).val / 800, hlt⟩).2.2.2.2.2.2.2.2.2.2.1]
    show (i 0).val / 800 * 800 ≤ (i 0).val ∧ (i 0).val < (i 0).val / 800 * 800 + 800
    omega
  | ⟨1, _⟩ =>
    show win1_10.index ⟨(i 0).val / 800, hlt⟩ (1 : Fin 2) * 640 ≤ (i 1).val ∧ (i 1).val < win1_10.index ⟨(i 0).val / 800, hlt⟩ (1 : Fin 2) * 640 + 640
    rw [(idx_facts ⟨(i 0).val / 800, hlt⟩).2.2.2.2.2.2.2.2.2.2.2]
    omega

end Blocks

end Cert.KernelIdeal.Val.R1

namespace Cert.KernelIdeal.Val.R1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-! ## From the blocks to the arrays -/

section Final

variable (V : (c : Dev nD) → (b : Ref sig .tc) → Buf (Elt Ideal) ((c : Thread nD τ).loc b))

/-- What point `t` writes back to the first output is block `t` of the row-column sums: the body's block at `(r, q)` is the
    sum over the columns of row `800 t + r`, and the block's element `(r, q)` sits at `(800 t + r, q)` of the array. -/
theorem flushed9 (c : Dev nD) (A Xr : Vec Ideal S20000x1680 .f32) (B1 G Bt Mu Va : Vec Ideal S1x1680 .f32) (Wl Wr : Vec Ideal S1680x640 .bf16)
    (h0 : V c (Pipeline.arrRef spec1 0) = A) (h1 : V c (Pipeline.arrRef spec1 1) = Xr) (h2 : V c (Pipeline.arrRef spec1 2) = B1)
    (h3 : V c (Pipeline.arrRef spec1 3) = G) (h4 : V c (Pipeline.arrRef spec1 4) = Bt) (h5 : V c (Pipeline.arrRef spec1 5) = Mu)
    (h6 : V c (Pipeline.arrRef spec1 6) = Va) (h7 : V c (Pipeline.arrRef spec1 7) = Wl) (h8 : V c (Pipeline.arrRef spec1 8) = Wr) (t : Fin cfg1.N) :
    (dat1 (F := Ideal) V c).flushed 9 t = ((cfg1.win 9).blk t).view.read (Elt Ideal) (outFn A Xr B1 G Bt Mu Va Wl) := by
  show (cfg1.win 9).cut (grid1.coords t) ((dat1 V c).after 9 t) = _
  rw [after1_9]
  unfold out1_9
  rw [View.canon_unit_zero hz]
  simp only [View.ld_unit_zero (S := S800x1680) hz, View.ld_unit_zero (S := S1x1680) hz, View.ld_unit_zero (S := S1680x640) hz]
  rw [blk2_eq V c t B1 h2, blk3_eq V c t G h3, blk4_eq V c t Bt h4, blk5_eq V c t Mu h5, blk6_eq V c t Va h6, blk7_eq V c t Wl h7]
  refine funext fun (j : S800x640.Idx) => ?_
  obtain ⟨r, q, rfl⟩ : ∃ (r : Fin 800) (q : Fin 640), j = ix2 r q := ⟨j 0, j 1, eq_ix2 j⟩
  have hN : cfg1.N = 25 := N_1
  have ht : t.val < 25 := hN ▸ t.isLt
  have hp : t.val * 800 + r.val < 20000 := by have := r.isLt; omega
  refine (pay3_at (iblk1 V c 0 t) (iblk1 V c 1 t) B1 Va Mu G Bt Wl r q).trans ?_
  rw [View.read_apply]
  refine Eq.trans ?_ (outFn_at A Xr B1 G Bt Mu Va Wl _ ⟨t.val * 800 + r.val, hp⟩ q ?_ ?_).symm
  · unfold rowdot
    refine Finset.sum_congr rfl fun k _ => ?_
    rw [blk0_at V c t A h0 r k ⟨t.val * 800 + r.val, hp⟩ rfl, blk1_at V c t Xr h1 r k ⟨t.val * 800 + r.val, hp⟩ rfl]
  · show win1_9.index t (0 : Fin 2) * 800 + 1 * r.val = t.val * 800 + r.val
    rw [(idx_facts t).2.2.2.2.2.2.2.2.2.1.1]; omega
  · show win1_9.index t (1 : Fin 2) * 640 + 1 * q.val = q.val
    rw [(idx_facts t).2.2.2.2.2.2.2.2.2.1.2]; omega

/-- So the first output ends holding the row-column sums. -/
theorem final9 (c : Dev nD) (A Xr : Vec Ideal S20000x1680 .f32) (B1 G Bt Mu Va : Vec Ideal S1x1680 .f32) (Wl Wr : Vec Ideal S1680x640 .bf16)
    (h0 : V c (Pipeline.arrRef spec1 0) = A) (h1 : V c (Pipeline.arrRef spec1 1) = Xr) (h2 : V c (Pipeline.arrRef spec1 2) = B1)
    (h3 : V c (Pipeline.arrRef spec1 3) = G) (h4 : V c (Pipeline.arrRef spec1 4) = Bt) (h5 : V c (Pipeline.arrRef spec1 5) = Mu)
    (h6 : V c (Pipeline.arrRef spec1 6) = Va) (h7 : V c (Pipeline.arrRef spec1 7) = Wl) (h8 : V c (Pipeline.arrRef spec1 8) = Wr) :
    (dat1 (F := Ideal) V c).arrAt 9 cfg1.N = outFn A Xr B1 G Bt Mu Va Wl :=
  (dat1 (F := Ideal) V c).arrAt_eq_of_cover 9 (outFn A Xr B1 G Bt Mu Va Wl)
    (fun t _ => flushed9 V c A Xr B1 G Bt Mu Va Wl Wr h0 h1 h2 h3 h4 h5 h6 h7 h8 t) cover9

/-- What point `t` writes back to the second output is block `t` of the row-column sums: the body's block at `(r, q)` is the
    sum over the columns of row `800 t + r`, and the block's element `(r, q)` sits at `(800 t + r, q)` of the array. -/
theorem flushed10 (c : Dev nD) (A Xr : Vec Ideal S20000x1680 .f32) (B1 G Bt Mu Va : Vec Ideal S1x1680 .f32) (Wl Wr : Vec Ideal S1680x640 .bf16)
    (h0 : V c (Pipeline.arrRef spec1 0) = A) (h1 : V c (Pipeline.arrRef spec1 1) = Xr) (h2 : V c (Pipeline.arrRef spec1 2) = B1)
    (h3 : V c (Pipeline.arrRef spec1 3) = G) (h4 : V c (Pipeline.arrRef spec1 4) = Bt) (h5 : V c (Pipeline.arrRef spec1 5) = Mu)
    (h6 : V c (Pipeline.arrRef spec1 6) = Va) (h7 : V c (Pipeline.arrRef spec1 7) = Wl) (h8 : V c (Pipeline.arrRef spec1 8) = Wr) (t : Fin cfg1.N) :
    (dat1 (F := Ideal) V c).flushed 10 t = ((cfg1.win 10).blk t).view.read (Elt Ideal) (outFn A Xr B1 G Bt Mu Va Wr) := by
  show (cfg1.win 10).cut (grid1.coords t) ((dat1 V c).after 10 t) = _
  rw [after1_10]
  unfold out1_10
  rw [View.canon_unit_zero hz]
  simp only [View.ld_unit_zero (S := S800x1680) hz, View.ld_unit_zero (S := S1x1680) hz, View.ld_unit_zero (S := S1680x640) hz]
  rw [blk2_eq V c t B1 h2, blk3_eq V c t G h3, blk4_eq V c t Bt h4, blk5_eq V c t Mu h5, blk6_eq V c t Va h6, blk8_eq V c t Wr h8]
  refine funext fun (j : S800x640.Idx) => ?_
  obtain ⟨r, q, rfl⟩ : ∃ (r : Fin 800) (q : Fin 640), j = ix2 r q := ⟨j 0, j 1, eq_ix2 j⟩
  have hN : cfg1.N = 25 := N_1
  have ht : t.val < 25 := hN ▸ t.isLt
  have hp : t.val * 800 + r.val < 20000 := by have := r.isLt; omega
  refine (pay1_at (iblk1 V c 0 t) (iblk1 V c 1 t) B1 Va Mu G Bt Wr r q).trans ?_
  rw [View.read_apply]
  refine Eq.trans ?_ (outFn_at A Xr B1 G Bt Mu Va Wr _ ⟨t.val * 800 + r.val, hp⟩ q ?_ ?_).symm
  · unfold rowdot
    refine Finset.sum_congr rfl fun k _ => ?_
    rw [blk0_at V c t A h0 r k ⟨t.val * 800 + r.val, hp⟩ rfl, blk1_at V c t Xr h1 r k ⟨t.val * 800 + r.val, hp⟩ rfl]
  · show win1_10.index t (0 : Fin 2) * 800 + 1 * r.val = t.val * 800 + r.val
    rw [(idx_facts t).2.2.2.2.2.2.2.2.2.2.1]; omega
  · show win1_10.index t (1 : Fin 2) * 640 + 1 * q.val = q.val
    rw [(idx_facts t).2.2.2.2.2.2.2.2.2.2.2]; omega

/-- So the second output ends holding the row-column sums. -/
theorem final10 (c : Dev nD) (A Xr : Vec Ideal S20000x1680 .f32) (B1 G Bt Mu Va : Vec Ideal S1x1680 .f32) (Wl Wr : Vec Ideal S1680x640 .bf16)
    (h0 : V c (Pipeline.arrRef spec1 0) = A) (h1 : V c (Pipeline.arrRef spec1 1) = Xr) (h2 : V c (Pipeline.arrRef spec1 2) = B1)
    (h3 : V c (Pipeline.arrRef spec1 3) = G) (h4 : V c (Pipeline.arrRef spec1 4) = Bt) (h5 : V c (Pipeline.arrRef spec1 5) = Mu)
    (h6 : V c (Pipeline.arrRef spec1 6) = Va) (h7 : V c (Pipeline.arrRef spec1 7) = Wl) (h8 : V c (Pipeline.arrRef spec1 8) = Wr) :
    (dat1 (F := Ideal) V c).arrAt 10 cfg1.N = outFn A Xr B1 G Bt Mu Va Wr :=
  (dat1 (F := Ideal) V c).arrAt_eq_of_cover 10 (outFn A Xr B1 G Bt Mu Va Wr)
    (fun t _ => flushed10 V c A Xr B1 G Bt Mu Va Wl Wr h0 h1 h2 h3 h4 h5 h6 h7 h8 t) cover10

end Final

end Cert.KernelIdeal.Val.R1

namespace Cert.KernelIdeal.Val

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The first output of the region: the normalised first layer times the left weight of the second. -/
theorem region1_hl (A Xr : Vec Ideal S20000x1680 .f32) (B1 G Bt Mu Va : Vec Ideal S1x1680 .f32) (Wl Wr : Vec Ideal S1680x640 .bf16)
    (h0 : V c (Pipeline.arrRef spec1 0) = A) (h1 : V c (Pipeline.arrRef spec1 1) = Xr) (h2 : V c (Pipeline.arrRef spec1 2) = B1)
    (h3 : V c (Pipeline.arrRef spec1 3) = G) (h4 : V c (Pipeline.arrRef spec1 4) = Bt) (h5 : V c (Pipeline.arrRef spec1 5) = Mu)
    (h6 : V c (Pipeline.arrRef spec1 6) = Va) (h7 : V c (Pipeline.arrRef spec1 7) = Wl) (h8 : V c (Pipeline.arrRef spec1 8) = Wr) (p : Fin 20000) (q : Fin 640) :
    (dat1 (F := Ideal) V c).arrAt 9 cfg1.N (ValueIdx.ix2 p q)
      = Cert.Sage.mm (Cert.Sage.bnorm Cert.Sage.bnEps (fun k => Mu (ValueIdx.ix2 0 k)) (fun k => Va (ValueIdx.ix2 0 k)) (fun k => G (ValueIdx.ix2 0 k)) (fun k => Bt (ValueIdx.ix2 0 k))
          (fun p k => (A (ValueIdx.ix2 p k) + Xr (ValueIdx.ix2 p k)) + B1 (ValueIdx.ix2 0 k))) (Cert.Sage.mat Wl) p q := by
  rw [R1.final9 V c A Xr B1 G Bt Mu Va Wl Wr h0 h1 h2 h3 h4 h5 h6 h7 h8]
  exact (R1.outFn_at A Xr B1 G Bt Mu Va Wl (ix2 p q) p q rfl rfl).trans (R1.rowdot_eq A Xr B1 G Bt Mu Va Wl p q)

/-- The second output of the region: the same with the right weight. -/
theorem region1_hr (A Xr : Vec Ideal S20000x1680 .f32) (B1 G Bt Mu Va : Vec Ideal S1x1680 .f32) (Wl Wr : Vec Ideal S1680x640 .bf16)
    (h0 : V c (Pipeline.arrRef spec1 0) = A) (h1 : V c (Pipeline.arrRef spec1 1) = Xr) (h2 : V c (Pipeline.arrRef spec1 2) = B1)
    (h3 : V c (Pipeline.arrRef spec1 3) = G) (h4 : V c (Pipeline.arrRef spec1 4) = Bt) (h5 : V c (Pipeline.arrRef spec1 5) = Mu)
    (h6 : V c (Pipeline.arrRef spec1 6) = Va) (h7 : V c (Pipeline.arrRef spec1 7) = Wl) (h8 : V c (Pipeline.arrRef spec1 8) = Wr) (p : Fin 20000) (q : Fin 640) :
    (dat1 (F := Ideal) V c).arrAt 10 cfg1.N (ValueIdx.ix2 p q)
      = Cert.Sage.mm (Cert.Sage.bnorm Cert.Sage.bnEps (fun k => Mu (ValueIdx.ix2 0 k)) (fun k => Va (ValueIdx.ix2 0 k)) (fun k => G (ValueIdx.ix2 0 k)) (fun k => Bt (ValueIdx.ix2 0 k))
          (fun p k => (A (ValueIdx.ix2 p k) + Xr (ValueIdx.ix2 p k)) + B1 (ValueIdx.ix2 0 k))) (Cert.Sage.mat Wr) p q := by
  rw [R1.final10 V c A Xr B1 G Bt Mu Va Wl Wr h0 h1 h2 h3 h4 h5 h6 h7 h8]
  exact (R1.outFn_at A Xr B1 G Bt Mu Va Wr (ix2 p q) p q rfl rfl).trans (R1.rowdot_eq A Xr B1 G Bt Mu Va Wr p q)

end Cert.KernelIdeal.Val

end
-- ==== Proof.K2.lean ====
import proofs.«403081_j87196426043909_3_alg».proof.Proof.KernelIdealFrameP
import proofs.«403081_j87196426043909_3_alg».proof.Proof.Consts
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws
import Idealize.ShloMosaic.Lib.Tactic

/-!
  What the third region leaves in its output array.

  The region walks ten row blocks of 2000 rows.  At each block it adds the aggregate block and the self-projection
  block, adds the bias row, takes the maximum with zero, and then runs three dense layers (a matrix product into a zero
  accumulator plus a bias row), with a maximum with zero after the first two.  Over the extended reals the change of
  float format before each product is the identity, and a product into zero is the plain sum over the contracted
  coordinate.  Every step reads only its own row, so block `t` of the result is rows `2000 t … 2000 t + 1999` of one
  function of the whole arrays, and the ten blocks tile the 20000 rows.
-/

noncomputable section

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.KernelIdeal.GenP

/-! ## The body's arithmetic at an index -/

/-- A plain matrix product into the zero accumulator, read at row `a` and column `b`: the sum over the contracted
    coordinate of the products of the entries. -/
theorem mm_apply {m k n : Nat} {φ₁ φ₂ : FTy} (d : DotDims ⟨2, ![m, k]⟩ ⟨2, ![k, n]⟩ ⟨2, ![m, n]⟩)
    (hd : d = DotDims.plain m k n)
    (A : FVec Ideal ⟨2, ![m, k]⟩ φ₁) (B : FVec Ideal ⟨2, ![k, n]⟩ φ₂) (a : Fin m) (b : Fin n) :
    matmul d none A B (constant (F := Ideal) ⟨2, ![m, n]⟩ .f32 0x00000000#32) (ix2 a b)
      = ∑ c : Fin k, A (ix2 a c) * B (ix2 c b) := by
  subst hd
  rw [matmul_zero_eq_dotGeneral]
  exact StackMember.dotGeneral_plain_apply none A B a b

/-- The three products of the body contract the left operand's columns against the right operand's rows. -/
theorem dot640_eq : dot_S2000x640_S640x320_S2000x320_1_0_0_1_n_n = DotDims.plain 2000 640 320 := rfl
theorem dot320_eq : dot_S2000x320_S320x160_S2000x160_1_0_0_1_n_n = DotDims.plain 2000 320 160 := rfl
theorem dot160_eq : dot_S2000x160_S160x2_S2000x2_1_0_0_1_n_n = DotDims.plain 2000 160 2 := rfl

/-- A one-row array laid along every row, read at row `r` and column `j`, is the one row at `j`. -/
theorem biasRow_apply {m n : Nat} (b : (⟨2, ![1, n]⟩ : Shape).Idx → EReal)
    (hb : (⟨2, ![1, n]⟩ : Shape).Broadcasts ⟨2, ![m, n]⟩) (r : Fin m) (j : Fin n) :
    broadcastTo ⟨2, ![m, n]⟩ b hb (ix2 r j) = b (ix2 0 j) := by
  refine broadcastTo_apply b hb (ix2 r j) (ix2 0 j) fun a => ?_
  match a with
  | ⟨0, _⟩ => rfl
  | ⟨1, _⟩ =>
    show j.val = if n = 1 then 0 else j.val
    split
    · have := j.isLt; omega
    · rfl

/-- One dense layer of the body at an index: the product into zero plus the bias row. -/
theorem dense_apply {m k n : Nat} (d : DotDims ⟨2, ![m, k]⟩ ⟨2, ![k, n]⟩ ⟨2, ![m, n]⟩)
    (hd : d = DotDims.plain m k n)
    (a : FVec Ideal ⟨2, ![m, k]⟩ .bf16) (w : FVec Ideal ⟨2, ![k, n]⟩ .bf16) (b : FVec Ideal ⟨2, ![1, n]⟩ .f32)
    (hb : (⟨2, ![1, n]⟩ : Shape).Broadcasts ⟨2, ![m, n]⟩) (r : Fin m) (j : Fin n) :
    addf (matmul d none a w (constant (F := Ideal) ⟨2, ![m, n]⟩ .f32 0x00000000#32)) (broadcastTo ⟨2, ![m, n]⟩ b hb) (ix2 r j)
      = Cert.Sage.dense (fun r k => a (ix2 r k)) (fun k j => w (ix2 k j)) (fun j => b (ix2 0 j)) r j := by
  rw [addf_apply, mm_apply d hd, biasRow_apply]
  rfl

/-- The body's maximum with the zero word is `max x 0`. -/
theorem relu_apply {s : Shape} (x : FVec Ideal s .f32) (i : s.Idx) :
    maximumf x (broadcast s (Scalar.ofBits (F := Ideal) .f32 0x00000000#32)) i = Cert.Sage.relu (x i) := by
  rw [maximumf_apply, broadcast_apply]
  show max (x i) (Ideal.ofBits .f32 0x00000000#32) = max (x i) 0
  rw [Cert.Sage.ofBits_zero]

/-- The body's stored value at row `r` and column `q` of the block: the head of the net over the block's rows. -/
theorem pay_apply (x0 x1 : Vec Ideal S2000x640 .f32) (x2 : Vec Ideal S1x640 .f32) (x3 : Vec Ideal S640x320 .bf16)
    (x4 : Vec Ideal S1x320 .f32) (x5 : Vec Ideal S320x160 .bf16) (x6 : Vec Ideal S1x160 .f32)
    (x7 : Vec Ideal S160x2 .bf16) (x8 : Vec Ideal S1x2 .f32) (r : Fin 2000) (q : Fin 2) :
    k2_pay1 (F := Ideal) (k2_pay2 x0 x1 x2 x3 x4 x5 x6 x7) x8 (ix2 r q)
      = Cert.Sage.head (fun p k => (x0 (ix2 p k) + x1 (ix2 p k)) + x2 (ix2 0 k))
          (Cert.Sage.mat x3) (fun j => x4 (ix2 0 j)) (Cert.Sage.mat x5) (fun j => x6 (ix2 0 j))
          (Cert.Sage.mat x7) (fun j => x8 (ix2 0 j)) r q := by
  unfold k2_pay1 k2_pay2
  simp only [shapeCast_self]
  refine (dense_apply _ dot160_eq _ x7 x8 _ r q).trans ?_
  unfold Cert.Sage.head
  refine congrArg (fun f => Cert.Sage.dense f (Cert.Sage.mat x7) (fun j => x8 (ix2 0 j)) r q)
    (funext fun r2 => funext fun k2 => ?_)
  rw [truncf_apply, relu_apply]
  refine congrArg Cert.Sage.relu ?_
  refine (dense_apply _ dot320_eq _ x5 x6 _ r2 k2).trans ?_
  refine congrArg (fun f => Cert.Sage.dense f (Cert.Sage.mat x5) (fun j => x6 (ix2 0 j)) r2 k2)
    (funext fun r1 => funext fun k1 => ?_)
  rw [truncf_apply, relu_apply]
  refine congrArg Cert.Sage.relu ?_
  refine (dense_apply _ dot640_eq _ x3 x4 _ r1 k1).trans ?_
  refine congrArg (fun f => Cert.Sage.dense f (Cert.Sage.mat x3) (fun j => x4 (ix2 0 j)) r1 k1)
    (funext fun r0 => funext fun k0 => ?_)
  rw [truncf_apply, relu_apply]
  refine congrArg Cert.Sage.relu ?_
  rw [addf_apply, addf_apply, biasRow_apply]

/-- The head at row `p` reads only row `p` of its first argument. -/
theorem head_row {N N' A B D O : ℕ} (h : Fin N → Fin A → EReal) (h' : Fin N' → Fin A → EReal)
    (w1 : Fin A → Fin B → EReal) (b1 : Fin B → EReal) (w2 : Fin B → Fin D → EReal) (b2 : Fin D → EReal)
    (w3 : Fin D → Fin O → EReal) (b3 : Fin O → EReal) (p : Fin N) (p' : Fin N') (e : ∀ k, h p k = h' p' k)
    (q : Fin O) :
    Cert.Sage.head h w1 b1 w2 b2 w3 b3 p q = Cert.Sage.head h' w1 b1 w2 b2 w3 b3 p' q := by
  unfold Cert.Sage.head Cert.Sage.dense Cert.Sage.mm
  simp only [e]

/-! ## The result as one function of the whole arrays -/

/-- The region's result: the head of the net over the 20000 rows of `(A + Hr) + b`. -/
abbrev outArr (A Hr : Vec Ideal S20000x640 .f32) (B2 : Vec Ideal S1x640 .f32) (W1 : Vec Ideal S640x320 .bf16)
    (Bb1 : Vec Ideal S1x320 .f32) (W2 : Vec Ideal S320x160 .bf16) (Bb2 : Vec Ideal S1x160 .f32)
    (W3 : Vec Ideal S160x2 .bf16) (Bb3 : Vec Ideal S1x2 .f32) : Vec Ideal S20000x2 .f32 := fun i =>
  Cert.Sage.head (fun p k => (A (ix2 p k) + Hr (ix2 p k)) + B2 (ix2 0 k))
    (Cert.Sage.mat W1) (fun j => Bb1 (ix2 0 j)) (Cert.Sage.mat W2) (fun j => Bb2 (ix2 0 j))
    (Cert.Sage.mat W3) (fun j => Bb3 (ix2 0 j)) (i 0) (i 1)

/-- The body's stored block, when its two row-blocked inputs are rows `2000 n …` of `A` and `Hr`, is those rows of
    the result. -/
theorem blk_apply (A Hr : Vec Ideal S20000x640 .f32) (B2 : Vec Ideal S1x640 .f32) (W1 : Vec Ideal S640x320 .bf16)
    (Bb1 : Vec Ideal S1x320 .f32) (W2 : Vec Ideal S320x160 .bf16) (Bb2 : Vec Ideal S1x160 .f32)
    (W3 : Vec Ideal S160x2 .bf16) (Bb3 : Vec Ideal S1x2 .f32) (x0 x1 : Vec Ideal S2000x640 .f32) (n : Nat)
    (e0 : ∀ (y : S2000x640.Idx) (i : S20000x640.Idx), (i 0).val = n * 2000 + (y 0).val → (i 1).val = (y 1).val → x0 y = A i)
    (e1 : ∀ (y : S2000x640.Idx) (i : S20000x640.Idx), (i 0).val = n * 2000 + (y 0).val → (i 1).val = (y 1).val → x1 y = Hr i)
    (j : S2000x2.Idx) (i : S20000x2.Idx) (hi0 : (i 0).val = n * 2000 + (j 0).val) (hi1 : (i 1).val = (j 1).val) :
    k2_pay1 (F := Ideal) (k2_pay2 x0 x1 B2 W1 Bb1 W2 Bb2 W3) Bb3 j = outArr A Hr B2 W1 Bb1 W2 Bb2 W3 Bb3 i := by
  obtain ⟨r, q, rfl⟩ : ∃ (r : Fin 2000) (q : Fin 2), j = ix2 r q := ⟨j 0, j 1, eq_ix2 j⟩
  obtain ⟨p, q', rfl⟩ : ∃ (p : Fin 20000) (q' : Fin 2), i = ix2 p q' := ⟨i 0, i 1, eq_ix2 i⟩
  have hp : p.val = n * 2000 + r.val := hi0
  obtain rfl : q' = q := Fin.ext hi1
  rw [pay_apply]
  show Cert.Sage.head _ _ _ _ _ _ _ r q' = Cert.Sage.head _ _ _ _ _ _ _ p q'
  refine head_row _ _ _ _ _ _ _ _ r p (fun k => ?_) q'
  show (x0 (ix2 r k) + x1 (ix2 r k)) + B2 (ix2 0 k) = (A (ix2 p k) + Hr (ix2 p k)) + B2 (ix2 0 k)
  rw [e0 (ix2 r k) (ix2 p k) hp rfl, e1 (ix2 r k) (ix2 p k) hp rfl]

/-! ## From blocks to the array -/

section Blocks

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The index maps over the grid: the two row-blocked inputs and the output sit at row block `t`, column block 0; the
    seven parameter windows stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Window 0's block at point `t` is rows `2000 t … 2000 t + 1999` of its array. -/
theorem iblk0_apply (c : Dev nD) (t : Fin cfg2.N) (y : S2000x640.Idx) (i : S20000x640.Idx)
    (h0 : (i 0).val = t.val * 2000 + (y 0).val) (h1 : (i 1).val = (y 1).val) :
    (iblk2 V c 0 t : Vec F S2000x640 .f32) y = (V c (Pipeline.arrRef spec2 0) : Vec F S20000x640 .f32) i := by
  obtain ⟨e0, e1, -⟩ := idx_facts t
  unfold iblk2
  rw [View.read_apply]
  show V c (Pipeline.arrRef spec2 0) _ = V c (Pipeline.arrRef spec2 0) _
  refine congrArg (V c (Pipeline.arrRef spec2 0)) ?_
  funext a
  apply Fin.ext
  match a with
  | ⟨0, _⟩ => show win2_0.index t 0 * 2000 + 1 * (y 0).val = (i 0).val; rw [e0, h0]; omega
  | ⟨1, _⟩ => show win2_0.index t 1 * 640 + 1 * (y 1).val = (i 1).val; rw [e1, h1]; omega

/-- Window 1's block at point `t` is rows `2000 t … 2000 t + 1999` of its array. -/
theorem iblk1_apply (c : Dev nD) (t : Fin cfg2.N) (y : S2000x640.Idx) (i : S20000x640.Idx)
    (h0 : (i 0).val = t.val * 2000 + (y 0).val) (h1 : (i 1).val = (y 1).val) :
    (iblk2 V c 1 t : Vec F S2000x640 .f32) y = (V c (Pipeline.arrRef spec2 1) : Vec F S20000x640 .f32) i := by
  obtain ⟨-, -, e0, e1, -⟩ := idx_facts t
  unfold iblk2
  rw [View.read_apply]
  show V c (Pipeline.arrRef spec2 1) _ = V c (Pipeline.arrRef spec2 1) _
  refine congrArg (V c (Pipeline.arrRef spec2 1)) ?_
  funext a
  apply Fin.ext
  match a with
  | ⟨0, _⟩ => show win2_1.index t 0 * 2000 + 1 * (y 0).val = (i 0).val; rw [e0, h0]; omega
  | ⟨1, _⟩ => show win2_1.index t 1 * 640 + 1 * (y 1).val = (i 1).val; rw [e1, h1]; omega

/-- Window 2's one block is its whole array. -/
theorem iblk2_eq (c : Dev nD) (t : Fin cfg2.N) :
    (iblk2 V c 2 t : Vec F S1x640 .f32) = V c (Pipeline.arrRef spec2 2) := by
  obtain ⟨-, -, -, -, e0, e1, -⟩ := idx_facts t
  funext y
  unfold iblk2
  rw [View.read_apply]
  show V c (Pipeline.arrRef spec2 2) _ = V c (Pipeline.arrRef spec2 2) _
  refine congrArg (V c (Pipeline.arrRef spec2 2)) ?_
  funext a
  apply Fin.ext
  match a with
  | ⟨0, _⟩ => show win2_2.index t 0 * 1 + 1 * (y 0).val = (y 0).val; rw [e0]; omega
  | ⟨1, _⟩ => show win2_2.index t 1 * 640 + 1 * (y 1).val = (y 1).val; rw [e1]; omega

/-- Window 3's one block is its whole array. -/
theorem iblk3_eq (c : Dev nD) (t : Fin cfg2.N) :
    (iblk2 V c 3 t : Vec F S640x320 .bf16) = V c (Pipeline.arrRef spec2 3) := by
  obtain ⟨-, -, -, -, -, -, e0, e1, -⟩ := idx_facts t
  funext y
  unfold iblk2
  rw [View.read_apply]
  show V c (Pipeline.arrRef spec2 3) _ = V c (Pipeline.arrRef spec2 3) _
  refine congrArg (V c (Pipeline.arrRef spec2 3)) ?_
  funext a
  apply Fin.ext
  match a with
  | ⟨0, _⟩ => show win2_3.index t 0 * 640 + 1 * (y 0).val = (y 0).val; rw [e0]; omega
  | ⟨1, _⟩ => show win2_3.index t 1 * 320 + 1 * (y 1).val = (y 1).val; rw [e1]; omega

/-- Window 4's one block is its whole array. -/
theorem iblk4_eq (c : Dev nD) (t : Fin cfg2.N) :
    (iblk2 V c 4 t : Vec F S1x320 .f32) = V c (Pipeline.arrRef spec2 4) := by
  obtain ⟨-, -, -, -, -, -, -, -, e0, e1, -⟩ := idx_facts t
  funext y
  unfold iblk2
  rw [View.read_apply]
  show V c (Pipeline.arrRef spec2 4) _ = V c (Pipeline.arrRef spec2 4) _
  refine congrArg (V c (Pipeline.arrRef spec2 4)) ?_
  funext a
  apply Fin.ext
  match a with
  | ⟨0, _⟩ => show win2_4.index t 0 * 1 + 1 * (y 0).val = (y 0).val; rw [e0]; omega
  | ⟨1, _⟩ => show win2_4.index t 1 * 320 + 1 * (y 1).val = (y 1).val; rw [e1]; omega

/-- Window 5's one block is its whole array. -/
theorem iblk5_eq (c : Dev nD) (t : Fin cfg2.N) :
    (iblk2 V c 5 t : Vec F S320x160 .bf16) = V c (Pipeline.arrRef spec2 5) := by
  obtain ⟨-, -, -, -, -, -, -, -, -, -, e0, e1, -⟩ := idx_facts t
  funext y
  unfold iblk2
  rw [View.read_apply]
  show V c (Pipeline.arrRef spec2 5) _ = V c (Pipeline.arrRef spec2 5) _
  refine congrArg (V c (Pipeline.arrRef spec2 5)) ?_
  funext a
  apply Fin.ext
  match a with
  | ⟨0, _⟩ => show win2_5.index t 0 * 320 + 1 * (y 0).val = (y 0).val; rw [e0]; omega
  | ⟨1, _⟩ => show win2_5.index t 1 * 160 + 1 * (y 1).val = (y 1).val; rw [e1]; omega

/-- Window 6's one block is its whole array. -/
theorem iblk6_eq (c : Dev nD) (t : Fin cfg2.N) :
    (iblk2 V c 6 t : Vec F S1x160 .f32) = V c (Pipeline.arrRef spec2 6) := by
  obtain ⟨-, -, -, -, -, -, -, -, -, -, -, -, e0, e1, -⟩ := idx_facts t
  funext y
  unfold iblk2
  rw [View.read_apply]
  show V c (Pipeline.arrRef spec2 6) _ = V c (Pipeline.arrRef spec2 6) _
  refine congrArg (V c (Pipeline.arrRef spec2 6)) ?_
  funext a
  apply Fin.ext
  match a with
  | ⟨0, _⟩ => show win2_6.index t 0 * 1 + 1 * (y 0).val = (y 0).val; rw [e0]; omega
  | ⟨1, _⟩ => show win2_6.index t 1 * 160 + 1 * (y 1).val = (y 1).val; rw [e1]; omega

/-- Window 7's one block is its whole array. -/
theorem iblk7_eq (c : Dev nD) (t : Fin cfg2.N) :
    (iblk2 V c 7 t : Vec F S160x2 .bf16) = V c (Pipeline.arrRef spec2 7) := by
  obtain ⟨-, -, -, -, -, -, -, -, -, -, -, -, -, -, e0, e1, -⟩ := idx_facts t
  funext y
  unfold iblk2
  rw [View.read_apply]
  show V c (Pipeline.arrRef spec2 7) _ = V c (Pipeline.arrRef spec2 7) _
  refine congrArg (V c (Pipeline.arrRef spec2 7)) ?_
  funext a
  apply Fin.ext
  match a with
  | ⟨0, _⟩ => show win2_7.index t 0 * 160 + 1 * (y 0).val = (y 0).val; rw [e0]; omega
  | ⟨1, _⟩ => show win2_7.index t 1 * 2 + 1 * (y 1).val = (y 1).val; rw [e1]; omega

/-- Window 8's one block is its whole array. -/
theorem iblk8_eq (c : Dev nD) (t : Fin cfg2.N) :
    (iblk2 V c 8 t : Vec F S1x2 .f32) = V c (Pipeline.arrRef spec2 8) := by
  obtain ⟨-, -, -, -, -, -, -, -, -, -, -, -, -, -, -, -, e0, e1, -⟩ := idx_facts t
  funext y
  unfold iblk2
  rw [View.read_apply]
  show V c (Pipeline.arrRef spec2 8) _ = V c (Pipeline.arrRef spec2 8) _
  refine congrArg (V c (Pipeline.arrRef spec2 8)) ?_
  funext a
  apply Fin.ext
  match a with
  | ⟨0, _⟩ => show win2_8.index t 0 * 1 + 1 * (y 0).val = (y 0).val; rw [e0]; omega
  | ⟨1, _⟩ => show win2_8.index t 1 * 2 + 1 * (y 1).val = (y 1).val; rw [e1]; omega

end Blocks

section Region

variable (V : (c : Dev nD) → (b : Ref sig .tc) → Buf (Elt Ideal) ((c : Thread nD τ).loc b)) (c : Dev nD)

/-- The result over the arrays as the region finds them. -/
abbrev outV : Vec Ideal S20000x2 .f32 :=
  outArr (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7)) (V c (Pipeline.arrRef spec2 8))

/-- The output window is never cut at the array's end: the write-back moves the whole staging buffer. -/
theorem cut9 (P : Vec Ideal S2000x2 .f32) (t : Fin cfg2.N) (j : ((cfg2.win 9).xblock (grid2.coords t)).Idx) :
    (cfg2.win 9).cut (grid2.coords t) P j = P j := rfl

/-- The output array read through point `t`'s block. -/
theorem read9 (G : Vec Ideal S20000x2 .f32) (t : Fin cfg2.N) (j : ((cfg2.win 9).xblock (grid2.coords t)).Idx) :
    ((cfg2.win 9).blk t).view.read (Elt Ideal) G j = G (((cfg2.win 9).blk t).view.emb j) := rfl

/-- What point `t` writes back is block `t` of the result. -/
theorem flushed_eq (t : Fin cfg2.N) :
    (dat2 (F := Ideal) V c).flushed 9 t = ((cfg2.win 9).blk t).view.read (Elt Ideal) (outV V c) := by
  show (cfg2.win 9).cut (grid2.coords t) ((dat2 (F := Ideal) V c).after 9 t) = _
  rw [after2_9]
  unfold out2_9
  rw [View.canon_unit_zero hz]
  simp only [View.ld_unit_zero (S := S2000x640) hz, View.ld_unit_zero (S := S1x640) hz,
    View.ld_unit_zero (S := S640x320) hz, View.ld_unit_zero (S := S1x320) hz, View.ld_unit_zero (S := S320x160) hz,
    View.ld_unit_zero (S := S1x160) hz, View.ld_unit_zero (S := S160x2) hz, View.ld_unit_zero (S := S1x2) hz]
  rw [iblk2_eq, iblk3_eq, iblk4_eq, iblk5_eq, iblk6_eq, iblk7_eq, iblk8_eq]
  obtain ⟨-, -, -, -, -, -, -, -, -, -, -, -, -, -, -, -, -, -, e0, e1⟩ := idx_facts t
  funext j
  refine (cut9 _ t j).trans ?_
  refine Eq.trans ?_ (read9 (outV V c) t j).symm
  refine blk_apply (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7)) (V c (Pipeline.arrRef spec2 8))
    (iblk2 V c 0 t) (iblk2 V c 1 t) t.val (fun y i h0 h1 => iblk0_apply V c t y i h0 h1)
    (fun y i h0 h1 => iblk1_apply V c t y i h0 h1) j (((cfg2.win 9).blk t).view.emb j) ?_ ?_
  · show win2_9.index t 0 * 2000 + 1 * (j 0).val = t.val * 2000 + (j 0).val
    rw [e0]; omega
  · show win2_9.index t 1 * 2 + 1 * (j 1).val = (j 1).val
    rw [e1]; omega
/-- An index of the array is in point `t`'s block iff each coordinate is in the block's range on its axis. -/
theorem mem_blk (t : Fin cfg2.N) (i : S20000x2.Idx) :
    i ∈ ((cfg2.win 9).blk t).view.set ↔ ∀ a : Fin 2, win2_9.index t a * S2000x2.size a ≤ (i a).val
      ∧ (i a).val < win2_9.index t a * S2000x2.size a + S2000x2.size a := by
  show i ∈ ((View.whole main_v55).slice (win2_9.rect t)).set ↔ _
  rw [View.set_slice_whole, Rect.mem_set_unit]
  exact Iff.rfl

/-- Row `r` is in the block of point `r / 2000`, which is written back: the ten blocks tile the array. -/
theorem cover (i : S20000x2.Idx) :
    ∃ t : Fin cfg2.N, (cfg2.win 9).flush t = true ∧ i ∈ ((cfg2.win 9).blk t).view.set := by
  have hi0 : (i 0).val < 20000 := (i 0).isLt
  have hi1 : (i 1).val < 2 := (i 1).isLt
  obtain ⟨t, ht⟩ : ∃ t : Fin cfg2.N, t.val = (i 0).val / 2000 :=
    ⟨⟨(i 0).val / 2000, by show _ < grid2.N; rw [N_2]; omega⟩, rfl⟩
  obtain ⟨-, -, -, -, -, -, -, -, -, -, -, -, -, -, -, -, -, -, e0, e1⟩ := idx_facts t
  refine ⟨t, flush2_9 t, ?_⟩
  rw [mem_blk]
  intro a
  match a with
  | ⟨0, _⟩ =>
    show win2_9.index t 0 * 2000 ≤ (i 0).val ∧ (i 0).val < win2_9.index t 0 * 2000 + 2000
    rw [e0, ht]; omega
  | ⟨1, _⟩ =>
    show win2_9.index t 1 * 2 ≤ (i 1).val ∧ (i 1).val < win2_9.index t 1 * 2 + 2
    rw [e1]; omega

/-- The output array after the region: the result. -/
theorem final : (dat2 (F := Ideal) V c).arrAt 9 cfg2.N = outV V c :=
  (dat2 (F := Ideal) V c).arrAt_eq_of_cover 9 (outV V c) (fun t _ => flushed_eq V c t) cover

/-- What region 2 leaves in its output array, at row `p` and column `q`: the head of the net over `(A + Hr) + b`. -/
theorem region2_out (A Hr : Vec Ideal S20000x640 .f32) (B2 : Vec Ideal S1x640 .f32) (W1 : Vec Ideal S640x320 .bf16)
    (Bb1 : Vec Ideal S1x320 .f32) (W2 : Vec Ideal S320x160 .bf16) (Bb2 : Vec Ideal S1x160 .f32)
    (W3 : Vec Ideal S160x2 .bf16) (Bb3 : Vec Ideal S1x2 .f32)
    (h0 : V c (Pipeline.arrRef spec2 0) = A) (h1 : V c (Pipeline.arrRef spec2 1) = Hr)
    (h2 : V c (Pipeline.arrRef spec2 2) = B2) (h3 : V c (Pipeline.arrRef spec2 3) = W1)
    (h4 : V c (Pipeline.arrRef spec2 4) = Bb1) (h5 : V c (Pipeline.arrRef spec2 5) = W2)
    (h6 : V c (Pipeline.arrRef spec2 6) = Bb2) (h7 : V c (Pipeline.arrRef spec2 7) = W3)
    (h8 : V c (Pipeline.arrRef spec2 8) = Bb3) (p : Fin 20000) (q : Fin 2) :
    (dat2 (F := Ideal) V c).arrAt 9 cfg2.N (ValueIdx.ix2 p q)
      = Cert.Sage.head (fun p k => (A (ValueIdx.ix2 p k) + Hr (ValueIdx.ix2 p k)) + B2 (ValueIdx.ix2 0 k))
          (Cert.Sage.mat W1) (fun j => Bb1 (ValueIdx.ix2 0 j)) (Cert.Sage.mat W2) (fun j => Bb2 (ValueIdx.ix2 0 j))
          (Cert.Sage.mat W3) (fun j => Bb3 (ValueIdx.ix2 0 j)) p q := by
  subst h0 h1 h2 h3 h4 h5 h6 h7 h8
  exact congrFun (final V c) (ix2 p q)

end Region

end Cert.KernelIdeal.Val

end
-- ==== Proof.KHost.lean ====
import proofs.«403081_j87196426043909_3_alg».proof.Proof.KernelIdealFrameP
import proofs.«403081_j87196426043909_3_alg».proof.Proof.Spec
import proofs.«403081_j87196426043909_3_alg».proof.Proof.Edges
import proofs.«403081_j87196426043909_3_alg».proof.Proof.Iface
import proofs.«403081_j87196426043909_3_alg».proof.Proof.Consts
import Idealize.ShloMosaic.Lib.StableHlo.Run
import Idealize.ShloMosaic.Lib.Pipeline.Value
import Idealize.ShloMosaic.Lib.ValueIdx
import Idealize.ShloMosaic.Lib.ValueLayout

/-!
  What each of the three kernel regions finds in its input arrays when it is entered.

  Between the regions the host runs short stretches of array operations.  Before the first region it cuts the two rows
  of `edge_index` out and flattens them, counts the edges landing on each node (a scatter-add of ones into zeros), takes
  one over the larger of that count and one, and narrows the two first-layer weight matrices.  Before the second and
  the third region it gathers the rows of the preceding region's first result at the edges' sources, scatter-adds them
  onto the edges' destinations from zero, multiplies row `p` by the reciprocal for node `p`, turns each bias and
  normalisation vector into a one-row matrix and narrows the weight matrices.

  Over the extended reals narrowing a float is the identity, so every window reads either an argument array entry for
  entry, a vector argument as a one-row matrix, a result of the preceding region untouched, or the aggregate
  `(0 + ∑ over the edges e into p of a[src e, k]) · (1 / deg p)` of the preceding region's first result `a`.
-/

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx

section Pure

variable {N M C : ℕ} {α : Type}

/-- Row `r` of a two-row table, cut out and flattened, read at `e`. -/
theorem row_apply (o : ℕ) (r : Fin 2) (hr : r.val = o) (ei : (⟨2, ![2, M]⟩ : Shape).Idx → α)
    (hs : (⟨2, ![2, M]⟩ : Shape).Slices ![o, 0] ⟨2, ![1, M]⟩)
    (hc : (⟨2, ![1, M]⟩ : Shape).ShapeCasts ⟨1, ![M]⟩) (e : Fin M) :
    shapeCast ⟨1, ![M]⟩ (extractStridedSlice ⟨2, ![1, M]⟩ ![o, 0] ei hs) hc (ix1 e) = ei (ix2 r e) := by
  rw [shapeCast_1a_a_apply]
  exact slice2_axis0_apply o ei hs 0 e r (by rw [hr]; rfl)

/-- A vector laid out as a column: entry `(e, u)` is entry `e`. -/
theorem col_apply (v : (⟨1, ![M]⟩ : Shape).Idx → α)
    (hb : (⟨1, ![M]⟩ : Shape).BroadcastsInDim ⟨2, ![M, 1]⟩ ![0]) (e : Fin M) (u : Fin 1) :
    broadcastInDim ⟨2, ![M, 1]⟩ ![0] hb v (ix2 e u) = v (ix1 e) := by
  refine broadcastInDim_apply _ hb v _ (ix1 e) fun a => ?_
  match a with
  | ⟨0, _⟩ =>
    show e.val = if M = 1 then 0 else e.val
    split
    · have := e.isLt; omega
    · rfl

/-- A scalar spread over any shape. -/
theorem fill_apply {t : Shape} (x : (⟨0, ![]⟩ : Shape).Idx → α)
    (hb : (⟨0, ![]⟩ : Shape).BroadcastsInDim t ![]) (j : t.Idx) :
    broadcastInDim t ![] hb x j = x ix0 :=
  broadcastInDim_apply _ hb x j ix0 fun a => a.elim0

/-- A column spread along the rows of a matrix: entry `(p, k)` is the column's entry `p`. -/
theorem spread_apply (v : (⟨2, ![N, 1]⟩ : Shape).Idx → α)
    (hb : (⟨2, ![N, 1]⟩ : Shape).BroadcastsInDim ⟨2, ![N, C]⟩ ![0, 1]) (p : Fin N) (k : Fin C) :
    broadcastInDim ⟨2, ![N, C]⟩ ![0, 1] hb v (ix2 p k) = v (ix2 p 0) := by
  refine broadcastInDim_apply _ hb v _ (ix2 p 0) fun a => ?_
  match a with
  | ⟨0, _⟩ =>
    show p.val = if N = 1 then 0 else p.val
    split
    · have := p.isLt; omega
    · rfl
  | ⟨1, _⟩ => rfl

end Pure

section Graph

open Cert.Sage

variable {C : ℕ}

/-- The host's division and accumulating scatter over the extended reals, entry by entry. -/
theorem hostDivf_apply {s : Shape} (a b : FVec Ideal s .f32) (i : s.Idx) :
    Host.divf (F := Ideal) a b i = Ideal.div (a i) (b i) := rfl

theorem hostScatterAdd_eq {s si su : Shape} (d : ScatterDims s si su) (x : FVec Ideal s .f32) (idx : IVec si 32)
    (upd : FVec Ideal su .f32) : Host.scatterAdd (F := Ideal) d x idx upd = Ideal.hostScatterAdd d x idx upd := rfl

/-- The two index columns, from the two flattened rows of `edge_index`: what the host builds for the gather ... -/
theorem srccol_eq (ei : IVec ⟨2, ![2, 32000]⟩ 32) (v1 : IVec ⟨1, ![32000]⟩ 32)
    (hv : ∀ e : Fin 32000, v1 (ix1 e) = ei (ix2 0 e))
    (hb : (⟨1, ![32000]⟩ : Shape).BroadcastsInDim ⟨2, ![32000, 1]⟩ ![0])
    (hb0 : (⟨0, ![]⟩ : Shape).BroadcastsInDim ⟨1, ![32000]⟩ ![]) :
    broadcastInDim ⟨2, ![32000, 1]⟩ ![0] hb
      (select (cmpi .slt v1 (broadcastInDim ⟨1, ![32000]⟩ ![] hb0 (constantI ⟨0, ![]⟩ 32 0#32)))
        (addi v1 (broadcastInDim ⟨1, ![32000]⟩ ![] hb0 (constantI ⟨0, ![]⟩ 32 20000#32))) v1)
      = srcCol ei := by
  funext i
  obtain ⟨e, u, rfl⟩ : ∃ (e : Fin 32000) (u : Fin 1), i = ix2 e u := ⟨i 0, i 1, eq_ix2 i⟩
  rw [col_apply, select_apply]
  show Scalar.select (IntOp.cmpi .slt (v1 (ix1 e)) (broadcastInDim ⟨1, ![32000]⟩ ![] hb0 (constantI ⟨0, ![]⟩ 32 0#32) (ix1 e)))
      (IntOp.addi (v1 (ix1 e)) (broadcastInDim ⟨1, ![32000]⟩ ![] hb0 (constantI ⟨0, ![]⟩ 32 20000#32) (ix1 e))) (v1 (ix1 e)) = _
  rw [fill_apply, fill_apply, hv]
  rfl

/-- ... and for the scatters. -/
theorem dstcol_eq (ei : IVec ⟨2, ![2, 32000]⟩ 32) (v3 : IVec ⟨1, ![32000]⟩ 32)
    (hv : ∀ e : Fin 32000, v3 (ix1 e) = ei (ix2 1 e))
    (hb : (⟨1, ![32000]⟩ : Shape).BroadcastsInDim ⟨2, ![32000, 1]⟩ ![0]) :
    broadcastInDim ⟨2, ![32000, 1]⟩ ![0] hb v3 = dstCol ei := by
  funext i
  obtain ⟨e, u, rfl⟩ : ∃ (e : Fin 32000) (u : Fin 1), i = ix2 e u := ⟨i 0, i 1, eq_ix2 i⟩
  rw [col_apply, hv]
  rfl

/-- The reciprocal in-degree column: one over the larger of one and the count of edges landing on the node. -/
theorem recip_apply (dst : IVec ⟨2, ![32000, 1]⟩ 32) (wf)
    (hbN : (⟨0, ![]⟩ : Shape).BroadcastsInDim ⟨1, ![20000]⟩ ![])
    (hbM : (⟨0, ![]⟩ : Shape).BroadcastsInDim ⟨1, ![32000]⟩ ![])
    (hbc : (⟨1, ![20000]⟩ : Shape).BroadcastsInDim ⟨2, ![20000, 1]⟩ ![0]) (p : Fin 20000) (u : Fin 1) :
    broadcastInDim ⟨2, ![20000, 1]⟩ ![0] hbc
      (Host.divf (F := Ideal) (broadcastInDim ⟨1, ![20000]⟩ ![] hbN (constant (F := Ideal) ⟨0, ![]⟩ .f32 0x3F800000#32))
        (maximumf
          (Host.scatterAdd (F := Ideal) (cntScatter 20000 32000 wf)
            (broadcastInDim ⟨1, ![20000]⟩ ![] hbN (constant (F := Ideal) ⟨0, ![]⟩ .f32 0x00000000#32)) dst
            (broadcastInDim ⟨1, ![32000]⟩ ![] hbM (constant (F := Ideal) ⟨0, ![]⟩ .f32 0x3F800000#32)))
          (broadcastInDim ⟨1, ![20000]⟩ ![] hbN (constant (F := Ideal) ⟨0, ![]⟩ .f32 0x3F800000#32)))) (ix2 p u)
      = Ideal.div 1 (max (0 + ∑ _e ∈ landsOn dst p, (1 : EReal)) 1) := by
  rw [col_apply, hostDivf_apply, maximumf_apply, hostScatterAdd_eq, scatterAdd_cnt_apply, fill_apply, fill_apply,
    constant_apply, constant_apply, ofBits_one, ofBits_zero]
  refine congrArg (fun s : EReal => Ideal.div 1 (max (0 + s) 1)) (Finset.sum_congr rfl fun e _ => ?_)
  rw [fill_apply, constant_apply, ofBits_one]

/-- The aggregate: the rows of `x` at the sources of the edges landing on `p`, summed from zero, times the column's
    entry for `p`. -/
theorem agg_apply (x : FVec Ideal ⟨2, ![20000, C]⟩ .f32) (src dst : IVec ⟨2, ![32000, 1]⟩ 32)
    (r : FVec Ideal ⟨2, ![20000, 1]⟩ .f32) (wfg) (wfs)
    (hb0 : (⟨0, ![]⟩ : Shape).BroadcastsInDim ⟨2, ![20000, C]⟩ ![])
    (hb2 : (⟨2, ![20000, 1]⟩ : Shape).BroadcastsInDim ⟨2, ![20000, C]⟩ ![0, 1]) (p : Fin 20000) (k : Fin C) :
    mulf
      (Host.scatterAdd (F := Ideal) (rowScatter 20000 32000 C wfs)
        (broadcastInDim ⟨2, ![20000, C]⟩ ![] hb0 (constant (F := Ideal) ⟨0, ![]⟩ .f32 0x00000000#32)) dst
        (Host.gather (rowGather 20000 32000 C wfg) x src))
      (broadcastInDim ⟨2, ![20000, C]⟩ ![0, 1] hb2 r) (ix2 p k)
      = (0 + ∑ e ∈ landsOn dst p, x (ix2 (srcRow (N := 20000) (by decide) src e) k)) * r (ix2 p 0) := by
  rw [mulf_apply, spread_apply, hostScatterAdd_eq, scatterAdd_rows_apply, fill_apply, constant_apply, ofBits_zero]
  refine congrArg (fun s : EReal => (0 + s) * r (ix2 p 0)) (Finset.sum_congr rfl fun e _ => ?_)
  exact gather_rows_apply (by decide) wfg x src e k

end Graph

/-- The buffers the stretch of host operations before the first region writes. -/
def writes0 : List (Ref sig .tc) :=
  [main_v0, main_v1, main_v2, main_v3, main_cst, main_v4, main_cst_0, main_v5, main_v6, main_v7, main_cst_1, main_v8,
    main_v9, main_cst_2, main_v10, main_v11, main_v12, main_v13, main_v14]

theorem hostOps0_writes : (hostOps0 (F := Ideal)).Forall fun op =>
    op.writes ⊆ (writes0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer the stretch does not write keeps its contents. -/
theorem keep0 (W : Valuation τ sig (Elt Ideal)) {r : Ref sig .tc} (hr : r ∉ writes0) :
    StableHlo.after (hostOps0 (F := Ideal)) W (Proc.devRef .tc r) = W (Proc.devRef .tc r) :=
  StableHlo.after_of_writes_sub _ W hostOps0_writes hr

/-- The buffers the stretch between the first and the second region writes. -/
def writes1 : List (Ref sig .tc) :=
  [main_c, main_v16, main_v17, main_c_3, main_v18, main_v19, main_v20, main_v21, main_v22, main_cst_4, main_v23, main_v24,
    main_v25, main_v26, main_v27, main_v28, main_v29, main_v30, main_v31, main_v32, main_v33, main_v34]

theorem hostOps1_writes : (hostOps1 (F := Ideal)).Forall fun op =>
    op.writes ⊆ (writes1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer the stretch does not write keeps its contents. -/
theorem keep1 (W : Valuation τ sig (Elt Ideal)) {r : Ref sig .tc} (hr : r ∉ writes1) :
    StableHlo.after (hostOps1 (F := Ideal)) W (Proc.devRef .tc r) = W (Proc.devRef .tc r) :=
  StableHlo.after_of_writes_sub _ W hostOps1_writes hr

/-- The buffers the stretch between the second and the third region writes. -/
def writes2 : List (Ref sig .tc) :=
  [main_c_5, main_v36, main_v37, main_c_6, main_v38, main_v39, main_v40, main_v41, main_v42, main_cst_7, main_v43, main_v44,
    main_v45, main_v46, main_v47, main_v48, main_v49, main_v50, main_v51, main_v52, main_v53, main_v54]

theorem hostOps2_writes : (hostOps2 (F := Ideal)).Forall fun op =>
    op.writes ⊆ (writes2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer the stretch does not write keeps its contents. -/
theorem keep2 (W : Valuation τ sig (Elt Ideal)) {r : Ref sig .tc} (hr : r ∉ writes2) :
    StableHlo.after (hostOps2 (F := Ideal)) W (Proc.devRef .tc r) = W (Proc.devRef .tc r) :=
  StableHlo.after_of_writes_sub _ W hostOps2_writes hr

/-! ## What each stretch computes

  The pieces the three stretches share, as functions of the flattened rows `v1`, `v3` of `edge_index`. -/

/-- Row 0 of the edge table (the sources), flattened. -/
def row0 (ei : IVec S2x32000 32) : IVec S32000 32 :=
  shapeCast S32000 (extractStridedSlice S1x32000 ![0, 0] ei slices_S2x32000_S1x32000_0_0) shapeCasts_S1x32000_S32000

/-- Row 1 of the edge table (the destinations), flattened. -/
def row1 (ei : IVec S2x32000 32) : IVec S32000 32 :=
  shapeCast S32000 (extractStridedSlice S1x32000 ![1, 0] ei slices_S2x32000_S1x32000_1_0) shapeCasts_S1x32000_S32000

/-- The column of source rows: a negative number moved up by the node count. -/
def srcOf (v1 : IVec S32000 32) : IVec S32000x1 32 :=
  broadcastInDim S32000x1 ![0] bcast_S32000_S32000x1_0
    (select (cmpi .slt v1 (broadcastInDim S32000 ![] bcast_S_S32000 (constantI S_ 32 0#32)))
      (addi v1 (broadcastInDim S32000 ![] bcast_S_S32000 (constantI S_ 32 20000#32))) v1)

/-- The column of destination rows. -/
def dstOf (v3 : IVec S32000 32) : IVec S32000x1 32 :=
  broadcastInDim S32000x1 ![0] bcast_S32000_S32000x1_0 v3

/-- The column of reciprocal in-degrees: ones scattered onto zeros by destination, at least one, inverted. -/
def recipCol (v3 : IVec S32000 32) : FVec Ideal S20000x1 .f32 :=
  broadcastInDim S20000x1 ![0] bcast_S20000_S20000x1_0
    (Host.divf (F := Ideal) (broadcastInDim S20000 ![] bcast_S_S20000 (constant (F := Ideal) S_ .f32 0x3F800000#32))
      (maximumf
        (Host.scatterAdd (F := Ideal) scatter_S20000_S32000x1_S32000_n_0_0_1
          (broadcastInDim S20000 ![] bcast_S_S20000 (constant (F := Ideal) S_ .f32 0x00000000#32)) (dstOf v3)
          (broadcastInDim S32000 ![] bcast_S_S32000 (constant (F := Ideal) S_ .f32 0x3F800000#32)))
        (broadcastInDim S20000 ![] bcast_S_S20000 (constant (F := Ideal) S_ .f32 0x3F800000#32))))

/-- The aggregate of a 1680-column table: gather by source, scatter-add by destination from zero, times the
    reciprocal column spread along the rows. -/
def aggOf1680 (x : FVec Ideal S20000x1680 .f32) (v1 v3 : IVec S32000 32) (r : FVec Ideal S20000x1 .f32) :
    FVec Ideal S20000x1680 .f32 :=
  mulf
    (Host.scatterAdd (F := Ideal) scatter_S20000x1680_S32000x1_S32000x1680_1_0_0_1
      (broadcastInDim S20000x1680 ![] bcast_S_S20000x1680 (constant (F := Ideal) S_ .f32 0x00000000#32)) (dstOf v3)
      (Host.gather gather_S20000x1680_S32000x1_S32000x1680_1_0_n_n_0_1_11680 x (srcOf v1)))
    (broadcastInDim S20000x1680 ![0, 1] bcast_S20000x1_S20000x1680_0_1 r)

/-- The aggregate of a 640-column table, likewise. -/
def aggOf640 (x : FVec Ideal S20000x640 .f32) (v1 v3 : IVec S32000 32) (r : FVec Ideal S20000x1 .f32) :
    FVec Ideal S20000x640 .f32 :=
  mulf
    (Host.scatterAdd (F := Ideal) scatter_S20000x640_S32000x1_S32000x640_1_0_0_1
      (broadcastInDim S20000x640 ![] bcast_S_S20000x640 (constant (F := Ideal) S_ .f32 0x00000000#32)) (dstOf v3)
      (Host.gather gather_S20000x640_S32000x1_S32000x640_1_0_n_n_0_1_1640 x (srcOf v1)))
    (broadcastInDim S20000x640 ![0, 1] bcast_S20000x1_S20000x640_0_1 r)

section Read
open Cert.Sage

theorem srcOf_row0 (ei : IVec S2x32000 32) : srcOf (row0 ei) = srcCol ei :=
  srccol_eq ei (row0 ei) (fun e => row_apply 0 0 rfl ei _ _ e) _ _

theorem dstOf_row1 (ei : IVec S2x32000 32) : dstOf (row1 ei) = dstCol ei :=
  dstcol_eq ei (row1 ei) (fun e => row_apply 1 1 rfl ei _ _ e) _

/-- The graph's aggregate and degree, spelt over the two columns. -/
theorem ssum_theGraph {C : ℕ} (ei : IVec S2x32000 32) (f : Fin 20000 → Fin C → EReal) (p : Fin 20000) (k : Fin C) :
    (theGraph ei).ssum f p k = 0 + ∑ e ∈ landsOn (dstCol ei) p, f (srcRow (N := 20000) (by decide) (srcCol ei) e) k := rfl

theorem deg_theGraph (ei : IVec S2x32000 32) (p : Fin 20000) :
    (theGraph ei).deg p = max (0 + ∑ _e ∈ landsOn (dstCol ei) p, (1 : EReal)) 1 := rfl

theorem recipCol_apply (ei : IVec S2x32000 32) (p : Fin 20000) (u : Fin 1) :
    recipCol (row1 ei) (ix2 p u) = Ideal.div 1 ((theGraph ei).deg p) := by
  unfold recipCol
  rw [dstOf_row1, deg_theGraph]
  exact recip_apply (dstCol ei) _ _ _ _ p u

theorem aggOf1680_apply (ei : IVec S2x32000 32) (x : FVec Ideal S20000x1680 .f32) (p : Fin 20000) (k : Fin 1680) :
    aggOf1680 x (row0 ei) (row1 ei) (recipCol (row1 ei)) (ix2 p k)
      = (theGraph ei).ssum (fun i j => x (ix2 i j)) p k * Ideal.div 1 ((theGraph ei).deg p) := by
  unfold aggOf1680
  rw [srcOf_row0, dstOf_row1, ssum_theGraph, ← recipCol_apply ei p 0]
  exact agg_apply (C := 1680) x (srcCol ei) (dstCol ei) (recipCol (row1 ei)) _ _ _ _ p k

theorem aggOf640_apply (ei : IVec S2x32000 32) (x : FVec Ideal S20000x640 .f32) (p : Fin 20000) (k : Fin 640) :
    aggOf640 x (row0 ei) (row1 ei) (recipCol (row1 ei)) (ix2 p k)
      = (theGraph ei).ssum (fun i j => x (ix2 i j)) p k * Ideal.div 1 ((theGraph ei).deg p) := by
  unfold aggOf640
  rw [srcOf_row0, dstOf_row1, ssum_theGraph, ← recipCol_apply ei p 0]
  exact agg_apply (C := 640) x (srcCol ei) (dstCol ei) (recipCol (row1 ei)) _ _ _ _ p k

end Read

/-! ## The stretches' results, over any contents `W` at the stretch's start -/

section Results
variable (W : Valuation τ sig (Elt Ideal))

theorem h0_v1 : (StableHlo.after (hostOps0 (F := Ideal)) W (Proc.devRef .tc main_v1) : IVec S32000 32)
    = row0 (W (Proc.devRef .tc main_arg17)) := by
  after_results_simp
  rfl
theorem h0_v3 : (StableHlo.after (hostOps0 (F := Ideal)) W (Proc.devRef .tc main_v3) : IVec S32000 32)
    = row1 (W (Proc.devRef .tc main_arg17)) := by
  after_results_simp
  rfl
theorem h0_v12 : (StableHlo.after (hostOps0 (F := Ideal)) W (Proc.devRef .tc main_v12) : FVec Ideal S20000x1 .f32)
    = recipCol (row1 (W (Proc.devRef .tc main_arg17))) := by
  after_results_simp
  rfl
theorem h0_v13 : (StableHlo.after (hostOps0 (F := Ideal)) W (Proc.devRef .tc main_v13) : FVec Ideal S5120x1680 .bf16)
    = (truncf .bf16 (W (Proc.devRef .tc main_arg1) : FVec Ideal S5120x1680 .f32) bitsLt_bf16_f32 : FVec Ideal S5120x1680 .bf16) := by
  after_results_simp
theorem h0_v14 : (StableHlo.after (hostOps0 (F := Ideal)) W (Proc.devRef .tc main_v14) : FVec Ideal S5120x1680 .bf16)
    = (truncf .bf16 (W (Proc.devRef .tc main_arg3) : FVec Ideal S5120x1680 .f32) bitsLt_bf16_f32 : FVec Ideal S5120x1680 .bf16) := by
  after_results_simp

set_option maxHeartbeats 4000000 in
theorem h1_v27 : (StableHlo.after (hostOps1 (F := Ideal)) W (Proc.devRef .tc main_v27) : FVec Ideal S20000x1680 .f32)
    = aggOf1680 (W (Proc.devRef .tc main_v15_0)) (W (Proc.devRef .tc main_v1)) (W (Proc.devRef .tc main_v3)) (W (Proc.devRef .tc main_v12)) := by
  after_results_simp
  rfl
theorem h1_v28 : (StableHlo.after (hostOps1 (F := Ideal)) W (Proc.devRef .tc main_v28) : FVec Ideal S1x1680 .f32)
    = shapeCast S1x1680 ((W (Proc.devRef .tc main_arg2)) : FVec Ideal S1680 .f32) shapeCasts_S1680_S1x1680 := by
  after_results_simp
  rfl
theorem h1_v29 : (StableHlo.after (hostOps1 (F := Ideal)) W (Proc.devRef .tc main_v29) : FVec Ideal S1x1680 .f32)
    = shapeCast S1x1680 ((W (Proc.devRef .tc main_arg7)) : FVec Ideal S1680 .f32) shapeCasts_S1680_S1x1680 := by
  after_results_simp
  rfl
theorem h1_v30 : (StableHlo.after (hostOps1 (F := Ideal)) W (Proc.devRef .tc main_v30) : FVec Ideal S1x1680 .f32)
    = shapeCast S1x1680 ((W (Proc.devRef .tc main_arg8)) : FVec Ideal S1680 .f32) shapeCasts_S1680_S1x1680 := by
  after_results_simp
  rfl
theorem h1_v31 : (StableHlo.after (hostOps1 (F := Ideal)) W (Proc.devRef .tc main_v31) : FVec Ideal S1x1680 .f32)
    = shapeCast S1x1680 ((W (Proc.devRef .tc main_arg9)) : FVec Ideal S1680 .f32) shapeCasts_S1680_S1x1680 := by
  after_results_simp
  rfl
theorem h1_v32 : (StableHlo.after (hostOps1 (F := Ideal)) W (Proc.devRef .tc main_v32) : FVec Ideal S1x1680 .f32)
    = shapeCast S1x1680 ((W (Proc.devRef .tc main_arg10)) : FVec Ideal S1680 .f32) shapeCasts_S1680_S1x1680 := by
  after_results_simp
  rfl
theorem h1_v33 : (StableHlo.after (hostOps1 (F := Ideal)) W (Proc.devRef .tc main_v33) : FVec Ideal S1680x640 .bf16)
    = (truncf .bf16 (W (Proc.devRef .tc main_arg4) : FVec Ideal S1680x640 .f32) bitsLt_bf16_f32 : FVec Ideal S1680x640 .bf16) := by
  after_results_simp
theorem h1_v34 : (StableHlo.after (hostOps1 (F := Ideal)) W (Proc.devRef .tc main_v34) : FVec Ideal S1680x640 .bf16)
    = (truncf .bf16 (W (Proc.devRef .tc main_arg6) : FVec Ideal S1680x640 .f32) bitsLt_bf16_f32 : FVec Ideal S1680x640 .bf16) := by
  after_results_simp

set_option maxHeartbeats 4000000 in
theorem h2_v47 : (StableHlo.after (hostOps2 (F := Ideal)) W (Proc.devRef .tc main_v47) : FVec Ideal S20000x640 .f32)
    = aggOf640 (W (Proc.devRef .tc main_v35_0)) (W (Proc.devRef .tc main_v1)) (W (Proc.devRef .tc main_v3)) (W (Proc.devRef .tc main_v12)) := by
  after_results_simp
  rfl
theorem h2_v48 : (StableHlo.after (hostOps2 (F := Ideal)) W (Proc.devRef .tc main_v48) : FVec Ideal S1x640 .f32)
    = shapeCast S1x640 ((W (Proc.devRef .tc main_arg5)) : FVec Ideal S640 .f32) shapeCasts_S640_S1x640 := by
  after_results_simp
  rfl
theorem h2_v49 : (StableHlo.after (hostOps2 (F := Ideal)) W (Proc.devRef .tc main_v49) : FVec Ideal S640x320 .bf16)
    = (truncf .bf16 (W (Proc.devRef .tc main_arg11) : FVec Ideal S640x320 .f32) bitsLt_bf16_f32 : FVec Ideal S640x320 .bf16) := by
  after_results_simp
theorem h2_v50 : (StableHlo.after (hostOps2 (F := Ideal)) W (Proc.devRef .tc main_v50) : FVec Ideal S320x160 .bf16)
    = (truncf .bf16 (W (Proc.devRef .tc main_arg13) : FVec Ideal S320x160 .f32) bitsLt_bf16_f32 : FVec Ideal S320x160 .bf16) := by
  after_results_simp
theorem h2_v51 : (StableHlo.after (hostOps2 (F := Ideal)) W (Proc.devRef .tc main_v51) : FVec Ideal S160x2 .bf16)
    = (truncf .bf16 (W (Proc.devRef .tc main_arg15) : FVec Ideal S160x2 .f32) bitsLt_bf16_f32 : FVec Ideal S160x2 .bf16) := by
  after_results_simp
theorem h2_v52 : (StableHlo.after (hostOps2 (F := Ideal)) W (Proc.devRef .tc main_v52) : FVec Ideal S1x320 .f32)
    = shapeCast S1x320 ((W (Proc.devRef .tc main_arg12)) : FVec Ideal S320 .f32) shapeCasts_S320_S1x320 := by
  after_results_simp
  rfl
theorem h2_v53 : (StableHlo.after (hostOps2 (F := Ideal)) W (Proc.devRef .tc main_v53) : FVec Ideal S1x160 .f32)
    = shapeCast S1x160 ((W (Proc.devRef .tc main_arg14)) : FVec Ideal S160 .f32) shapeCasts_S160_S1x160 := by
  after_results_simp
  rfl
theorem h2_v54 : (StableHlo.after (hostOps2 (F := Ideal)) W (Proc.devRef .tc main_v54) : FVec Ideal S1x2 .f32)
    = shapeCast S1x2 ((W (Proc.devRef .tc main_arg16)) : FVec Ideal S2 .f32) shapeCasts_S2_S1x2 := by
  after_results_simp
  rfl

end Results

/-! ## The contents at the regions' boundaries -/

section Frame
variable (m : (ℓ : Loc nD τ sig) → Buf (Elt Ideal) ℓ) (ρ : Dev nD → PrngReg) (c : Dev nD)

/-- `edge_index` as launched. -/
abbrev E17 : IVec S2x32000 32 := m ((c : Thread nD τ).loc main_arg17)

/-- Before the first region, a buffer the first stretch does not write is as launched. -/
theorem w1_arg {r : Ref sig .tc} (h0 : r ∉ writes0) :
    W1 m ρ c (Proc.devRef .tc r) = m ((c : Thread nD τ).loc r) :=
  keep0 _ h0

/-- After the first region, so is a buffer that in addition is none of the region's arrays. -/
theorem w2_arg {r : Ref sig .tc} (h0 : r ∉ writes0) (hs0 : ∀ w, Pipeline.arrRef spec0 w ≠ r) :
    W2 m ρ c (Proc.devRef .tc r) = m ((c : Thread nD τ).loc r) :=
  (W2_of_ne m ρ c r hs0).trans (w1_arg m ρ c h0)

/-- The second stretch, then the second region, then the third stretch leave alone what they do not write. -/
theorem w3_of {r : Ref sig .tc} (h1 : r ∉ writes1) :
    W3 m ρ c (Proc.devRef .tc r) = W2 m ρ c (Proc.devRef .tc r) :=
  keep1 _ h1

theorem w4_of {r : Ref sig .tc} (h1 : r ∉ writes1) (hs1 : ∀ w, Pipeline.arrRef spec1 w ≠ r) :
    W4 m ρ c (Proc.devRef .tc r) = W2 m ρ c (Proc.devRef .tc r) :=
  (W4_of_ne m ρ c r hs1).trans (w3_of m ρ c h1)

theorem w5_of {r : Ref sig .tc} (h2 : r ∉ writes2) :
    W5 m ρ c (Proc.devRef .tc r) = W4 m ρ c (Proc.devRef .tc r) :=
  keep2 _ h2

theorem w4_arg {r : Ref sig .tc} (h0 : r ∉ writes0) (hs0 : ∀ w, Pipeline.arrRef spec0 w ≠ r) (h1 : r ∉ writes1)
    (hs1 : ∀ w, Pipeline.arrRef spec1 w ≠ r) : W4 m ρ c (Proc.devRef .tc r) = m ((c : Thread nD τ).loc r) :=
  (w4_of m ρ c h1 hs1).trans (w2_arg m ρ c h0 hs0)

/-- The two flattened rows and the reciprocal column, computed before the first region, are still there after it ... -/
theorem w2_v1 : W2 m ρ c (Proc.devRef .tc main_v1) = row0 (E17 m c) :=
  (W2_of_ne m ρ c main_v1 (by decide)).trans (h0_v1 (W0 m ρ c))

theorem w2_v3 : W2 m ρ c (Proc.devRef .tc main_v3) = row1 (E17 m c) :=
  (W2_of_ne m ρ c main_v3 (by decide)).trans (h0_v3 (W0 m ρ c))

theorem w2_v12 : W2 m ρ c (Proc.devRef .tc main_v12) = recipCol (row1 (E17 m c)) :=
  (W2_of_ne m ρ c main_v12 (by decide)).trans (h0_v12 (W0 m ρ c))

/-- ... and after the second. -/
theorem w4_v1 : W4 m ρ c (Proc.devRef .tc main_v1) = row0 (E17 m c) :=
  (w4_of m ρ c (by decide) (by decide)).trans (w2_v1 m ρ c)

theorem w4_v3 : W4 m ρ c (Proc.devRef .tc main_v3) = row1 (E17 m c) :=
  (w4_of m ρ c (by decide) (by decide)).trans (w2_v3 m ρ c)

theorem w4_v12 : W4 m ρ c (Proc.devRef .tc main_v12) = recipCol (row1 (E17 m c)) :=
  (w4_of m ρ c (by decide) (by decide)).trans (w2_v12 m ρ c)

/-! ## The first region's windows -/

theorem entry0_x : V1 m ρ c (Pipeline.arrRef spec0 0) = m ((c : Thread nD τ).loc main_arg0) :=
  w1_arg m ρ c (r := main_arg0) (by decide)

theorem entry0_wl (k : Fin 5120) (j : Fin 1680) :
    V1 m ρ c (Pipeline.arrRef spec0 1) (ix2 k j) = m ((c : Thread nD τ).loc main_arg1) (ix2 k j) :=
  congrFun (h0_v13 (W0 m ρ c)) (ix2 k j)

theorem entry0_wr (k : Fin 5120) (j : Fin 1680) :
    V1 m ρ c (Pipeline.arrRef spec0 2) (ix2 k j) = m ((c : Thread nD τ).loc main_arg3) (ix2 k j) :=
  congrFun (h0_v14 (W0 m ρ c)) (ix2 k j)

/-! ## The second region's windows -/

/-- Window 0: the aggregate of the first region's first result over the graph of `edge_index`. -/
theorem entry1_agg (p : Fin 20000) (k : Fin 1680) :
    V3 m ρ c (Pipeline.arrRef spec1 0) (ix2 p k)
      = (Cert.Sage.theGraph (E17 m c)).ssum (fun i j => W2 m ρ c (Proc.devRef .tc main_v15_0) (ix2 i j)) p k
        * Ideal.div 1 ((Cert.Sage.theGraph (E17 m c)).deg p) := by
  refine (congrFun (h1_v27 (W2 m ρ c)) (ix2 p k)).trans ?_
  rw [w2_v1 m ρ c, w2_v3 m ρ c, w2_v12 m ρ c]
  exact aggOf1680_apply (E17 m c) _ p k

/-- Window 1: the first region's second result, untouched. -/
theorem entry1_xr : V3 m ρ c (Pipeline.arrRef spec1 1) = W2 m ρ c (Proc.devRef .tc main_v15_1) :=
  w3_of m ρ c (r := main_v15_1) (by decide)

theorem entry1_b1 (k : Fin 1680) :
    V3 m ρ c (Pipeline.arrRef spec1 2) (ix2 0 k) = m ((c : Thread nD τ).loc main_arg2) (ix1 k) := by
  refine (congrFun (h1_v28 (W2 m ρ c)) (ix2 0 k)).trans ?_
  refine (shapeCast_a_1a_apply _ _ 0 k).trans ?_
  exact congrFun (w2_arg m ρ c (r := main_arg2) (by decide) (by decide)) (ix1 k)
theorem entry1_gam (k : Fin 1680) :
    V3 m ρ c (Pipeline.arrRef spec1 3) (ix2 0 k) = m ((c : Thread nD τ).loc main_arg7) (ix1 k) := by
  refine (congrFun (h1_v29 (W2 m ρ c)) (ix2 0 k)).trans ?_
  refine (shapeCast_a_1a_apply _ _ 0 k).trans ?_
  exact congrFun (w2_arg m ρ c (r := main_arg7) (by decide) (by decide)) (ix1 k)
theorem entry1_bet (k : Fin 1680) :
    V3 m ρ c (Pipeline.arrRef spec1 4) (ix2 0 k) = m ((c : Thread nD τ).loc main_arg8) (ix1 k) := by
  refine (congrFun (h1_v30 (W2 m ρ c)) (ix2 0 k)).trans ?_
  refine (shapeCast_a_1a_apply _ _ 0 k).trans ?_
  exact congrFun (w2_arg m ρ c (r := main_arg8) (by decide) (by decide)) (ix1 k)
theorem entry1_mu (k : Fin 1680) :
    V3 m ρ c (Pipeline.arrRef spec1 5) (ix2 0 k) = m ((c : Thread nD τ).loc main_arg9) (ix1 k) := by
  refine (congrFun (h1_v31 (W2 m ρ c)) (ix2 0 k)).trans ?_
  refine (shapeCast_a_1a_apply _ _ 0 k).trans ?_
  exact congrFun (w2_arg m ρ c (r := main_arg9) (by decide) (by decide)) (ix1 k)
theorem entry1_var (k : Fin 1680) :
    V3 m ρ c (Pipeline.arrRef spec1 6) (ix2 0 k) = m ((c : Thread nD τ).loc main_arg10) (ix1 k) := by
  refine (congrFun (h1_v32 (W2 m ρ c)) (ix2 0 k)).trans ?_
  refine (shapeCast_a_1a_apply _ _ 0 k).trans ?_
  exact congrFun (w2_arg m ρ c (r := main_arg10) (by decide) (by decide)) (ix1 k)
theorem entry1_wl (k : Fin 1680) (j : Fin 640) :
    V3 m ρ c (Pipeline.arrRef spec1 7) (ix2 k j) = m ((c : Thread nD τ).loc main_arg4) (ix2 k j) := by
  refine (congrFun (h1_v33 (W2 m ρ c)) (ix2 k j)).trans ?_
  exact congrFun (w2_arg m ρ c (r := main_arg4) (by decide) (by decide)) (ix2 k j)
theorem entry1_wr (k : Fin 1680) (j : Fin 640) :
    V3 m ρ c (Pipeline.arrRef spec1 8) (ix2 k j) = m ((c : Thread nD τ).loc main_arg6) (ix2 k j) := by
  refine (congrFun (h1_v34 (W2 m ρ c)) (ix2 k j)).trans ?_
  exact congrFun (w2_arg m ρ c (r := main_arg6) (by decide) (by decide)) (ix2 k j)

/-! ## The third region's windows -/

/-- Window 0: the aggregate of the second region's first result over the same graph. -/
theorem entry2_agg (p : Fin 20000) (k : Fin 640) :
    V5 m ρ c (Pipeline.arrRef spec2 0) (ix2 p k)
      = (Cert.Sage.theGraph (E17 m c)).ssum (fun i j => W4 m ρ c (Proc.devRef .tc main_v35_0) (ix2 i j)) p k
        * Ideal.div 1 ((Cert.Sage.theGraph (E17 m c)).deg p) := by
  refine (congrFun (h2_v47 (W4 m ρ c)) (ix2 p k)).trans ?_
  rw [w4_v1 m ρ c, w4_v3 m ρ c, w4_v12 m ρ c]
  exact aggOf640_apply (E17 m c) _ p k

/-- Window 1: the second region's second result, untouched. -/
theorem entry2_hr : V5 m ρ c (Pipeline.arrRef spec2 1) = W4 m ρ c (Proc.devRef .tc main_v35_1) :=
  w5_of m ρ c (r := main_v35_1) (by decide)

theorem entry2_b2 (k : Fin 640) :
    V5 m ρ c (Pipeline.arrRef spec2 2) (ix2 0 k) = m ((c : Thread nD τ).loc main_arg5) (ix1 k) := by
  refine (congrFun (h2_v48 (W4 m ρ c)) (ix2 0 k)).trans ?_
  refine (shapeCast_a_1a_apply _ _ 0 k).trans ?_
  exact congrFun (w4_arg m ρ c (r := main_arg5) (by decide) (by decide) (by decide) (by decide)) (ix1 k)
theorem entry2_w1 (k : Fin 640) (j : Fin 320) :
    V5 m ρ c (Pipeline.arrRef spec2 3) (ix2 k j) = m ((c : Thread nD τ).loc main_arg11) (ix2 k j) := by
  refine (congrFun (h2_v49 (W4 m ρ c)) (ix2 k j)).trans ?_
  exact congrFun (w4_arg m ρ c (r := main_arg11) (by decide) (by decide) (by decide) (by decide)) (ix2 k j)
theorem entry2_b3 (k : Fin 320) :
    V5 m ρ c (Pipeline.arrRef spec2 4) (ix2 0 k) = m ((c : Thread nD τ).loc main_arg12) (ix1 k) := by
  refine (congrFun (h2_v52 (W4 m ρ c)) (ix2 0 k)).trans ?_
  refine (shapeCast_a_1a_apply _ _ 0 k).trans ?_
  exact congrFun (w4_arg m ρ c (r := main_arg12) (by decide) (by decide) (by decide) (by decide)) (ix1 k)
theorem entry2_w2 (k : Fin 320) (j : Fin 160) :
    V5 m ρ c (Pipeline.arrRef spec2 5) (ix2 k j) = m ((c : Thread nD τ).loc main_arg13) (ix2 k j) := by
  refine (congrFun (h2_v50 (W4 m ρ c)) (ix2 k j)).trans ?_
  exact congrFun (w4_arg m ρ c (r := main_arg13) (by decide) (by decide) (by decide) (by decide)) (ix2 k j)
theorem entry2_b4 (k : Fin 160) :
    V5 m ρ c (Pipeline.arrRef spec2 6) (ix2 0 k) = m ((c : Thread nD τ).loc main_arg14) (ix1 k) := by
  refine (congrFun (h2_v53 (W4 m ρ c)) (ix2 0 k)).trans ?_
  refine (shapeCast_a_1a_apply _ _ 0 k).trans ?_
  exact congrFun (w4_arg m ρ c (r := main_arg14) (by decide) (by decide) (by decide) (by decide)) (ix1 k)
theorem entry2_w3 (k : Fin 160) (j : Fin 2) :
    V5 m ρ c (Pipeline.arrRef spec2 7) (ix2 k j) = m ((c : Thread nD τ).loc main_arg15) (ix2 k j) := by
  refine (congrFun (h2_v51 (W4 m ρ c)) (ix2 k j)).trans ?_
  exact congrFun (w4_arg m ρ c (r := main_arg15) (by decide) (by decide) (by decide) (by decide)) (ix2 k j)
theorem entry2_b5 (k : Fin 2) :
    V5 m ρ c (Pipeline.arrRef spec2 8) (ix2 0 k) = m ((c : Thread nD τ).loc main_arg16) (ix1 k) := by
  refine (congrFun (h2_v54 (W4 m ρ c)) (ix2 0 k)).trans ?_
  refine (shapeCast_a_1a_apply _ _ 0 k).trans ?_
  exact congrFun (w4_arg m ρ c (r := main_arg16) (by decide) (by decide) (by decide) (by decide)) (ix1 k)

end Frame

end Cert.KernelIdeal.Val

end
-- ==== Proof.Congr.lean ====
import proofs.«403081_j87196426043909_3_alg».proof.Proof.Spec

/-!
  Congruences of the specification's functions: each is determined by the entries of its arguments, so two spellings of
  the same entries give the same value.  (Stated entry by entry so that they can be applied where the arguments are
  read out of arrays at an index.)
-/

noncomputable section

namespace Cert.Sage

open Idealize.ShloMosaic

variable {N M K C A B D O : ℕ}

theorem mm_congr {a a' : Fin N → Fin K → EReal} {w w' : Fin K → Fin C → EReal}
    (ha : ∀ i k, a i k = a' i k) (hw : ∀ k j, w k j = w' k j) (i : Fin N) (j : Fin C) : mm a w i j = mm a' w' i j := by
  unfold mm
  exact Finset.sum_congr rfl fun k _ => by rw [ha, hw]

theorem ssum_congr (G : Graph N M) {f f' : Fin N → Fin C → EReal} (h : ∀ i j, f i j = f' i j) (i : Fin N) (j : Fin C) :
    G.ssum f i j = G.ssum f' i j := by
  unfold Graph.ssum
  exact congrArg _ (Finset.sum_congr rfl fun e _ => h _ _)

/-- A sum of an aggregate, a self projection and a bias, each given by its value, is the kernel's layer. -/
theorem layerK_of {G : Graph N M} {a : Fin N → Fin K → EReal} {wl wr : Fin K → Fin C → EReal} {b : Fin C → EReal}
    {i : Fin N} {j : Fin C} {u v z : EReal} (hu : u = G.ssum (mm a wl) i j * Ideal.div 1 (G.deg i))
    (hv : v = mm a wr i j) (hz : z = b j) : (u + v) + z = layerK G a wl wr b i j := by
  subst hu hv hz
  rfl

theorem bnorm_congr {eps : EReal} {mu mu' var var' gam gam' bet bet' : Fin C → EReal} {h h' : Fin N → Fin C → EReal}
    (i : Fin N) (j : Fin C) (hmu : mu j = mu' j) (hvar : var j = var' j) (hgam : gam j = gam' j) (hbet : bet j = bet' j)
    (hh : h i j = h' i j) : bnorm eps mu var gam bet h i j = bnorm eps mu' var' gam' bet' h' i j := by
  unfold bnorm
  rw [hmu, hvar, hgam, hbet, hh]

theorem dense_congr {a a' : Fin N → Fin A → EReal} {w w' : Fin A → Fin B → EReal} {b b' : Fin B → EReal}
    (ha : ∀ i k, a i k = a' i k) (hw : ∀ k j, w k j = w' k j) (hb : ∀ j, b j = b' j) (i : Fin N) (j : Fin B) :
    dense a w b i j = dense a' w' b' i j := by
  unfold dense
  rw [mm_congr ha hw, hb]

theorem head_congr {h2 h2' : Fin N → Fin A → EReal} {w1 w1' : Fin A → Fin B → EReal} {b1 b1' : Fin B → EReal}
    {w2 w2' : Fin B → Fin D → EReal} {b2 b2' : Fin D → EReal} {w3 w3' : Fin D → Fin O → EReal} {b3 b3' : Fin O → EReal}
    (hh : ∀ i k, h2 i k = h2' i k) (hw1 : ∀ k j, w1 k j = w1' k j) (hb1 : ∀ j, b1 j = b1' j)
    (hw2 : ∀ k j, w2 k j = w2' k j) (hb2 : ∀ j, b2 j = b2' j) (hw3 : ∀ k j, w3 k j = w3' k j) (hb3 : ∀ j, b3 j = b3' j)
    (i : Fin N) (j : Fin O) : head h2 w1 b1 w2 b2 w3 b3 i j = head h2' w1' b1' w2' b2' w3' b3' i j := by
  unfold head
  exact dense_congr (fun i k => congrArg relu (dense_congr (fun i k => congrArg relu
    (dense_congr (fun i k => congrArg relu (hh i k)) hw1 hb1 i k)) hw2 hb2 i k)) hw3 hb3 i j

end Cert.Sage

end
-- ==== Proof.KValue.lean ====
import proofs.«403081_j87196426043909_3_alg».proof.Proof.KernelIdealRunP
import proofs.«403081_j87196426043909_3_alg».proof.Proof.K0
import proofs.«403081_j87196426043909_3_alg».proof.Proof.K1
import proofs.«403081_j87196426043909_3_alg».proof.Proof.K2
import proofs.«403081_j87196426043909_3_alg».proof.Proof.KHost
import proofs.«403081_j87196426043909_3_alg».proof.Proof.Congr
import proofs.«403081_j87196426043909_3_alg».proof.Proof.Iface

/-!
  The kernel program's result array, index by index, as the specification's `netK` of the eighteen arguments.

  The run's buffer contents are a chain: the host computes the edge columns and the reciprocal degrees; region 0 leaves
  the two projections `x · W1l` and `x · W1r`; the host sums the rows of the first over the incoming edges and scales by
  the reciprocal degree; region 1 adds the second projection and the bias, applies relu and the batch normalisation, and
  leaves the two projections of that by `W2l` and `W2r`; the host aggregates again; region 2 adds, and applies the head.
  Each link is read at an index and the links are composed: every array a region reads is what the link before left.
-/

noncomputable section

namespace Cert.KernelIdeal.Val

open Cert.KernelIdeal Cert.KernelIdeal.Gen Cert.KernelIdeal.GenP Cert.Sage
open Idealize.ShloMosaic Idealize.ShloMosaic.TcCoe Idealize.ShloMosaic.ValueIdx Idealize.SL.Sem

/-- Region 1's row formula over arrays whose entries are known is `feat · w`: a congruence, entry by entry. -/
theorem proj_feat_of (G : Graph 20000 32000) (x : Fin 20000 → Fin 5120 → EReal) (w1l w1r : Fin 5120 → Fin 1680 → EReal)
    (b1 mu var gam bet : Fin 1680 → EReal) (w : Fin 1680 → Fin 640 → EReal)
    (A Xr : Vec Ideal S20000x1680 .f32) (B1 Gm Bt Mu Va : Vec Ideal S1x1680 .f32) (Wl : Vec Ideal S1680x640 .bf16)
    (hA : ∀ i k, (A (ix2 i k) + Xr (ix2 i k)) + B1 (ix2 0 k) = layerK G x w1l w1r b1 i k)
    (hMu : ∀ k, Mu (ix2 0 k) = mu k) (hVa : ∀ k, Va (ix2 0 k) = var k) (hGm : ∀ k, Gm (ix2 0 k) = gam k)
    (hBt : ∀ k, Bt (ix2 0 k) = bet k) (hW : ∀ k j, Wl (ix2 k j) = w k j) (p : Fin 20000) (q : Fin 640) :
    mm (bnorm bnEps (fun k => Mu (ix2 0 k)) (fun k => Va (ix2 0 k)) (fun k => Gm (ix2 0 k)) (fun k => Bt (ix2 0 k))
        (fun p k => (A (ix2 p k) + Xr (ix2 p k)) + B1 (ix2 0 k))) (mat Wl) p q
      = mm (bnorm bnEps mu var gam bet (layerK G x w1l w1r b1)) w p q :=
  mm_congr (a := bnorm bnEps (fun k => Mu (ix2 0 k)) (fun k => Va (ix2 0 k)) (fun k => Gm (ix2 0 k)) (fun k => Bt (ix2 0 k))
        (fun p k => (A (ix2 p k) + Xr (ix2 p k)) + B1 (ix2 0 k)))
    (a' := bnorm bnEps mu var gam bet (layerK G x w1l w1r b1)) (w := mat Wl) (w' := w)
    (fun i k => bnorm_congr (mu := fun k => Mu (ix2 0 k)) (mu' := mu) (var := fun k => Va (ix2 0 k)) (var' := var)
      (gam := fun k => Gm (ix2 0 k)) (gam' := gam) (bet := fun k => Bt (ix2 0 k)) (bet' := bet)
      (h := fun p k => (A (ix2 p k) + Xr (ix2 p k)) + B1 (ix2 0 k)) (h' := layerK G x w1l w1r b1)
      i k (hMu k) (hVa k) (hGm k) (hBt k) (hA i k)) hW p q

/-- Region 2's formula over arrays whose entries are known is the head of the second layer. -/
theorem head_of (h2 : Fin 20000 → Fin 640 → EReal) (w1 : Fin 640 → Fin 320 → EReal) (b1 : Fin 320 → EReal)
    (w2 : Fin 320 → Fin 160 → EReal) (b2 : Fin 160 → EReal) (w3 : Fin 160 → Fin 2 → EReal) (b3 : Fin 2 → EReal)
    (A Hr : Vec Ideal S20000x640 .f32) (B2 : Vec Ideal S1x640 .f32) (W1 : Vec Ideal S640x320 .bf16) (Bb1 : Vec Ideal S1x320 .f32)
    (W2 : Vec Ideal S320x160 .bf16) (Bb2 : Vec Ideal S1x160 .f32) (W3 : Vec Ideal S160x2 .bf16) (Bb3 : Vec Ideal S1x2 .f32)
    (hA : ∀ i k, (A (ix2 i k) + Hr (ix2 i k)) + B2 (ix2 0 k) = h2 i k)
    (hW1 : ∀ k j, W1 (ix2 k j) = w1 k j) (hB1 : ∀ j, Bb1 (ix2 0 j) = b1 j) (hW2 : ∀ k j, W2 (ix2 k j) = w2 k j)
    (hB2 : ∀ j, Bb2 (ix2 0 j) = b2 j) (hW3 : ∀ k j, W3 (ix2 k j) = w3 k j) (hB3 : ∀ j, Bb3 (ix2 0 j) = b3 j)
    (p : Fin 20000) (q : Fin 2) :
    head (fun p k => (A (ix2 p k) + Hr (ix2 p k)) + B2 (ix2 0 k)) (mat W1) (fun j => Bb1 (ix2 0 j)) (mat W2)
        (fun j => Bb2 (ix2 0 j)) (mat W3) (fun j => Bb3 (ix2 0 j)) p q
      = head h2 w1 b1 w2 b2 w3 b3 p q :=
  head_congr (h2 := fun p k => (A (ix2 p k) + Hr (ix2 p k)) + B2 (ix2 0 k)) (h2' := h2) (w1 := mat W1) (w1' := w1)
    (b1 := fun j => Bb1 (ix2 0 j)) (b1' := b1) (w2 := mat W2) (w2' := w2) (b2 := fun j => Bb2 (ix2 0 j)) (b2' := b2)
    (w3 := mat W3) (w3' := w3) (b3 := fun j => Bb3 (ix2 0 j)) (b3' := b3) hA hW1 hB1 hW2 hB2 hW3 hB3 p q

variable (m : (ℓ : Loc nD τ sig) → Buf (Elt Ideal) ℓ) (ρ : Dev nD → PrngReg) (c : Dev nD)

/-- The graph of this launch's `edge_index`. -/
abbrev gr : Graph 20000 32000 := theGraph (m ((c : Thread nD τ).loc main_arg17))
/-- This launch's parameters. -/
abbrev pr : Params 20000 5120 1680 640 320 160 2 :=
  paramsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- Region 0 leaves `x · W1l` in its first output. -/
theorem xl_apply (p : Fin 20000) (q : Fin 1680) :
    W2 m ρ c (Proc.devRef .tc main_v15_0) (ix2 p q) = mm (pr m c).x (pr m c).w1l p q :=
  (congrFun (W2_arr m ρ c 3) (ix2 p q)).trans ((region0_xl (V1 m ρ) c (V1 m ρ c (Pipeline.arrRef spec0 0)) (V1 m ρ c (Pipeline.arrRef spec0 1)) rfl rfl p q).trans
    (mm_congr (fun i k => congrFun (entry0_x m ρ c) (ix2 i k)) (fun k j => entry0_wl m ρ c k j) p q))

/-- Region 0 leaves `x · W1r` in its second output. -/
theorem xr_apply (p : Fin 20000) (q : Fin 1680) :
    W2 m ρ c (Proc.devRef .tc main_v15_1) (ix2 p q) = mm (pr m c).x (pr m c).w1r p q :=
  (congrFun (W2_arr m ρ c 4) (ix2 p q)).trans ((region0_xr (V1 m ρ) c (V1 m ρ c (Pipeline.arrRef spec0 0)) (V1 m ρ c (Pipeline.arrRef spec0 2)) rfl rfl p q).trans
    (mm_congr (fun i k => congrFun (entry0_x m ρ c) (ix2 i k)) (fun k j => entry0_wr m ρ c k j) p q))

/-- The features the second layer reads: the first layer, a relu, the batch normalisation. -/
abbrev feat : Fin 20000 → Fin 1680 → EReal :=
  bnorm bnEps (pr m c).mu (pr m c).var (pr m c).gam (pr m c).bet
    (layerK (gr m c) (pr m c).x (pr m c).w1l (pr m c).w1r (pr m c).b1)

/-- What region 1 adds up at `(i, k)` is the first layer. -/
theorem layer1_entry (i : Fin 20000) (k : Fin 1680) {u v z : EReal}
    (hu : u = V3 m ρ c (Pipeline.arrRef spec1 0) (ix2 i k)) (hv : v = V3 m ρ c (Pipeline.arrRef spec1 1) (ix2 i k))
    (hz : z = V3 m ρ c (Pipeline.arrRef spec1 2) (ix2 0 k)) :
    (u + v) + z = layerK (gr m c) (pr m c).x (pr m c).w1l (pr m c).w1r (pr m c).b1 i k :=
  layerK_of
    (hu.trans ((entry1_agg m ρ c i k).trans (congrArg (· * Ideal.div 1 ((gr m c).deg i))
      (ssum_congr (gr m c) (fun i j => xl_apply m ρ c i j) i k))))
    (hv.trans ((congrFun (entry1_xr m ρ c) (ix2 i k)).trans (xr_apply m ρ c i k)))
    (hz.trans (entry1_b1 m ρ c k))

set_option maxHeartbeats 4000000 in
/-- Region 1 leaves `feat · W2l` in its first output. -/
theorem hl_apply (p : Fin 20000) (q : Fin 640) :
    W4 m ρ c (Proc.devRef .tc main_v35_0) (ix2 p q) = mm (feat m c) (pr m c).w2l p q :=
  (congrFun (W4_arr m ρ c 9) (ix2 p q)).trans
    ((region1_hl (V3 m ρ) c (V3 m ρ c (Pipeline.arrRef spec1 0)) (V3 m ρ c (Pipeline.arrRef spec1 1)) (V3 m ρ c (Pipeline.arrRef spec1 2)) (V3 m ρ c (Pipeline.arrRef spec1 3)) (V3 m ρ c (Pipeline.arrRef spec1 4)) (V3 m ρ c (Pipeline.arrRef spec1 5)) (V3 m ρ c (Pipeline.arrRef spec1 6)) (V3 m ρ c (Pipeline.arrRef spec1 7)) (V3 m ρ c (Pipeline.arrRef spec1 8)) rfl rfl rfl rfl rfl rfl rfl rfl rfl p q).trans
      (proj_feat_of (gr m c) (pr m c).x (pr m c).w1l (pr m c).w1r (pr m c).b1 (pr m c).mu (pr m c).var (pr m c).gam (pr m c).bet (pr m c).w2l
        (V3 m ρ c (Pipeline.arrRef spec1 0)) (V3 m ρ c (Pipeline.arrRef spec1 1)) (V3 m ρ c (Pipeline.arrRef spec1 2)) (V3 m ρ c (Pipeline.arrRef spec1 3)) (V3 m ρ c (Pipeline.arrRef spec1 4)) (V3 m ρ c (Pipeline.arrRef spec1 5)) (V3 m ρ c (Pipeline.arrRef spec1 6)) (V3 m ρ c (Pipeline.arrRef spec1 7))
        (fun i k => layer1_entry m ρ c i k rfl rfl rfl) (fun k => entry1_mu m ρ c k) (fun k => entry1_var m ρ c k)
        (fun k => entry1_gam m ρ c k) (fun k => entry1_bet m ρ c k) (fun k j => entry1_wl m ρ c k j) p q))

set_option maxHeartbeats 4000000 in
/-- Region 1 leaves `feat · W2r` in its second output. -/
theorem hr_apply (p : Fin 20000) (q : Fin 640) :
    W4 m ρ c (Proc.devRef .tc main_v35_1) (ix2 p q) = mm (feat m c) (pr m c).w2r p q :=
  (congrFun (W4_arr m ρ c 10) (ix2 p q)).trans
    ((region1_hr (V3 m ρ) c (V3 m ρ c (Pipeline.arrRef spec1 0)) (V3 m ρ c (Pipeline.arrRef spec1 1)) (V3 m ρ c (Pipeline.arrRef spec1 2)) (V3 m ρ c (Pipeline.arrRef spec1 3)) (V3 m ρ c (Pipeline.arrRef spec1 4)) (V3 m ρ c (Pipeline.arrRef spec1 5)) (V3 m ρ c (Pipeline.arrRef spec1 6)) (V3 m ρ c (Pipeline.arrRef spec1 7)) (V3 m ρ c (Pipeline.arrRef spec1 8)) rfl rfl rfl rfl rfl rfl rfl rfl rfl p q).trans
      (proj_feat_of (gr m c) (pr m c).x (pr m c).w1l (pr m c).w1r (pr m c).b1 (pr m c).mu (pr m c).var (pr m c).gam (pr m c).bet (pr m c).w2r
        (V3 m ρ c (Pipeline.arrRef spec1 0)) (V3 m ρ c (Pipeline.arrRef spec1 1)) (V3 m ρ c (Pipeline.arrRef spec1 2)) (V3 m ρ c (Pipeline.arrRef spec1 3)) (V3 m ρ c (Pipeline.arrRef spec1 4)) (V3 m ρ c (Pipeline.arrRef spec1 5)) (V3 m ρ c (Pipeline.arrRef spec1 6)) (V3 m ρ c (Pipeline.arrRef spec1 8))
        (fun i k => layer1_entry m ρ c i k rfl rfl rfl) (fun k => entry1_mu m ρ c k) (fun k => entry1_var m ρ c k)
        (fun k => entry1_gam m ρ c k) (fun k => entry1_bet m ρ c k) (fun k j => entry1_wr m ρ c k j) p q))

/-- What region 2 adds up at `(i, k)` is the second layer. -/
theorem layer2_entry (i : Fin 20000) (k : Fin 640) {u v z : EReal}
    (hu : u = V5 m ρ c (Pipeline.arrRef spec2 0) (ix2 i k)) (hv : v = V5 m ρ c (Pipeline.arrRef spec2 1) (ix2 i k))
    (hz : z = V5 m ρ c (Pipeline.arrRef spec2 2) (ix2 0 k)) :
    (u + v) + z = layerK (gr m c) (feat m c) (pr m c).w2l (pr m c).w2r (pr m c).b2 i k :=
  layerK_of
    (hu.trans ((entry2_agg m ρ c i k).trans (congrArg (· * Ideal.div 1 ((gr m c).deg i))
      (ssum_congr (gr m c) (fun i j => hl_apply m ρ c i j) i k))))
    (hv.trans ((congrFun (entry2_hr m ρ c) (ix2 i k)).trans (hr_apply m ρ c i k)))
    (hz.trans (entry2_b2 m ρ c k))

set_option maxHeartbeats 4000000 in
/-- THE KERNEL'S RESULT at `(p, q)`: region 2 leaves the head of the second layer, which is `netK`. -/
theorem kernel_value (p : Fin 20000) (q : Fin 2) :
    W6 m ρ c (Proc.devRef .tc main_v55) (ix2 p q) = netK (gr m c) bnEps (pr m c) p q :=
  (congrFun (W6_arr m ρ c 9) (ix2 p q)).trans
    ((region2_out (V5 m ρ) c (V5 m ρ c (Pipeline.arrRef spec2 0)) (V5 m ρ c (Pipeline.arrRef spec2 1)) (V5 m ρ c (Pipeline.arrRef spec2 2)) (V5 m ρ c (Pipeline.arrRef spec2 3)) (V5 m ρ c (Pipeline.arrRef spec2 4)) (V5 m ρ c (Pipeline.arrRef spec2 5)) (V5 m ρ c (Pipeline.arrRef spec2 6)) (V5 m ρ c (Pipeline.arrRef spec2 7)) (V5 m ρ c (Pipeline.arrRef spec2 8)) rfl rfl rfl rfl rfl rfl rfl rfl rfl p q).trans
      (head_of (layerK (gr m c) (feat m c) (pr m c).w2l (pr m c).w2r (pr m c).b2) (pr m c).l1w (pr m c).l1b (pr m c).l2w (pr m c).l2b
        (pr m c).l3w (pr m c).l3b (V5 m ρ c (Pipeline.arrRef spec2 0)) (V5 m ρ c (Pipeline.arrRef spec2 1)) (V5 m ρ c (Pipeline.arrRef spec2 2)) (V5 m ρ c (Pipeline.arrRef spec2 3)) (V5 m ρ c (Pipeline.arrRef spec2 4)) (V5 m ρ c (Pipeline.arrRef spec2 5)) (V5 m ρ c (Pipeline.arrRef spec2 6)) (V5 m ρ c (Pipeline.arrRef spec2 7)) (V5 m ρ c (Pipeline.arrRef spec2 8))
        (fun i k => layer2_entry m ρ c i k rfl rfl rfl) (fun k j => entry2_w1 m ρ c k j) (fun j => entry2_b3 m ρ c j)
        (fun k j => entry2_w2 m ρ c k j) (fun j => entry2_b4 m ρ c j) (fun k j => entry2_w3 m ρ c k j)
        (fun j => entry2_b5 m ρ c j) p q))

end Cert.KernelIdeal.Val

end
-- ==== Proof.RefRead.lean ====
import proofs.«403081_j87196426043909_3_alg».proof.Proof.Gen.ReferenceIdeal.Read
import proofs.«403081_j87196426043909_3_alg».proof.Proof.Consts

/-!
  The reference program's result, read entry by entry, is the specification's `netR`.

  The program is a straight line of array operations.  Each is read at an index: a slice, a reshape or a broadcast reads
  its operand at a computed index; a pointwise operation reads its operands at the same index; a matrix product is the
  sum over the contracted axis; the two gathers read the row the source column names, and the four scatter-adds add up
  the rows (or the ones) of the edges whose destination is the row at hand.  Chaining these readings from the arguments
  to the result gives, stage by stage: the two index columns, the in-degree, the mean of the neighbours' rows, the first
  layer, its relu and batch normalisation, the second layer over that table, and the three dense layers of the head.
-/

noncomputable section

namespace Cert.ReferenceIdeal.RefVal

open Cert.ReferenceIdeal Cert.ReferenceIdeal.Gen Cert.ReferenceIdeal.Read Idealize.ShloMosaic Idealize.ShloMosaic.ValueIdx
open Cert.Sage

/-! ## The dimension records the program prints are the row gather, the row scatter and the count scatter -/

theorem gather5120_eq : gather_S20000x5120_S32000x1_S32000x5120_1_0_n_n_0_1_15120
    = rowGather 20000 32000 5120 Facts₀.gather_S20000x5120_S32000x1_S32000x5120_1_0_n_n_0_1_15120_wf := rfl

theorem gather1680_eq : gather_S20000x1680_S32000x1_S32000x1680_1_0_n_n_0_1_11680
    = rowGather 20000 32000 1680 Facts₀.gather_S20000x1680_S32000x1_S32000x1680_1_0_n_n_0_1_11680_wf := rfl

theorem scatter5120_eq : scatter_S20000x5120_S32000x1_S32000x5120_1_0_0_1
    = rowScatter 20000 32000 5120 Facts₀.scatter_S20000x5120_S32000x1_S32000x5120_1_0_0_1_wf := rfl

theorem scatter1680_eq : scatter_S20000x1680_S32000x1_S32000x1680_1_0_0_1
    = rowScatter 20000 32000 1680 Facts₀.scatter_S20000x1680_S32000x1_S32000x1680_1_0_0_1_wf := rfl

theorem scatterCnt_eq : scatter_S20000_S32000x1_S32000_n_0_0_1
    = cntScatter 20000 32000 Facts₀.scatter_S20000_S32000x1_S32000_n_0_0_1_wf := rfl

/-- The node count is positive. -/
theorem nodes_pos : 0 < 20000 := by decide

variable (x0 : (⟨S20000x5120, .f32⟩ : BufTy).Contents (Elt Ideal)) (x1 : (⟨S5120x1680, .f32⟩ : BufTy).Contents (Elt Ideal))
  (x2 : (⟨S1680, .f32⟩ : BufTy).Contents (Elt Ideal)) (x3 : (⟨S5120x1680, .f32⟩ : BufTy).Contents (Elt Ideal))
  (x4 : (⟨S1680x640, .f32⟩ : BufTy).Contents (Elt Ideal)) (x5 : (⟨S640, .f32⟩ : BufTy).Contents (Elt Ideal))
  (x6 : (⟨S1680x640, .f32⟩ : BufTy).Contents (Elt Ideal)) (x7 x8 x9 x10 : (⟨S1680, .f32⟩ : BufTy).Contents (Elt Ideal))
  (x11 : (⟨S640x320, .f32⟩ : BufTy).Contents (Elt Ideal)) (x12 : (⟨S320, .f32⟩ : BufTy).Contents (Elt Ideal))
  (x13 : (⟨S320x160, .f32⟩ : BufTy).Contents (Elt Ideal)) (x14 : (⟨S160, .f32⟩ : BufTy).Contents (Elt Ideal))
  (x15 : (⟨S160x2, .f32⟩ : BufTy).Contents (Elt Ideal)) (x16 : (⟨S2, .f32⟩ : BufTy).Contents (Elt Ideal))
  (x17 : (⟨S2x32000, .i32⟩ : BufTy).Contents (Elt Ideal))

/-! ## The two index columns

  Row 0 of `edge_index` is sliced out, flattened, compared with zero, wrapped by the node count where negative, and
  stood up as a column; row 1 is sliced out, flattened and stood up as it is.  The flattening reads position
  `e mod 32000`, which is `e`. -/

/-- The source column of layer 1. -/
theorem srcCol_v9 : val_main_v9 (F := Ideal) x17 = srcCol x17 := by
  funext i
  rw [val_main_v9_apply, val_main_v8_apply, val_main_v5_apply, val_main_v7_apply, val_main_v1_apply, val_main_v0_apply,
    val_main_v4_apply, val_main_c_apply, val_main_v6_apply, val_main_c_0_apply]
  have e : idx_main_v0 (idx_main_v1 (idx_main_v9 i)) = ix2 0 ⟨(i 0).val, idx2_lt0 i⟩ :=
    funext fun a => Fin.ext (by
      match a with
      | ⟨0, _⟩ => rfl
      | ⟨1, _⟩ => exact Nat.mod_eq_of_lt (idx2_lt0 i))
  rw [e]
  rfl

/-- The source column of layer 2: the same operations, printed a second time. -/
theorem srcCol_v50 : val_main_v50 (F := Ideal) x17 = srcCol x17 := by
  funext i
  rw [val_main_v50_apply, val_main_v49_apply, val_main_v46_apply, val_main_v48_apply, val_main_v1_apply, val_main_v0_apply,
    val_main_v45_apply, val_main_c_5_apply, val_main_v47_apply, val_main_c_6_apply]
  have e : idx_main_v0 (idx_main_v1 (idx_main_v50 i)) = ix2 0 ⟨(i 0).val, idx2_lt0 i⟩ :=
    funext fun a => Fin.ext (by
      match a with
      | ⟨0, _⟩ => rfl
      | ⟨1, _⟩ => exact Nat.mod_eq_of_lt (idx2_lt0 i))
  rw [e]
  rfl

/-- The destination column, as the scatter of layer 1's rows reads it. -/
theorem dstCol_v12 : val_main_v12 (F := Ideal) x17 = dstCol x17 := by
  funext i
  rw [val_main_v12_apply, val_main_v3_apply, val_main_v2_apply]
  exact congrArg x17 (funext fun a => Fin.ext (by
    match a with
    | ⟨0, _⟩ => rfl
    | ⟨1, _⟩ => exact Nat.mod_eq_of_lt (idx2_lt0 i)))

/-- The destination column, as the count of layer 1 reads it. -/
theorem dstCol_v16 : val_main_v16 (F := Ideal) x17 = dstCol x17 := by
  funext i
  rw [val_main_v16_apply, val_main_v3_apply, val_main_v2_apply]
  exact congrArg x17 (funext fun a => Fin.ext (by
    match a with
    | ⟨0, _⟩ => rfl
    | ⟨1, _⟩ => exact Nat.mod_eq_of_lt (idx2_lt0 i)))

/-- The destination column, as the scatter of layer 2's rows reads it. -/
theorem dstCol_v53 : val_main_v53 (F := Ideal) x17 = dstCol x17 := by
  funext i
  rw [val_main_v53_apply, val_main_v3_apply, val_main_v2_apply]
  exact congrArg x17 (funext fun a => Fin.ext (by
    match a with
    | ⟨0, _⟩ => rfl
    | ⟨1, _⟩ => exact Nat.mod_eq_of_lt (idx2_lt0 i)))

/-- The destination column, as the count of layer 2 reads it. -/
theorem dstCol_v57 : val_main_v57 (F := Ideal) x17 = dstCol x17 := by
  funext i
  rw [val_main_v57_apply, val_main_v3_apply, val_main_v2_apply]
  exact congrArg x17 (funext fun a => Fin.ext (by
    match a with
    | ⟨0, _⟩ => rfl
    | ⟨1, _⟩ => exact Nat.mod_eq_of_lt (idx2_lt0 i)))

/-! ## The in-degree

  Ones are scatter-added into zeros by the destination column, and the count is raised to at least one. -/

/-- The graph's in-degree, spelt out. -/
theorem deg_eq (i : Fin 20000) :
    (theGraph x17).deg i = max (0 + ∑ _e ∈ landsOn (dstCol x17) i, (1 : EReal)) 1 := rfl

/-- The graph's sum of source rows, spelt out. -/
theorem ssum_eq {C : ℕ} (f : Fin 20000 → Fin C → EReal) (i : Fin 20000) (k : Fin C) :
    (theGraph x17).ssum f i k = 0 + ∑ e ∈ landsOn (dstCol x17) i, f (srcRow nodes_pos (srcCol x17) e) k := rfl

/-- Layer 1's clamped count at node `i` is the in-degree. -/
theorem deg_v19 (i : Fin 20000) : val_main_v19 (F := Ideal) x17 (ix1 i) = (theGraph x17).deg i := by
  rw [val_main_v19_apply, val_main_v18_apply, val_main_cst_3_apply, Ideal.ofBits_def, ofBits_one, Ideal.maximumf_def, deg_eq]
  unfold val_main_v17 Host.scatterAdd
  rw [Ideal.hostScatterAdd_def, scatterCnt_eq, dstCol_v16, scatterAdd_cnt_apply, val_main_v15_apply, val_main_cst_2_apply,
    Ideal.ofBits_def, ofBits_zero]
  refine congrArg (fun s => max (0 + s) 1) (Finset.sum_congr rfl fun e _ => ?_)
  rw [val_main_v14_apply, val_main_cst_1_apply, Ideal.ofBits_def, ofBits_one]

/-- Layer 2's clamped count at node `i` is the in-degree again. -/
theorem deg_v60 (i : Fin 20000) : val_main_v60 (F := Ideal) x17 (ix1 i) = (theGraph x17).deg i := by
  rw [val_main_v60_apply, val_main_v59_apply, val_main_cst_10_apply, Ideal.ofBits_def, ofBits_one, Ideal.maximumf_def, deg_eq]
  unfold val_main_v58 Host.scatterAdd
  rw [Ideal.hostScatterAdd_def, scatterCnt_eq, dstCol_v57, scatterAdd_cnt_apply, val_main_v56_apply, val_main_cst_9_apply,
    Ideal.ofBits_def, ofBits_zero]
  refine congrArg (fun s => max (0 + s) 1) (Finset.sum_congr rfl fun e _ => ?_)
  rw [val_main_v55_apply, val_main_cst_8_apply, Ideal.ofBits_def, ofBits_one]

/-! ## The mean of the neighbours' rows, layer 1 -/

/-- The gathered table at edge `e`: the argument's row at the edge's source. -/
theorem gathered_v10 (e : Fin 32000) (k : Fin 5120) :
    val_main_v10 (F := Ideal) x0 x17 (ix2 e k) = x0 (ix2 (srcRow nodes_pos (srcCol x17) e) k) := by
  unfold val_main_v10
  rw [gather5120_eq, srcCol_v9, gather_rows_apply nodes_pos]

/-- The scatter-added table at node `i`: the sum of the source rows of the edges into `i`. -/
theorem ssum_v13 (i : Fin 20000) (k : Fin 5120) :
    val_main_v13 (F := Ideal) x0 x17 (ix2 i k) = (theGraph x17).ssum (mat x0) i k := by
  unfold val_main_v13 Host.scatterAdd
  rw [Ideal.hostScatterAdd_def, scatter5120_eq, dstCol_v12, scatterAdd_rows_apply, val_main_v11_apply, val_main_cst_apply,
    Ideal.ofBits_def, ofBits_zero, ssum_eq]
  exact congrArg (fun s => 0 + s) (Finset.sum_congr rfl fun e _ => gathered_v10 x0 x17 e k)

/-- The degree, broadcast along the 5120 columns. -/
theorem deg_v21 (i : Fin 20000) (k : Fin 5120) : val_main_v21 (F := Ideal) x17 (ix2 i k) = (theGraph x17).deg i := by
  rw [val_main_v21_apply, val_main_v20_apply]
  have e : idx_main_v20 (idx_main_v21 (ix2 i k)) = ix1 i :=
    funext fun a => Fin.ext (by match a with | ⟨0, _⟩ => rfl)
  rw [e, deg_v19]

/-- The mean of the neighbours' rows. -/
theorem mean_v22 (i : Fin 20000) (k : Fin 5120) :
    val_main_v22 (F := Ideal) x0 x17 (ix2 i k)
      = Ideal.div ((theGraph x17).ssum (mat x0) i k) ((theGraph x17).deg i) := by
  rw [val_main_v22_apply, Ideal.hostDivf_def, ssum_v13, deg_v21]

/-! ## Layer 1 -/

/-- The projected mean: the reference's aggregate. -/
theorem agg_v23 (i : Fin 20000) (j : Fin 1680) :
    val_main_v23 (F := Ideal) x0 x1 x17 (ix2 i j) = aggR (theGraph x17) (mat x0) (mat x1) i j := by
  rw [val_main_v23_apply]
  unfold aggR mm
  refine Finset.sum_congr rfl fun k _ => ?_
  have el : lidx_main_v23 (ix2 i j) k = ix2 i k :=
    funext fun a => Fin.ext (by match a with | ⟨0, _⟩ => rfl | ⟨1, _⟩ => rfl)
  have er : ridx_main_v23 (ix2 i j) k = ix2 k j :=
    funext fun a => Fin.ext (by match a with | ⟨0, _⟩ => rfl | ⟨1, _⟩ => rfl)
  rw [el, er, mean_v22]

/-- The bias of layer 1, broadcast along the rows. -/
theorem bias_v25 (i : Fin 20000) (j : Fin 1680) : val_main_v25 (F := Ideal) x2 (ix2 i j) = vec x2 j := by
  rw [val_main_v25_apply, val_main_v24_apply]
  exact congrArg x2 (funext fun a => Fin.ext (by match a with | ⟨0, _⟩ => rfl))

/-- The self projection of layer 1. -/
theorem self_v27 (i : Fin 20000) (j : Fin 1680) :
    val_main_v27 (F := Ideal) x0 x3 (ix2 i j) = mm (mat x0) (mat x3) i j := by
  rw [val_main_v27_apply]
  unfold mm
  refine Finset.sum_congr rfl fun k _ => ?_
  have el : lidx_main_v27 (ix2 i j) k = ix2 i k :=
    funext fun a => Fin.ext (by match a with | ⟨0, _⟩ => rfl | ⟨1, _⟩ => rfl)
  have er : ridx_main_v27 (ix2 i j) k = ix2 k j :=
    funext fun a => Fin.ext (by match a with | ⟨0, _⟩ => rfl | ⟨1, _⟩ => rfl)
  rw [el, er]

/-- Layer 1 as the reference adds it up. -/
theorem layer_v28 (i : Fin 20000) (j : Fin 1680) :
    val_main_v28 (F := Ideal) x0 x1 x2 x3 x17 (ix2 i j)
      = layerR (theGraph x17) (mat x0) (mat x1) (mat x3) (vec x2) i j := by
  rw [val_main_v28_apply, val_main_v26_apply, Ideal.addf_def, Ideal.addf_def, agg_v23, bias_v25, self_v27]
  rfl

/-! ## The relu and the batch normalisation -/

/-- The table layer 2 reads: layer 1, relu, batch normalisation. -/
def hidden : Fin 20000 → Fin 1680 → EReal :=
  bnorm bnEps (vec x9) (vec x10) (vec x7) (vec x8) (layerR (theGraph x17) (mat x0) (mat x1) (mat x3) (vec x2))

/-- A per-column vector, stood up as a row and broadcast along the rows: read at `(i, j)` it is the vector at `j`. -/
theorem mean_v31 (i : Fin 20000) (j : Fin 1680) : val_main_v31 (F := Ideal) x9 (ix2 i j) = vec x9 j := by
  rw [val_main_v31_apply, val_main_v30_apply]
  exact congrArg x9 (funext fun a => Fin.ext (by match a with | ⟨0, _⟩ => rfl))

theorem rstd_v37 (i : Fin 20000) (j : Fin 1680) :
    val_main_v37 (F := Ideal) x10 (ix2 i j) = Ideal.rsqrt (vec x10 j + bnEps) := by
  rw [val_main_v37_apply, val_main_v36_apply, val_main_v35_apply, Ideal.hostUnary_rsqrt_def, val_main_v34_apply,
    Ideal.addf_def, val_main_v33_apply, val_main_cst_4_apply, Ideal.ofBits_def]
  have e : idx_main_v36 (idx_main_v37 (ix2 i j)) = ix1 j :=
    funext fun a => Fin.ext (by match a with | ⟨0, _⟩ => rfl)
  rw [e]

theorem gamma_v40 (i : Fin 20000) (j : Fin 1680) : val_main_v40 (F := Ideal) x7 (ix2 i j) = vec x7 j := by
  rw [val_main_v40_apply, val_main_v39_apply]
  exact congrArg x7 (funext fun a => Fin.ext (by match a with | ⟨0, _⟩ => rfl))

theorem beta_v43 (i : Fin 20000) (j : Fin 1680) : val_main_v43 (F := Ideal) x8 (ix2 i j) = vec x8 j := by
  rw [val_main_v43_apply, val_main_v42_apply]
  exact congrArg x8 (funext fun a => Fin.ext (by match a with | ⟨0, _⟩ => rfl))

/-- The relu of layer 1. -/
theorem relu_v29 (i : Fin 20000) (j : Fin 1680) :
    val_main_v29 (F := Ideal) x0 x1 x2 x3 x17 (ix2 i j)
      = relu (layerR (theGraph x17) (mat x0) (mat x1) (mat x3) (vec x2) i j) := by
  rw [val_main_v29_apply, val_main_call0_v0_apply, val_main_call0_cst_apply, Ideal.ofBits_def, ofBits_zero,
    Ideal.maximumf_def, layer_v28]
  rfl

/-- The normalised table. -/
theorem hidden_v44 (i : Fin 20000) (j : Fin 1680) :
    val_main_v44 (F := Ideal) x0 x1 x2 x3 x7 x8 x9 x10 x17 (ix2 i j) = hidden x0 x1 x2 x3 x7 x8 x9 x10 x17 i j := by
  rw [val_main_v44_apply, val_main_v41_apply, val_main_v38_apply, val_main_v32_apply, Ideal.addf_def, Ideal.mulf_def,
    Ideal.mulf_def, Ideal.subf_def, relu_v29, mean_v31, rstd_v37, gamma_v40, beta_v43]
  rfl

/-! ## Layer 2, over the normalised table -/

theorem gathered_v51 (e : Fin 32000) (k : Fin 1680) :
    val_main_v51 (F := Ideal) x0 x1 x2 x3 x7 x8 x9 x10 x17 (ix2 e k)
      = hidden x0 x1 x2 x3 x7 x8 x9 x10 x17 (srcRow nodes_pos (srcCol x17) e) k := by
  unfold val_main_v51
  rw [gather1680_eq, srcCol_v50, gather_rows_apply nodes_pos, hidden_v44]

theorem ssum_v54 (i : Fin 20000) (k : Fin 1680) :
    val_main_v54 (F := Ideal) x0 x1 x2 x3 x7 x8 x9 x10 x17 (ix2 i k)
      = (theGraph x17).ssum (hidden x0 x1 x2 x3 x7 x8 x9 x10 x17) i k := by
  unfold val_main_v54 Host.scatterAdd
  rw [Ideal.hostScatterAdd_def, scatter1680_eq, dstCol_v53, scatterAdd_rows_apply, val_main_v52_apply, val_main_cst_7_apply,
    Ideal.ofBits_def, ofBits_zero, ssum_eq]
  exact congrArg (fun s => 0 + s)
    (Finset.sum_congr rfl fun e _ => gathered_v51 x0 x1 x2 x3 x7 x8 x9 x10 x17 e k)

theorem deg_v62 (i : Fin 20000) (k : Fin 1680) : val_main_v62 (F := Ideal) x17 (ix2 i k) = (theGraph x17).deg i := by
  rw [val_main_v62_apply, val_main_v61_apply]
  have e : idx_main_v61 (idx_main_v62 (ix2 i k)) = ix1 i :=
    funext fun a => Fin.ext (by match a with | ⟨0, _⟩ => rfl)
  rw [e, deg_v60]

theorem mean_v63 (i : Fin 20000) (k : Fin 1680) :
    val_main_v63 (F := Ideal) x0 x1 x2 x3 x7 x8 x9 x10 x17 (ix2 i k)
      = Ideal.div ((theGraph x17).ssum (hidden x0 x1 x2 x3 x7 x8 x9 x10 x17) i k) ((theGraph x17).deg i) := by
  rw [val_main_v63_apply, Ideal.hostDivf_def, ssum_v54, deg_v62]

theorem agg_v64 (i : Fin 20000) (j : Fin 640) :
    val_main_v64 (F := Ideal) x0 x1 x2 x3 x4 x7 x8 x9 x10 x17 (ix2 i j)
      = aggR (theGraph x17) (hidden x0 x1 x2 x3 x7 x8 x9 x10 x17) (mat x4) i j := by
  rw [val_main_v64_apply]
  unfold aggR mm
  refine Finset.sum_congr rfl fun k _ => ?_
  have el : lidx_main_v64 (ix2 i j) k = ix2 i k :=
    funext fun a => Fin.ext (by match a with | ⟨0, _⟩ => rfl | ⟨1, _⟩ => rfl)
  have er : ridx_main_v64 (ix2 i j) k = ix2 k j :=
    funext fun a => Fin.ext (by match a with | ⟨0, _⟩ => rfl | ⟨1, _⟩ => rfl)
  rw [el, er, mean_v63]

theorem bias_v66 (i : Fin 20000) (j : Fin 640) : val_main_v66 (F := Ideal) x5 (ix2 i j) = vec x5 j := by
  rw [val_main_v66_apply, val_main_v65_apply]
  exact congrArg x5 (funext fun a => Fin.ext (by match a with | ⟨0, _⟩ => rfl))

theorem self_v68 (i : Fin 20000) (j : Fin 640) :
    val_main_v68 (F := Ideal) x0 x1 x2 x3 x6 x7 x8 x9 x10 x17 (ix2 i j)
      = mm (hidden x0 x1 x2 x3 x7 x8 x9 x10 x17) (mat x6) i j := by
  rw [val_main_v68_apply]
  unfold mm
  refine Finset.sum_congr rfl fun k _ => ?_
  have el : lidx_main_v68 (ix2 i j) k = ix2 i k :=
    funext fun a => Fin.ext (by match a with | ⟨0, _⟩ => rfl | ⟨1, _⟩ => rfl)
  have er : ridx_main_v68 (ix2 i j) k = ix2 k j :=
    funext fun a => Fin.ext (by match a with | ⟨0, _⟩ => rfl | ⟨1, _⟩ => rfl)
  rw [el, er, hidden_v44]

/-- The table the head reads: layer 2 over the normalised table. -/
def second : Fin 20000 → Fin 640 → EReal :=
  layerR (theGraph x17) (hidden x0 x1 x2 x3 x7 x8 x9 x10 x17) (mat x4) (mat x6) (vec x5)

theorem second_v69 (i : Fin 20000) (j : Fin 640) :
    val_main_v69 (F := Ideal) x0 x1 x2 x3 x4 x5 x6 x7 x8 x9 x10 x17 (ix2 i j)
      = second x0 x1 x2 x3 x4 x5 x6 x7 x8 x9 x10 x17 i j := by
  rw [val_main_v69_apply, val_main_v67_apply, Ideal.addf_def, Ideal.addf_def, agg_v64, bias_v66, self_v68]
  rfl

/-! ## The head: relu, then three dense layers with a relu between them -/

/-- The relu of layer 2. -/
def act0 : Fin 20000 → Fin 640 → EReal := fun i k => relu (second x0 x1 x2 x3 x4 x5 x6 x7 x8 x9 x10 x17 i k)

theorem act0_v70 (i : Fin 20000) (j : Fin 640) :
    val_main_v70 (F := Ideal) x0 x1 x2 x3 x4 x5 x6 x7 x8 x9 x10 x17 (ix2 i j)
      = act0 x0 x1 x2 x3 x4 x5 x6 x7 x8 x9 x10 x17 i j := by
  rw [val_main_v70_apply, val_main_call1_v0_apply, val_main_call1_cst_apply, Ideal.ofBits_def, ofBits_zero,
    Ideal.maximumf_def, second_v69]
  rfl

/-- The relu of the first dense layer. -/
def act1 : Fin 20000 → Fin 320 → EReal := fun i k =>
  relu (dense (act0 x0 x1 x2 x3 x4 x5 x6 x7 x8 x9 x10 x17) (mat x11) (vec x12) i k)

theorem act1_v75 (i : Fin 20000) (j : Fin 320) :
    val_main_v75 (F := Ideal) x0 x1 x2 x3 x4 x5 x6 x7 x8 x9 x10 x11 x12 x17 (ix2 i j)
      = act1 x0 x1 x2 x3 x4 x5 x6 x7 x8 x9 x10 x11 x12 x17 i j := by
  rw [val_main_v75_apply, val_main_call2_v0_apply, val_main_call2_cst_apply, Ideal.ofBits_def, ofBits_zero,
    Ideal.maximumf_def, val_main_v74_apply, Ideal.addf_def, val_main_v71_apply, val_main_v73_apply, val_main_v72_apply]
  have eb : idx_main_v72 (idx_main_v73 (ix2 i j)) = ix1 j :=
    funext fun a => Fin.ext (by match a with | ⟨0, _⟩ => rfl)
  rw [eb]
  refine congrArg (fun s => max (s + x12 (ix1 j)) 0) (Finset.sum_congr rfl fun k _ => ?_)
  have el : lidx_main_v71 (ix2 i j) k = ix2 i k :=
    funext fun a => Fin.ext (by match a with | ⟨0, _⟩ => rfl | ⟨1, _⟩ => rfl)
  have er : ridx_main_v71 (ix2 i j) k = ix2 k j :=
    funext fun a => Fin.ext (by match a with | ⟨0, _⟩ => rfl | ⟨1, _⟩ => rfl)
  rw [el, er, act0_v70]

/-- The relu of the second dense layer. -/
def act2 : Fin 20000 → Fin 160 → EReal := fun i k =>
  relu (dense (act1 x0 x1 x2 x3 x4 x5 x6 x7 x8 x9 x10 x11 x12 x17) (mat x13) (vec x14) i k)

theorem act2_v80 (i : Fin 20000) (j : Fin 160) :
    val_main_v80 (F := Ideal) x0 x1 x2 x3 x4 x5 x6 x7 x8 x9 x10 x11 x12 x13 x14 x17 (ix2 i j)
      = act2 x0 x1 x2 x3 x4 x5 x6 x7 x8 x9 x10 x11 x12 x13 x14 x17 i j := by
  rw [val_main_v80_apply, val_main_call3_v0_apply, val_main_call3_cst_apply, Ideal.ofBits_def, ofBits_zero,
    Ideal.maximumf_def, val_main_v79_apply, Ideal.addf_def, val_main_v76_apply, val_main_v78_apply, val_main_v77_apply]
  have eb : idx_main_v77 (idx_main_v78 (ix2 i j)) = ix1 j :=
    funext fun a => Fin.ext (by match a with | ⟨0, _⟩ => rfl)
  rw [eb]
  refine congrArg (fun s => max (s + x14 (ix1 j)) 0) (Finset.sum_congr rfl fun k _ => ?_)
  have el : lidx_main_v76 (ix2 i j) k = ix2 i k :=
    funext fun a => Fin.ext (by match a with | ⟨0, _⟩ => rfl | ⟨1, _⟩ => rfl)
  have er : ridx_main_v76 (ix2 i j) k = ix2 k j :=
    funext fun a => Fin.ext (by match a with | ⟨0, _⟩ => rfl | ⟨1, _⟩ => rfl)
  rw [el, er, act1_v75]

/-- The last dense layer: the program's result at `(p, q)`. -/
theorem out_v84 (p : Fin 20000) (q : Fin 2) :
    val_main_v84 (F := Ideal) x0 x1 x2 x3 x4 x5 x6 x7 x8 x9 x10 x11 x12 x13 x14 x15 x16 x17 (ix2 p q)
      = dense (act2 x0 x1 x2 x3 x4 x5 x6 x7 x8 x9 x10 x11 x12 x13 x14 x17) (mat x15) (vec x16) p q := by
  rw [val_main_v84_apply, Ideal.addf_def, val_main_v81_apply, val_main_v83_apply, val_main_v82_apply]
  have eb : idx_main_v82 (idx_main_v83 (ix2 p q)) = ix1 q :=
    funext fun a => Fin.ext (by match a with | ⟨0, _⟩ => rfl)
  rw [eb]
  refine congrArg (fun s => s + x16 (ix1 q)) (Finset.sum_congr rfl fun k _ => ?_)
  have el : lidx_main_v81 (ix2 p q) k = ix2 p k :=
    funext fun a => Fin.ext (by match a with | ⟨0, _⟩ => rfl | ⟨1, _⟩ => rfl)
  have er : ridx_main_v81 (ix2 p q) k = ix2 k q :=
    funext fun a => Fin.ext (by match a with | ⟨0, _⟩ => rfl | ⟨1, _⟩ => rfl)
  rw [el, er, act2_v80]

/-- The chain of tables above is the specification's net over the arguments' graph and parameters. -/
theorem net_eq (p : Fin 20000) (q : Fin 2) :
    dense (act2 x0 x1 x2 x3 x4 x5 x6 x7 x8 x9 x10 x11 x12 x13 x14 x17) (mat x15) (vec x16) p q
      = netR (theGraph x17) bnEps (paramsOf x0 x1 x2 x3 x4 x5 x6 x7 x8 x9 x10 x11 x12 x13 x14 x15 x16) p q := rfl

/-! ## The run's result -/

/-- THE REFERENCE'S RESULT AT `(p, q)` is the specification's net, of the graph `edge_index` gives and the seventeen float
    arguments, at `(p, q)`. -/
theorem result_apply (m : (ℓ : Loc nD τ sig) → Buf (Elt Ideal) ℓ) (c : Dev nD) (p : Fin 20000) (q : Fin 2) :
    Cert.ReferenceIdeal.Value.res_out0 (F := Ideal) m c (ValueIdx.ix2 p q)
      = Cert.Sage.netR (Cert.Sage.theGraph (m ((c.tc : Thread nD τ).loc main_arg17))) Cert.Sage.bnEps
          (Cert.Sage.paramsOf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16))) p q := by
  show Cert.ReferenceIdeal.Value.res_main_v84 (F := Ideal) m c (ValueIdx.ix2 p q) = _
  rw [val_main_v84_eq, out_v84, net_eq]

end Cert.ReferenceIdeal.RefVal

end
-- ==== Proof.PreDecode.lean ====
import proofs.«403081_j87196426043909_3_alg».proof.Pre_finite_inputs
import proofs.«403081_j87196426043909_3_alg».proof.Proof.Spec
import Idealize.ShloMosaic.Lib.ReduceAll
import Idealize.ShloMosaic.Lib.ValueIdx
import Idealize.ShloMosaic.PureOps.Ideal
import Mathlib.Data.EReal.Basic

/-!
  What the precondition says about the inputs.

  The precondition is a conjunction of seventeen tests "every entry of the array has absolute value below +∞" and one
  test "every entry of the variance array is at least 0".  Each test is an `and` over a whole array of one-bit
  comparisons, and the tests are joined by `and` again; the hypothesis says the result is the bit 1.  An `and` of bits
  is 1 only if every bit is 1, so every single comparison holds.  Over the extended reals `|x| < ⊤` with
  `|x| = max x (−x)` excludes both `x = ⊤` and `x = ⊥`, so `x` is the coercion of a real number; and `0 ≤ x` for such
  an `x` says that real number is non-negative.
-/

noncomputable section

namespace Cert.Sage

open Idealize.ShloMosaic Idealize.ShloMosaic.ValueIdx

/-- The rank-0 shape has exactly one index. -/
instance subsingleton_S_Idx : Subsingleton Cert.Pre_finite_inputs.S_.Idx := ⟨fun a b => funext fun d => d.elim0⟩

/-- The pattern `0x7F800000` (sign 0, exponent all ones, fraction 0) is `+∞`. -/
theorem ofBits_inf_f32 : Ideal.ofBits .f32 0x7F800000#32 = (⊤ : EReal) := by
  simp [Ideal.ofBits, Ideal.ieee]

/-- An extended real whose absolute value `max x (−x)` is below `⊤` is a real number: `⊤` has `max ⊤ ⊥ = ⊤` and
    `⊥` has `max ⊥ ⊤ = ⊤`. -/
theorem isReal_of_abs_lt_top (x : EReal) (h : max x (-x) < ⊤) : IsReal x := by
  induction x using EReal.rec with
  | bot => simp at h
  | coe r => exact ⟨r, rfl⟩
  | top => simp at h

/-- A one-bit comparison that came out 1 holds: `<`. -/
theorem lt_of_cmp_olt {x y : EReal} (h : Ideal.cmp .olt x y = 1#1) : x < y := by
  by_contra hn
  simp [Ideal.cmp, hn] at h

/-- A one-bit comparison that came out 1 holds: `≥`. -/
theorem le_of_cmp_oge {x y : EReal} (h : Ideal.cmp .oge x y = 1#1) : y ≤ x := by
  by_contra hn
  simp [Ideal.cmp, hn] at h

variable {S : Shape} {axes : List (Fin S.rank)}

/-- One finiteness test read back: if "all entries of `|x|` are below the splat of `+∞`" came out 1, every entry of
    `x` is a real number. -/
theorem all_lt_inf (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu j = 1#1) :
    ∀ i, IsReal (x i) := by
  intro i
  have h1 := Host.reduce_andi_all _ _ hr hu j e i
  have h2 : Ideal.cmp .olt (max (x i) (-(x i))) (Ideal.ofBits .f32 0x7F800000#32) = 1#1 := h1
  rw [ofBits_inf_f32] at h2
  exact isReal_of_abs_lt_top _ (lt_of_cmp_olt h2)

/-- The sign test read back: if "all entries of `x` are at least the splat of 0" came out 1, every entry is `≥ 0`. -/
theorem all_ge_zero (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .oge x
            (broadcastInDim S ![] hb (constant (F := Ideal) Cert.Pre_finite_inputs.S_ .f32 0x00000000#32)))
          (constantI Cert.Pre_finite_inputs.S_ 1 1#1) hr hu j = 1#1) :
    ∀ i, (0 : EReal) ≤ x i := by
  intro i
  have h1 := Host.reduce_andi_all _ _ hr hu j e i
  have h2 : Ideal.cmp .oge (x i) (Ideal.ofBits .f32 0x00000000#32) = 1#1 := h1
  have hz : Ideal.ofBits .f32 0x00000000#32 = (0 : EReal) := by simp [Ideal.ofBits, Ideal.ieee]
  rw [hz] at h2
  exact le_of_cmp_oge h2

/-- What the precondition gives about the eleven arrays the algebra needs: the first ten have real entries, the
    eleventh (the running variance) has non-negative real entries. -/
structure Decoded
    (x0 : FVec Ideal Cert.Pre_finite_inputs.S20000x5120 .f32)
    (x1 : FVec Ideal Cert.Pre_finite_inputs.S5120x1680 .f32) (x2 : FVec Ideal Cert.Pre_finite_inputs.S1680 .f32)
    (x3 : FVec Ideal Cert.Pre_finite_inputs.S5120x1680 .f32)
    (x4 : FVec Ideal Cert.Pre_finite_inputs.S1680x640 .f32) (x5 : FVec Ideal Cert.Pre_finite_inputs.S640 .f32)
    (x6 : FVec Ideal Cert.Pre_finite_inputs.S1680x640 .f32) (x7 : FVec Ideal Cert.Pre_finite_inputs.S1680 .f32)
    (x8 : FVec Ideal Cert.Pre_finite_inputs.S1680 .f32) (x9 : FVec Ideal Cert.Pre_finite_inputs.S1680 .f32)
    (x10 : FVec Ideal Cert.Pre_finite_inputs.S1680 .f32) : Prop where
  r0 : ∀ i, IsReal (x0 i)
  r1 : ∀ i, IsReal (x1 i)
  r2 : ∀ i, IsReal (x2 i)
  r3 : ∀ i, IsReal (x3 i)
  r4 : ∀ i, IsReal (x4 i)
  r5 : ∀ i, IsReal (x5 i)
  r6 : ∀ i, IsReal (x6 i)
  r7 : ∀ i, IsReal (x7 i)
  r8 : ∀ i, IsReal (x8 i)
  r9 : ∀ i, IsReal (x9 i)
  r10 : ∀ i, ∃ r : ℝ, 0 ≤ r ∧ x10 i = (r : EReal)

/-- A real number whose coercion is at least 0 is at least 0; with realness this gives the non-negative witness. -/
theorem nonneg_witness {x : EReal} (hr : IsReal x) (h0 : (0 : EReal) ≤ x) :
    ∃ r : ℝ, 0 ≤ r ∧ x = (r : EReal) := by
  obtain ⟨r, rfl⟩ := hr
  exact ⟨r, EReal.coe_nonneg.1 h0, rfl⟩

/-- The precondition read back.  The predicate is a left-nested chain of eighteen `and`s over one-bit
    results; its value 1 at the only index splits into the eighteen tests, of which the first eleven finiteness
    tests and the final sign test are used. -/
theorem pre_decode [Cert.Pre_finite_inputs.Facts]
    (x0 : FVec Ideal Cert.Pre_finite_inputs.S20000x5120 .f32)
    (x1 : FVec Ideal Cert.Pre_finite_inputs.S5120x1680 .f32) (x2 : FVec Ideal Cert.Pre_finite_inputs.S1680 .f32)
    (x3 : FVec Ideal Cert.Pre_finite_inputs.S5120x1680 .f32)
    (x4 : FVec Ideal Cert.Pre_finite_inputs.S1680x640 .f32) (x5 : FVec Ideal Cert.Pre_finite_inputs.S640 .f32)
    (x6 : FVec Ideal Cert.Pre_finite_inputs.S1680x640 .f32) (x7 : FVec Ideal Cert.Pre_finite_inputs.S1680 .f32)
    (x8 : FVec Ideal Cert.Pre_finite_inputs.S1680 .f32) (x9 : FVec Ideal Cert.Pre_finite_inputs.S1680 .f32)
    (x10 : FVec Ideal Cert.Pre_finite_inputs.S1680 .f32) (x11 : FVec Ideal Cert.Pre_finite_inputs.S640x320 .f32)
    (x12 : FVec Ideal Cert.Pre_finite_inputs.S320 .f32) (x13 : FVec Ideal Cert.Pre_finite_inputs.S320x160 .f32)
    (x14 : FVec Ideal Cert.Pre_finite_inputs.S160 .f32) (x15 : FVec Ideal Cert.Pre_finite_inputs.S160x2 .f32)
    (x16 : FVec Ideal Cert.Pre_finite_inputs.S2 .f32) (x17 : IVec Cert.Pre_finite_inputs.S2x32000 32)
    (h : Cert.Pre_finite_inputs.fn (F := Ideal) x0 x1 x2 x3 x4 x5 x6 x7 x8 x9 x10 x11 x12 x13 x14 x15 x16 x17
          = fun _ => 1#1) :
    Decoded x0 x1 x2 x3 x4 x5 x6 x7 x8 x9 x10 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h0
  simp only [IntOp.andi_eq_one] at h0
  obtain ⟨⟨⟨⟨⟨⟨⟨⟨⟨⟨⟨⟨⟨⟨⟨⟨⟨c0, c1⟩, c2⟩, c3⟩, c4⟩, c5⟩, c6⟩, c7⟩, c8⟩, c9⟩, c10⟩, _c11⟩, _c12⟩, _c13⟩, _c14⟩, _c15⟩,
    _c16⟩, cge⟩ := h0
  exact
    { r0 := all_lt_inf x0 _ _ _ _ c0
      r1 := all_lt_inf x1 _ _ _ _ c1
      r2 := all_lt_inf x2 _ _ _ _ c2
      r3 := all_lt_inf x3 _ _ _ _ c3
      r4 := all_lt_inf x4 _ _ _ _ c4
      r5 := all_lt_inf x5 _ _ _ _ c5
      r6 := all_lt_inf x6 _ _ _ _ c6
      r7 := all_lt_inf x7 _ _ _ _ c7
      r8 := all_lt_inf x8 _ _ _ _ c8
      r9 := all_lt_inf x9 _ _ _ _ c9
      r10 := fun i => nonneg_witness (all_lt_inf x10 _ _ _ _ c10 i) (all_ge_zero x10 _ _ _ _ cge i) }

end Cert.Sage

end
-- ==== Proof.Algebra.lean ====
import proofs.«403081_j87196426043909_3_alg».proof.Proof.Spec
import Mathlib.Data.EReal.Operations
import Mathlib.Algebra.BigOperators.Ring.Finset

/-!
  The two nets are one function when every parameter is a real number.

  The nets differ only in how a layer adds up: the kernel projects each source row and then averages over the
  incoming edges, the reference averages the rows and then projects.  Averaging is linear, so over the reals the
  two agree; the bias and the self projection are then added in two different orders, which agree in any
  commutative monoid.  The extended reals do not distribute at opposite infinities, so the argument goes through
  real witnesses: each entry is written as the coercion of a real, the coercion is pushed to the outside, and the
  identity is closed in the reals.  For the second layer the input is the normalised first layer, so one also
  needs that a layer and the normalisation send real entries to real entries.
-/

noncomputable section

namespace Cert.Sage

open Idealize.ShloMosaic

/-! ### Real-valued extended reals are closed under the operations the nets use -/

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is one of them. -/
theorem IsReal.max {x y : EReal} (hx : IsReal x) (hy : IsReal y) : IsReal (max x y) := by
  obtain ⟨a, rfl⟩ := hx
  obtain ⟨b, rfl⟩ := hy
  rcases le_total a b with h | h
  · exact ⟨b, max_eq_right (EReal.coe_le_coe_iff.mpr h)⟩
  · exact ⟨a, max_eq_left (EReal.coe_le_coe_iff.mpr h)⟩

/-- The coercion from the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun k hk => h k (Finset.mem_insert_of_mem hk))

/-- Dividing by a nonzero real is multiplying by its reciprocal, so it keeps a real real. -/
theorem IsReal.div_coe {x : EReal} (hx : IsReal x) {r : ℝ} (hr : r ≠ 0) : IsReal (Ideal.div x (r : EReal)) := by
  rw [Ideal.div_coe hr]
  exact hx.mul (IsReal.coe _)

/-- The reciprocal square root of a positive real is a real. -/
theorem IsReal.rsqrt_pos {s : ℝ} (hs : 0 < s) : IsReal (Ideal.rsqrt (s : EReal)) := by
  rw [Ideal.rsqrt_coe, if_neg (not_lt.mpr hs.le), if_neg hs.ne']
  exact IsReal.coe _

theorem IsReal.relu {x : EReal} (hx : IsReal x) : IsReal (relu x) := hx.max IsReal.zero

variable {N M K C : ℕ}

theorem isReal_mm {A K B : ℕ} {a : Fin A → Fin K → EReal} {w : Fin K → Fin B → EReal}
    (ha : ∀ i k, IsReal (a i k)) (hw : ∀ k j, IsReal (w k j)) (i : Fin A) (j : Fin B) : IsReal (mm a w i j) :=
  IsReal.sum _ _ fun k _ => (ha i k).mul (hw k j)

theorem isReal_ssum (G : Graph N M) {f : Fin N → Fin C → EReal} (hf : ∀ i j, IsReal (f i j))
    (i : Fin N) (j : Fin C) : IsReal (G.ssum f i j) :=
  IsReal.zero.add (IsReal.sum _ _ fun e _ => hf (G.src e) j)

/-! ### The in-degree is a real number, at least one -/

theorem deg_real (G : Graph N M) (i : Fin N) : ∃ d : ℝ, 1 ≤ d ∧ G.deg i = (d : EReal) := by
  obtain ⟨c, hc⟩ : IsReal (0 + ∑ _e ∈ G.into i, (1 : EReal)) :=
    IsReal.zero.add (IsReal.sum _ _ fun _ _ => IsReal.one)
  refine ⟨max c 1, le_max_right c 1, ?_⟩
  unfold Graph.deg
  rw [hc]
  rcases le_total c 1 with h | h
  · rw [max_eq_right h, ← EReal.coe_one, max_eq_right (EReal.coe_le_coe_iff.mpr h)]
  · rw [max_eq_left h, ← EReal.coe_one, max_eq_left (EReal.coe_le_coe_iff.mpr h)]

/-! ### The mean of the projected rows is the projection of the mean row -/

theorem agg_eq (G : Graph N M) (a : Fin N → Fin K → EReal) (wl : Fin K → Fin C → EReal)
    (ha : ∀ i k, IsReal (a i k)) (hwl : ∀ k j, IsReal (wl k j)) (i : Fin N) (j : Fin C) :
    aggK G a wl i j = aggR G a wl i j := by
  obtain ⟨d, hd1, hd⟩ := deg_real G i
  have hd0 : d ≠ 0 := (lt_of_lt_of_le one_pos hd1).ne'
  choose ar har using ha
  choose wr hwr using hwl
  obtain rfl : a = fun i k => (ar i k : EReal) := funext fun i => funext fun k => har i k
  obtain rfl : wl = fun k j => (wr k j : EReal) := funext fun k => funext fun j => hwr k j
  unfold aggK aggR Graph.ssum mm
  simp only [hd, Ideal.div_coe hd0, zero_add, one_mul, ← EReal.coe_mul, ← coe_sum]
  rw [EReal.coe_eq_coe_iff]
  -- in the reals: distribute the reciprocal and the weight over the edge sum, and swap the two sums
  rw [Finset.sum_comm]
  simp only [Finset.sum_mul]
  refine Finset.sum_congr rfl fun k _ => Finset.sum_congr rfl fun e _ => ?_
  ring

/-! ### The two layers agree, and a layer keeps real entries real -/

theorem layer_eq (G : Graph N M) (a : Fin N → Fin K → EReal) (wl wr : Fin K → Fin C → EReal) (b : Fin C → EReal)
    (ha : ∀ i k, IsReal (a i k)) (hwl : ∀ k j, IsReal (wl k j)) :
    layerK G a wl wr b = layerR G a wl wr b := by
  funext i j
  unfold layerK layerR
  rw [agg_eq G a wl ha hwl i j, add_right_comm]

theorem isReal_layerR (G : Graph N M) (a : Fin N → Fin K → EReal) (wl wr : Fin K → Fin C → EReal) (b : Fin C → EReal)
    (ha : ∀ i k, IsReal (a i k)) (hwl : ∀ k j, IsReal (wl k j)) (hwr : ∀ k j, IsReal (wr k j))
    (hb : ∀ j, IsReal (b j)) (i : Fin N) (j : Fin C) : IsReal (layerR G a wl wr b i j) := by
  unfold layerR aggR
  refine ((isReal_mm (fun i k => ?_) hwl i j).add (hb j)).add (isReal_mm ha hwr i j)
  obtain ⟨d, hd1, hd⟩ := deg_real G i
  rw [hd]
  exact (isReal_ssum G ha i k).div_coe (lt_of_lt_of_le one_pos hd1).ne'

/-- Normalisation with a non-negative variance and a positive ε keeps real entries real. -/
theorem isReal_bnorm (eps : EReal) (heps : ∃ r : ℝ, 0 < r ∧ eps = (r : EReal)) (mu var gam bet : Fin C → EReal)
    (hmu : ∀ j, IsReal (mu j)) (hvar : ∀ j, ∃ r : ℝ, 0 ≤ r ∧ var j = (r : EReal))
    (hgam : ∀ j, IsReal (gam j)) (hbet : ∀ j, IsReal (bet j))
    (h : Fin N → Fin C → EReal) (hh : ∀ i j, IsReal (h i j)) (i : Fin N) (j : Fin C) :
    IsReal (bnorm eps mu var gam bet h i j) := by
  obtain ⟨e, he, rfl⟩ := heps
  obtain ⟨v, hv, hvj⟩ := hvar j
  unfold bnorm
  rw [hvj, ← EReal.coe_add]
  exact ((((hh i j).relu.sub (hmu j)).mul (IsReal.rsqrt_pos (add_pos_of_nonneg_of_pos hv he))).mul (hgam j)).add
    (hbet j)

/-! ### The nets -/

theorem net_eq {N M K C D A B O : ℕ} (G : Graph N M) (eps : EReal) (heps : ∃ r : ℝ, 0 < r ∧ eps = (r : EReal))
    (P : Params N K C D A B O) (hP : P.Real) : netK G eps P = netR G eps P := by
  unfold netK netR
  rw [layer_eq G P.x P.w1l P.w1r P.b1 hP.x hP.w1l]
  rw [layer_eq G _ P.w2l P.w2r P.b2
    (isReal_bnorm eps heps P.mu P.var P.gam P.bet hP.mu hP.var hP.gam hP.bet _
      (isReal_layerR G P.x P.w1l P.w1r P.b1 hP.x hP.w1l hP.w1r hP.b1)) hP.w2l]

end Cert.Sage

end
-- ==== Proof.lean ====
/-
  The certificate's claim: the Pallas SAGE kernel (project, then aggregate over the graph's edges, in three fused
  kernels) against the jnp reference (aggregate, then project), equal as extended reals on every input whose floats
  are finite and whose batch-norm variances are non-negative.

  The kernel's result array is read off its run region by region: region 0 leaves the two projections of `x`, the host
  aggregates the left one over the edges, region 1 adds, normalises and projects again, the host aggregates again, and
  region 2 applies the dense head; index by index that is the function `netK` of the eighteen arguments.  The
  reference's result is `netR` of the same arguments.  The two differ only in where the per-node mean stands relative
  to the projection, and the mean is linear: over real entries `netK = netR`.  The precondition makes every entry that
  meets the mean a real number (the variances being non-negative keeps `rsqrt (var + ε)` finite).
-/
import proofs.«403081_j87196426043909_3_alg».proof.Defs
import proofs.«403081_j87196426043909_3_alg».proof.Proof.Gen.Kernel
import proofs.«403081_j87196426043909_3_alg».proof.Proof.KernelFrameP
import proofs.«403081_j87196426043909_3_alg».proof.Proof.Gen.KernelIdeal
import proofs.«403081_j87196426043909_3_alg».proof.Proof.KernelIdealFrameP
import proofs.«403081_j87196426043909_3_alg».proof.Proof.KernelIdealRunP
import proofs.«403081_j87196426043909_3_alg».proof.Proof.KValue
import proofs.«403081_j87196426043909_3_alg».proof.Proof.Gen.ReferenceIdeal
import proofs.«403081_j87196426043909_3_alg».proof.Proof.Gen.ReferenceIdeal.Run
import proofs.«403081_j87196426043909_3_alg».proof.Proof.RefRead
import proofs.«403081_j87196426043909_3_alg».proof.Proof.Gen.Pre_finite_inputs
import proofs.«403081_j87196426043909_3_alg».proof.Proof.PreDecode
import proofs.«403081_j87196426043909_3_alg».proof.Proof.Algebra
import proofs.«403081_j87196426043909_3_alg».proof.Proof.Consts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Under the precondition the parameters are real numbers and the variances non-negative. -/
theorem params_real (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.Sage.paramsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).Real := by
  have d := Cert.Sage.pre_decode _ _ _ _ _ _ _ _ _ _ _ _ _ _ _ _ _ _ (hpre c)
  exact ⟨fun i k => d.r0 _, fun k j => d.r1 _, fun j => d.r2 _, fun k j => d.r3 _, fun k j => d.r4 _, fun j => d.r5 _,
    fun k j => d.r6 _, fun j => d.r7 _, fun j => d.r8 _, fun j => d.r9 _, fun j => d.r10 _⟩

/-- Both programs end with the same result: the kernel's array is `netK` of the arguments, the reference's `netR` of
    arguments that agree, and the two nets are one function on real parameters. -/
theorem algebraic : Cert.algebraic_KernelIdeal_ReferenceIdeal := by
  intro m ρ m' ρ' hpre hagree
  refine ⟨fun c => Cert.KernelIdeal.GenP.W6 (F := Ideal) m ρ c (Proc.devRef .tc Cert.KernelIdeal.main_v55),
    Cert.KernelIdeal.GenP.run_value (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨p, q, rfl⟩ : ∃ (p : Fin 20000) (q : Fin 2), i = ValueIdx.ix2 p q := ⟨i 0, i 1, ValueIdx.eq_ix2 i⟩
  refine (Cert.ReferenceIdeal.RefVal.result_apply m' c p q).trans ?_
  refine Eq.trans ?_ (Cert.KernelIdeal.Val.kernel_value m ρ c p q).symm
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]
  exact congrFun (congrFun (Cert.Sage.net_eq _ _ Cert.Sage.bnEps_pos _ (params_real m hpre c)).symm p) q

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
